-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![1024, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S1024x2048 : Shape := ⟨2, ![1024, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel

variable [Facts]

def fn {F : FTy → Type} [FloatOps F] (main_arg0 : FVec F S1024x2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  main_v3
-- ==== Kernel.lean ====
abbrev S1024x512 : Shape := ⟨2, ![1024, 512]⟩
abbrev S4x8x128 : Shape := ⟨3, ![4, 8, 128]⟩
abbrev S4 : Shape := ⟨1, ![4]⟩
abbrev S_ : Shape := ⟨0, ![]⟩
abbrev S1024 : Shape := ⟨1, ![1024]⟩
abbrev S1024x1 : Shape := ⟨2, ![1024, 1]⟩
abbrev S8x128 : Shape := ⟨2, ![8, 128]⟩
abbrev S1x8x128 : Shape := ⟨3, ![1, 8, 128]⟩
abbrev S1 : Shape := ⟨1, ![1]⟩
abbrev S1024x8 : Shape := ⟨2, ![1024, 8]⟩
abbrev S1024x128 : Shape := ⟨2, ![1024, 128]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x512, .bf16⟩
  | .local _ .vmem, ⟨0, _⟩ => ⟨S1024x512, .f32⟩
  | .local _ .vmem, ⟨1, _⟩ => ⟨S1024x512, .bf16⟩
  | .local _ .vmem, ⟨2, _⟩ => ⟨S4x8x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v28 : BitVec 32 := Scalar.addi v2 c1_i32_19
  let c4_i32_20 : BitVec 32 := 4#32
  let v29 : BitVec 32 := Scalar.remsi v28 c4_i32_20
  let c1_i32_25 : BitVec 32 := 1#32
  let v30 : BitVec 32 := Scalar.muli v29 c1_i32_25
  let v31 : BitVec 32 := Scalar.addi c0_i32_26 v30
  v31.toNat
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_31 : BitVec 32 := 2#32
  let v40 : BitVec 32 := Scalar.addi v2 c2_i32_31
  let c4_i32_32 : BitVec 32 := 4#32
  let v41 : BitVec 32 := Scalar.remsi v40 c4_i32_32
  let c1_i32_37 : BitVec 32 := 1#32
  let v42 : BitVec 32 := Scalar.muli v41 c1_i32_37
  let v43 : BitVec 32 := Scalar.addi c0_i32_38 v42
  v43.toNat
def k0_dev6 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_43 : BitVec 32 := 3#32
  let v52 : BitVec 32 := Scalar.addi v2 c3_i32_43
  let c4_i32_44 : BitVec 32 := 4#32
  let v53 : BitVec 32 := Scalar.remsi v52 c4_i32_44
  let c1_i32_49 : BitVec 32 := 1#32
  let v54 : BitVec 32 := Scalar.muli v53 c1_i32_49
  let v55 : BitVec 32 := Scalar.addi c0_i32_50 v54
  v55.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  reduces_S1024x512_S1024 : S1024x512.Reduces [1] S1024
  shapeCasts_S1024_S1024x1 : S1024.ShapeCasts S1024x1
  packedbf16_S1024x512_S1024x512_0_0 : (Rect.unit (s := S1024x512) ![0, 0] S1024x512.size inb_S1024x512_S1024x512_0_0).PackedRows (EltTy.packing .bf16)
  shapeCasts_S1024x1_S8x128 : S1024x1.ShapeCasts S8x128
  inb_S4x8x128_S1x8x128_0_0_0 : ∀ a, (![0, 0, 0] : Fin 3 → Nat) a + S1x8x128.size a ≤ S4x8x128.size a
  h_S1x8x128 : 0 < S1x8x128.numel
  shapeCasts_S1x8x128_S8x128 : S1x8x128.ShapeCasts S8x128
  shapeCasts_S8x128_S1x8x128 : S8x128.ShapeCasts S1x8x128
  hamt_3 : (3#32 : BitVec 32).msb = false
  inb_S4_S1_1 : ∀ a, (![1] : Fin 1 → Nat) a + S1.size a ≤ S4.size a
  squeezes_S1_S_ : S1.Squeezes S_
  inb_S4x8x128_S1x8x128_1_0_0 : ∀ a, (![1, 0, 0] : Fin 3 → Nat) a + S1x8x128.size a ≤ S4x8x128.size a
  squeezes_S1x8x128_S8x128 : S1x8x128.Squeezes S8x128
  inb_S4_S1_2 : ∀ a, (![2] : Fin 1 → Nat) a + S1.size a ≤ S4.size a
  inb_S4x8x128_S1x8x128_2_0_0 : ∀ a, (![2, 0, 0] : Fin 3 → Nat) a + S1x8x128.size a ≤ S4x8x128.size a
  inb_S4_S1_3 : ∀ a, (![3] : Fin 1 → Nat) a + S1.size a ≤ S4.size a
  inb_S4x8x128_S1x8x128_3_0_0 : ∀ a, (![3, 0, 0] : Fin 3 → Nat) a + S1x8x128.size a ≤ S4x8x128.size a
  iota_S1024x8_d0_w32 : S1024x8.Iotas .tc 32 [0]
  natLt_1_32 : 1 < 32
  iota_S1024x8_d1_w32 : S1024x8.Iotas .tc 32 [1]
  iota_S1024x128_d0_w32 : S1024x128.Iotas .tc 32 [0]
  broadcasts_S1024x128_S1024x128 : S1024x128.Broadcasts S1024x128
  iota_S1024x128_d1_w32 : S1024x128.Iotas .tc 32 [1]
  reduces_S1024x128_S1024 : S1024x128.Reduces [1] S1024
  broadcasts_S1024x1_S1024x512 : S1024x1.Broadcasts S1024x512
  dot_S1024x8_S8x128_S1024x128_1_0_0_1_n_n_wf : DotDims.WF S1024x8 S8x128 S1024x128 [1] [0] [0] [1] [] []
  hcc0_scratch1 : 2 + S4.numel ≤ 10
  hcc0_scratch2 : 6 + S4.numel ≤ 10
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch1 : DmaSems sig S4 := SemArray.consecutive 2 S4 hcc0_scratch1
abbrev cc0_scratch2 : DmaSems sig S4 := SemArray.consecutive 6 S4 hcc0_scratch2
def dot_S1024x8_S8x128_S1024x128_1_0_0_1_n_n : DotDims S1024x8 S8x128 S1024x128 where
  lhsContracting := [1]
  rhsContracting := [0]
  lhsNonContracting := [0]
  rhsNonContracting := [1]
  lhsBatch := []
  rhsBatch := []
  wf := dot_S1024x8_S8x128_S1024x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S_ : Shape := ⟨0, ![]⟩
abbrev S1024 : Shape := ⟨1, ![1024]⟩
abbrev S1024x1 : Shape := ⟨2, ![1024, 1]⟩

abbrev nBuf : Space → Nat
  | .hbm => 13
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x2048, .f32⟩
  | .hbm, ⟨11, _⟩ => ⟨S1024x2048, .f32⟩
  | .hbm, ⟨12, _⟩ => ⟨S1024x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  reducesTo_S1024x2048_S1024_d1 : S1024x2048.ReducesTo [1] S1024
  h_S_ : 0 < S_.numel
  bcast_S1024_S1024x1_0 : S1024.BroadcastsInDim S1024x1 (![0] : Fin 1 → Fin S1024x1.rank)
  bcast_S1024x1_S1024x2048_0_1 : S1024x1.BroadcastsInDim S1024x2048 (![0, 1] : Fin 2 → Fin S1024x2048.rank)
  bitsLt_bf16_f32 : FTy.bits .bf16 < FTy.bits .f32

variable [Facts₀]

class Facts : Prop extends Facts₀ where

variable [Facts]
-- ==== Proof.Kernel.Out.lean ====
/-
  What each device's result buffer holds when the kernel has run, as ONE pure term of the four devices'
  input blocks. Device `c` keeps in slot 0 of its statistics buffer the row sums of the exponentials of
  its own block; slot `k` (k = 1, 2, 3) receives the row sums of the device `k` places before it on the
  ring of four. The result is the exponential of the own block, row by row times the reciprocal of the
  sum of the four slots.
-/
import proofs.«901059_g7700000000001060_dist_softmax_colshard_i_m1024_n512_v7x_i4_bf16_1_alg».proof.Proof.Gen.Kernel.Skeleton

noncomputable section

namespace Cert.Kernel.Hand

open Idealize.ShloMosaic Cert.Kernel Cert.Kernel.Gen

variable {F : FTy → Type} [FloatOps F]

/-- The device `k` places before `c` on the ring of four: the one whose copy lands in `c`'s slot `k`. -/
def src (c : Dev nD) (k : ℕ) : Dev nD := ⟨(c.val + (4 - k % 4)) % 4, Nat.mod_lt _ (by decide)⟩

/-- The row sums of the exponentials of a block, laid out as the statistics slot holds them. -/
abbrev partial_ (x : Vec F S1024x512 .f32) : FVec F S1x8x128 .f32 := k0_pay3 x

/-- Device `c`'s result: the exponentials of its block scaled, row by row, by the reciprocal of the sum of
    the four devices' row sums. -/
def outVal (xs : Dev nD → Vec F S1024x512 .f32) (c : Dev nD) : FVec F S1024x512 .bf16 :=
  k0_pay1 (k0_pay4 (partial_ (xs c)) (partial_ (xs (src c 1))) (partial_ (xs (src c 2))) (partial_ (xs (src c 3))))
    k0_pay5 (k0_pay2 (xs c))

end Cert.Kernel.Hand

end
-- ==== Proof.Kernel.Sched.lean ====
/-
  The cross-device protocol of the column-sharded softmax on four devices, as a schedule of rounds.

  Every device signals the barrier semaphore of each of the three others once and waits for three units on
  its own: after that wait all three peers are inside the kernel. A peer's signal hands over the slot of
  the peer's statistics buffer that the waiter is going to write, and the fact that the peer's receive
  cell for that slot has reached round 0. Then each device copies slot 0 of its statistics buffer (the
  row sums of its own block) into slot `k` of the device `k` places after it, for k = 1, 2, 3: the copy
  credits the sender's send cell `k` (which hands a share of slot 0 back) and the receiver's receive cell
  `k` (which hands the receiver its slot `k`, now holding the sender's row sums).
-/
import proofs.«901059_g7700000000001060_dist_softmax_colshard_i_m1024_n512_v7x_i4_bf16_1_alg».proof.Proof.Kernel.Out
import proofs.«901059_g7700000000001060_dist_softmax_colshard_i_m1024_n512_v7x_i4_bf16_1_alg».proof.Proof.Gen.Kernel.Launch
import proofs.«901059_g7700000000001060_dist_softmax_colshard_i_m1024_n512_v7x_i4_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the protocol's (duties `Fin 4`) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of four -/

/-- The device `k` places after `c`: the one `c`'s copy `k` is addressed to. -/
def fwd (c : Dev nD) (k : ℕ) : Dev nD := ⟨(c.val + k) % 4, Nat.mod_lt _ (by decide)⟩

theorem src_fwd (c : Dev nD) (k : Fin 4) : src (fwd c k.val) k.val = c := by revert c k; decide
theorem fwd_src (c : Dev nD) (k : Fin 4) : fwd (src c k.val) k.val = c := by revert c k; decide

/-- The kernel's `device_id` chains. -/
theorem dev1_eq (c : Dev nD) : (⟨k0_dev1 c, k0_dev1_lt c⟩ : Dev nD) = fwd c 1 := Fin.ext (k0_dev1_eq c)
theorem dev2_eq (c : Dev nD) : (⟨k0_dev2 c, k0_dev2_lt c⟩ : Dev nD) = fwd c 2 := Fin.ext (k0_dev2_eq c)
theorem dev3_eq (c : Dev nD) : (⟨k0_dev3 c, k0_dev3_lt c⟩ : Dev nD) = fwd c 3 := Fin.ext (k0_dev3_eq c)
theorem dev4_eq (c : Dev nD) : (⟨k0_dev4 c, k0_dev4_lt c⟩ : Dev nD) = fwd c 1 := Fin.ext (k0_dev4_eq c)
theorem dev5_eq (c : Dev nD) : (⟨k0_dev5 c, k0_dev5_lt c⟩ : Dev nD) = fwd c 2 := Fin.ext (k0_dev5_eq c)
theorem dev6_eq (c : Dev nD) : (⟨k0_dev6 c, k0_dev6_lt c⟩ : Dev nD) = fwd c 3 := Fin.ext (k0_dev6_eq c)

/-! ## The memrefs and cells -/

abbrev xM : Memref sig .tc .vmem S1024x512 .f32 := Memref.whole cc0_stg0_0
abbrev oM : Memref sig .tc .vmem S1024x512 .bf16 := Memref.whole cc0_stg1_0
abbrev rM : Memref sig .tc .vmem S4x8x128 .f32 := Memref.whole cc0_scratch0

/-- Slot `k` of the statistics buffer, as the kernel's copies and waits name it. -/
abbrev slotM : Fin 4 → Memref sig .tc .vmem S8x128 .f32
  | 0 => (rM.slice (Rect.unit (s := S4x8x128) ![0, 0, 0] S1x8x128.size Facts₀.inb_S4x8x128_S1x8x128_0_0_0) (fun _ => rfl)).squeeze S8x128 Facts₀.squeezes_S1x8x128_S8x128
  | 1 => (rM.slice (Rect.unit (s := S4x8x128) ![1, 0, 0] S1x8x128.size Facts₀.inb_S4x8x128_S1x8x128_1_0_0) (fun _ => rfl)).squeeze S8x128 Facts₀.squeezes_S1x8x128_S8x128
  | 2 => (rM.slice (Rect.unit (s := S4x8x128) ![2, 0, 0] S1x8x128.size Facts₀.inb_S4x8x128_S1x8x128_2_0_0) (fun _ => rfl)).squeeze S8x128 Facts₀.squeezes_S1x8x128_S8x128
  | 3 => (rM.slice (Rect.unit (s := S4x8x128) ![3, 0, 0] S1x8x128.size Facts₀.inb_S4x8x128_S1x8x128_3_0_0) (fun _ => rfl)).squeeze S8x128 Facts₀.squeezes_S1x8x128_S8x128

/-- The runtime's barrier semaphore of collective id 0 (unscoped). -/
abbrev barS : Sem sig := (SemArray.scalar (sig.barrier 0 rfl) : Sems sig S_).sem
/-- Send semaphore `k` and receive semaphore `k` of the two scratch arrays, as the kernel's copies name them (k = 1, 2, 3). -/
abbrev sendS : Fin 4 → DmaSem sig
  | 0 => ((cc0_scratch1.slice (Rect.unit (s := S4) ![1] S1.size Facts₀.inb_S4_S1_1)).squeeze S_ Facts₀.squeezes_S1_S_).sem
  | 1 => ((cc0_scratch1.slice (Rect.unit (s := S4) ![1] S1.size Facts₀.inb_S4_S1_1)).squeeze S_ Facts₀.squeezes_S1_S_).sem
  | 2 => ((cc0_scratch1.slice (Rect.unit (s := S4) ![2] S1.size Facts₀.inb_S4_S1_2)).squeeze S_ Facts₀.squeezes_S1_S_).sem
  | 3 => ((cc0_scratch1.slice (Rect.unit (s := S4) ![3] S1.size Facts₀.inb_S4_S1_3)).squeeze S_ Facts₀.squeezes_S1_S_).sem
abbrev recvS : Fin 4 → DmaSem sig
  | 0 => ((cc0_scratch2.slice (Rect.unit (s := S4) ![1] S1.size Facts₀.inb_S4_S1_1)).squeeze S_ Facts₀.squeezes_S1_S_).sem
  | 1 => ((cc0_scratch2.slice (Rect.unit (s := S4) ![1] S1.size Facts₀.inb_S4_S1_1)).squeeze S_ Facts₀.squeezes_S1_S_).sem
  | 2 => ((cc0_scratch2.slice (Rect.unit (s := S4) ![2] S1.size Facts₀.inb_S4_S1_2)).squeeze S_ Facts₀.squeezes_S1_S_).sem
  | 3 => ((cc0_scratch2.slice (Rect.unit (s := S4) ![3] S1.size Facts₀.inb_S4_S1_3)).squeeze S_ Facts₀.squeezes_S1_S_).sem

theorem sendS_val : ∀ k : Fin 4, k ≠ 0 → (sendS k).val = 2 + k.val := by decide
theorem recvS_val : ∀ k : Fin 4, k ≠ 0 → (recvS k).val = 6 + k.val := by decide

/-- A device's cells: its barrier cell, its three send cells, its three receive cells. -/
abbrev barCell (c : Dev nD) : GSem nD τ sig := ((c : Thread nD τ), .reg barS)
abbrev sendCell (c : Dev nD) (k : Fin 4) : GSem nD τ sig := ((c : Thread nD τ), .dma (sendS k))
abbrev recvCell (c : Dev nD) (k : Fin 4) : GSem nD τ sig := ((c : Thread nD τ), .dma (recvS k))

/-- The kernel's OWN (scoped) semaphores, as the launch theorem indexes them: send 1–3, receive 1–3; -/
abbrev osem : Fin 6 → SemLoc sig := fun | 0 => .dma (sendS 1) | 1 => .dma (sendS 2) | 2 => .dma (sendS 3) | 3 => .dma (recvS 1) | 4 => .dma (recvS 2) | 5 => .dma (recvS 3)
/-- all seven of the protocol's, as this proof indexes them: barrier, send 1–3, receive 1–3. -/
abbrev csem : Fin 7 → SemLoc sig := fun | 0 => .reg barS | 1 => .dma (sendS 1) | 2 => .dma (sendS 2) | 3 => .dma (sendS 3) | 4 => .dma (recvS 1) | 5 => .dma (recvS 2) | 6 => .dma (recvS 3)
abbrev kcell (ck : Dev nD × Fin 7) : GSem nD τ sig := ((ck.1 : Thread nD τ), csem ck.2)

abbrev N : ℕ := (slotM 1).view.dmaCredit
theorem N_pos : 0 < N := View.dmaCredit_pos _ (by decide)
theorem credit_slot : ∀ k : Fin 4, (slotM k).view.dmaCredit = N := by decide

/-! ## Contents -/

/-- Device `c`'s block of the input, as its staging buffer holds it. -/
def xin (c : Dev nD) : (cc0_stg0_0 : Ref sig .tc).ty.Contents (Elt F) :=
  (win0_0.blk (0 : Fin 1)).view.read (Elt F) ((s₀ m ρ).mem ((c : Thread nD τ).loc main_arg0))

/-- What device `c`'s statistics buffer holds once every copy has landed: slot `k` the row sums of the device
    `k` places before it. -/
def scrC (c : Dev nD) : Buf (Elt F) ((c : Thread nD τ).loc cc0_scratch0) :=
  fun i => partial_ (xin m ρ (src c (i 0).val)) (fun a => match a with | ⟨0, _⟩ => ⟨0, Nat.one_pos⟩ | ⟨1, _⟩ => i 1 | ⟨2, _⟩ => i 2)

/-- The indices of slot `k` of the statistics buffer. -/
def slotSet (k : Fin 4) : Finset S4x8x128.Idx := Finset.univ.filter fun i => (i 0).val = k.val

/-- Slot `k` of device `c`'s statistics buffer, owned outright at contents `f`; -/
def slotPts (c : Dev nD) (k : Fin 4) (f : Buf (Elt F) ((c : Thread nD τ).loc cc0_scratch0)) : sProp 𝕄 :=
  ((c : Thread nD τ).loc cc0_scratch0) ↦[slotSet k]{fullShare} f
/-- slot 0 held at a share. -/
def slot0Sh (c : Dev nD) (q : PosShare TreeShare) (f : Buf (Elt F) ((c : Thread nD τ).loc cc0_scratch0)) : sProp 𝕄 :=
  ((c : Thread nD τ).loc cc0_scratch0) ↦[slotSet 0]{q} f

/-- The three shares slot 0 is lent at, one per copy. -/
def shareOf : Fin 4 → PosShare TreeShare
  | 0 => fullShare | 1 => fullShare.left | 2 => fullShare.right.left | 3 => fullShare.right.right

omit [FloatOps F] in
instance slotPts_storable (c : Dev nD) (k : Fin 4) (f) : BI.Storable (upEmb : UEmb _ 𝕄) (slotPts (F := F) c k f) := by unfold slotPts; infer_instance
omit [FloatOps F] in
instance slot0Sh_storable (c : Dev nD) (q) (f) : BI.Storable (upEmb : UEmb _ 𝕄) (slot0Sh (F := F) c q f) := by unfold slot0Sh; infer_instance

/-! ## The schedule -/

/-- What the signal of the device `k` places after `c` hands `c`: that device's slot `k`, which `c` is going to write,
    and that its receive cell `k` has reached round 0. -/
def barPay (c : Dev nD) (k : Fin 4) : sProp 𝕄 := iprop((∃ f, slotPts (fwd c k.val) k f) ∗ reached ER (recvCell (fwd c k.val) k) 0)
/-- What the landing of copy `k` hands the receiver: its slot `k` at the final contents. -/
def recvPay (c : Dev nD) (k : Fin 4) : sProp 𝕄 := slotPts c k (scrC m ρ c)
/-- What the departure of copy `k` hands the sender back: the share of slot 0 it lent. -/
def sendPay (c : Dev nD) (k : Fin 4) : sProp 𝕄 := slot0Sh c (shareOf k) (scrC m ρ c)

/-- Which slot a DMA semaphore of the two scratch arrays belongs to. -/
def slotOfSend (q : DmaSem sig) : Option (Fin 4) := if q = sendS 1 then some 1 else if q = sendS 2 then some 2 else if q = sendS 3 then some 3 else none
def slotOfRecv (q : DmaSem sig) : Option (Fin 4) := if q = recvS 1 then some 1 else if q = recvS 2 then some 2 else if q = recvS 3 then some 3 else none

abbrev IsBar (g : GSem nD τ sig) : Prop := g.1.2 = .tc ∧ g.2 = .reg barS
abbrev IsXfer (g : GSem nD τ sig) : Prop := g.1.2 = .tc ∧ ∃ k : Fin 4, k ≠ 0 ∧ (g.2 = .dma (sendS k) ∨ g.2 = .dma (recvS k))

instance (g : GSem nD τ sig) : Decidable (IsXfer g) := by unfold IsXfer; infer_instance

/-- One round, round 0: a barrier cell has the three duties 1, 2, 3 (duty `k` paid by the device `k` places after the
    owner) of one unit each; a send or receive cell the duty 0 of the slot's credit. -/
def ringRd : Rounds.Schedule (GSem nD τ sig) (Fin 4) 𝕄 where
  duties g r := if r = 0 ∧ IsBar g then {1, 2, 3} else if r = 0 ∧ IsXfer g then {0} else ∅
  unitless _ := False
  amount g _ _ := if g.2 = .reg barS then 1 else N
  payload g _ d :=
    match g.2 with
    | .reg s => if s = barS then (if d = 0 then iprop(emp) else barPay g.1.1 d) else iprop(emp)
    | .dma q =>
      match slotOfRecv q with
      | some k => recvPay m ρ g.1.1 k
      | none => match slotOfSend q with
        | some k => sendPay m ρ g.1.1 k
        | none => iprop(emp)
  amount_pos g _ _ _ := by
    by_cases h : g.2 = .reg barS
    · rw [if_pos h]; exact Nat.one_pos
    · rw [if_neg h]; exact N_pos

instance ringRd_payload_storable (g : GSem nD τ sig) (r : ℕ) (d : Fin 4) :
    BI.Storable (upEmb : UEmb _ 𝕄) ((ringRd (F := F) m ρ).payload g r d) := by
  show BI.Storable upEmb (match g.2 with
    | .reg s => if s = barS then (if d = 0 then iprop(emp) else barPay g.1.1 d) else iprop(emp)
    | .dma q =>
      match slotOfRecv q with
      | some k => recvPay m ρ g.1.1 k
      | none => match slotOfSend q with
        | some k => sendPay m ρ g.1.1 k
        | none => iprop(emp))
  unfold barPay recvPay sendPay
  (repeat' split) <;> infer_instance

section Sched
variable (c : Dev nD)

theorem slotOfRecv_recv : ∀ k : Fin 4, k ≠ 0 → slotOfRecv (recvS k) = some k := by decide
theorem slotOfRecv_send : ∀ k : Fin 4, slotOfRecv (sendS k) = none := by decide
theorem slotOfSend_send : ∀ k : Fin 4, k ≠ 0 → slotOfSend (sendS k) = some k := by decide

theorem not_bar_dma (q : DmaSem sig) : ¬ IsBar (((c : Thread nD τ), SemLoc.dma q) : GSem nD τ sig) := fun h => by cases h.2

theorem duties_bar : (ringRd (F := F) m ρ).duties (barCell c) 0 = {1, 2, 3} := by dsimp only [ringRd]; exact if_pos ⟨rfl, rfl, rfl⟩
theorem duties_send (k : Fin 4) (hk : k ≠ 0) : (ringRd (F := F) m ρ).duties (sendCell c k) 0 = {0} := by
  dsimp only [ringRd]; rw [if_neg (fun h => not_bar_dma c _ h.2)]; exact if_pos ⟨rfl, rfl, k, hk, .inl rfl⟩
theorem duties_recv (k : Fin 4) (hk : k ≠ 0) : (ringRd (F := F) m ρ).duties (recvCell c k) 0 = {0} := by
  dsimp only [ringRd]; rw [if_neg (fun h => not_bar_dma c _ h.2)]; exact if_pos ⟨rfl, rfl, k, hk, .inr rfl⟩
theorem duties_later (g : GSem nD τ sig) : ∀ r, 1 ≤ r → (ringRd (F := F) m ρ).duties g r = ∅ :=
  fun r hr => by dsimp only [ringRd]; rw [if_neg fun h => by omega, if_neg fun h => by omega]

theorem amount_bar (d : Fin 4) : (ringRd (F := F) m ρ).amount (barCell c) 0 d = 1 := by dsimp only [ringRd]; exact if_pos rfl
theorem amount_send (k d : Fin 4) : (ringRd (F := F) m ρ).amount (sendCell c k) 0 d = N := by dsimp only [ringRd]; exact if_neg (fun h => by cases h)
theorem amount_recv (k d : Fin 4) : (ringRd (F := F) m ρ).amount (recvCell c k) 0 d = N := by dsimp only [ringRd]; exact if_neg (fun h => by cases h)

theorem expect_bar : (ringRd (F := F) m ρ).expect (barCell c) 0 = 3 := by
  unfold Schedule.expect Schedule.amountOf
  rw [duties_bar, Finset.sum_congr rfl fun d _ => amount_bar m ρ c d, Finset.sum_const, smul_eq_mul]; rfl
theorem expect_send (k : Fin 4) (hk : k ≠ 0) : (ringRd (F := F) m ρ).expect (sendCell c k) 0 = N := by
  unfold Schedule.expect Schedule.amountOf; rw [duties_send m ρ c k hk, Finset.sum_singleton, amount_send]
theorem expect_recv (k : Fin 4) (hk : k ≠ 0) : (ringRd (F := F) m ρ).expect (recvCell c k) 0 = N := by
  unfold Schedule.expect Schedule.amountOf; rw [duties_recv m ρ c k hk, Finset.sum_singleton, amount_recv]

theorem payload_bar (d : Fin 4) (hd : d ≠ 0) : (ringRd (F := F) m ρ).payload (barCell c) 0 d = barPay c d := by
  show (if barS = barS then (if d = 0 then iprop(emp) else barPay c d) else iprop(emp)) = _
  rw [if_pos rfl, if_neg hd]
theorem payload_send (k : Fin 4) (hk : k ≠ 0) (d : Fin 4) : (ringRd (F := F) m ρ).payload (sendCell c k) 0 d = sendPay m ρ c k := by
  show (match slotOfRecv (sendS k) with
      | some k => recvPay m ρ c k
      | none => match slotOfSend (sendS k) with
        | some k => sendPay m ρ c k
        | none => iprop(emp)) = _
  rw [slotOfRecv_send k, slotOfSend_send k hk]
theorem payload_recv (k : Fin 4) (hk : k ≠ 0) (d : Fin 4) : (ringRd (F := F) m ρ).payload (recvCell c k) 0 d = recvPay m ρ c k := by
  show (match slotOfRecv (recvS k) with
      | some k => recvPay m ρ c k
      | none => match slotOfSend (recvS k) with
        | some k => sendPay m ρ c k
        | none => iprop(emp)) = _
  rw [slotOfRecv_recv k hk]

/-- The rest of the barrier cell's round, no duty taken: the three peers' payloads. -/
theorem rest_bar : bigSep ((ringRd (F := F) m ρ).duties (barCell c) 0 \ ∅) (fun d => (ringRd (F := F) m ρ).payload (barCell c) 0 d)
    = iprop(barPay c 1 ∗ barPay c 2 ∗ barPay c 3) := by
  rw [Finset.sdiff_empty, duties_bar, bigSep_eq_bigSepL_of_eq [1, 2, 3] (by decide) (by decide), bigSepL_cons_cons, bigSepL_cons_cons, bigSepL_singleton,
    payload_bar m ρ c 1 (by decide), payload_bar m ρ c 2 (by decide), payload_bar m ρ c 3 (by decide)]
  rfl
theorem rest_send (k : Fin 4) (hk : k ≠ 0) : bigSep ((ringRd (F := F) m ρ).duties (sendCell c k) 0 \ ∅) (fun d => (ringRd (F := F) m ρ).payload (sendCell c k) 0 d) = sendPay m ρ c k := by
  rw [Finset.sdiff_empty, duties_send m ρ c k hk, bigSep_singleton, payload_send m ρ c k hk]
theorem rest_recv (k : Fin 4) (hk : k ≠ 0) : bigSep ((ringRd (F := F) m ρ).duties (recvCell c k) 0 \ ∅) (fun d => (ringRd (F := F) m ρ).payload (recvCell c k) 0 d) = recvPay m ρ c k := by
  rw [Finset.sdiff_empty, duties_recv m ρ c k hk, bigSep_singleton, payload_recv m ρ c k hk]

end Sched

/-! ## What each core owes at launch; the levels -/

/-- Device `c` owes each peer's receive cell a slot's credit and each peer's barrier cell one unit — summed so that the
    kernel's steps peel the last summand in program order: the three signals first, then the three copies. -/
def R3 (c : Dev nD) : CellTallies nD τ sig Unit := tallyAt (recvCell (fwd c 3) 3) () N
def R2 (c : Dev nD) : CellTallies nD τ sig Unit := R3 c + tallyAt (recvCell (fwd c 2) 2) () N
def R1 (c : Dev nD) : CellTallies nD τ sig Unit := R2 c + tallyAt (recvCell (fwd c 1) 1) () N
def B3 (c : Dev nD) : CellTallies nD τ sig Unit := R1 c + tallyAt (barCell (fwd c 3)) () 1
def B2 (c : Dev nD) : CellTallies nD τ sig Unit := B3 c + tallyAt (barCell (fwd c 2)) () 1
def O₀ (c : Dev nD) : CellTallies nD τ sig Unit := B2 c + tallyAt (barCell (fwd c 1)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if ∃ k : Fin 4, k ≠ 0 ∧ g.2 = .dma (recvS k) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (k : Fin 4) (hk : k ≠ 0) : lv (recvCell c k) () = 2 := by
  unfold lv; rw [if_neg (fun h => by cases h), if_pos ⟨k, hk, rfl⟩]

/-- What a device still owes once its signals are out lies on receive cells only. -/
theorem R1_pos {c : Dev nD} {g : GSem nD τ sig} {u : Unit} (h : 0 < R1 c g u) :
    g = recvCell (fwd c 3) 3 ∨ g = recvCell (fwd c 2) 2 ∨ g = recvCell (fwd c 1) 1 := by
  unfold R1 R2 R3 at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem O₀_pos {c : Dev nD} {g : GSem nD τ sig} {u : Unit} (h : 0 < O₀ c g u) :
    (∃ k : Fin 4, k ≠ 0 ∧ g = recvCell (fwd c k.val) k) ∨ (∃ k : Fin 4, g = barCell (fwd c k.val)) := by
  unfold O₀ B2 B3 at h
  rw [Pi.add_apply, Finsupp.add_apply, Pi.add_apply, Finsupp.add_apply, Pi.add_apply, Finsupp.add_apply, tallyAt_apply, tallyAt_apply, tallyAt_apply] at h
  by_cases h1 : g = barCell (fwd c 1)
  · exact .inr ⟨1, h1⟩
  by_cases h2 : g = barCell (fwd c 2)
  · exact .inr ⟨2, h2⟩
  by_cases h3 : g = barCell (fwd c 3)
  · exact .inr ⟨3, h3⟩
  rw [if_neg (fun h' => h3 h'.1), if_neg (fun h' => h2 h'.1), if_neg (fun h' => h1 h'.1)] at h
  replace h : 0 < R1 c g u := h
  rcases R1_pos h with rfl | rfl | rfl
  · exact .inl ⟨3, by decide, rfl⟩
  · exact .inl ⟨2, by decide, rfl⟩
  · exact .inl ⟨1, by decide, rfl⟩

/-- A staging wait of the pipeline, owing everything or nothing: the staging cells lie below every cell a device owes. -/
theorem mayWait_stage (c : Dev nD) (q : DmaSem sig) (hq : ∀ k : Fin 4, k ≠ 0 → SemLoc.dma q ≠ .dma (recvS k)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, _, rfl⟩ | ⟨k, rfl⟩ <;> exact Finset.mem_singleton_self _)
      (fun p hp => by
        rw [Finset.mem_singleton.mp hp]; dsimp only [lv]
        rw [if_neg (fun h => by cases h), if_neg (fun ⟨k, hk, h⟩ => hq k hk h)])
      (fun g u hg => by
        rcases O₀_pos hg with ⟨k, hk, rfl⟩ | ⟨k, rfl⟩
        · rw [lv_recv _ k hk]; decide
        · rw [lv_bar]; decide)
  · rw [MayWait_zero]; iintro -; iempintro

/-- At its barrier wait a device owes its three peers' receive credits only: receive cells, above its barrier cell. -/
theorem mayWait_bar (c : Dev nD) :
    (levAts L lv : sProp 𝕄) ⊢ MayWait (c : Thread nD τ) (.reg barS) () (R1 c) :=
  MayOwe.of_cut (L := L) (lev := lv) 1 (fun p hp => by rw [Finset.mem_singleton.mp hp, L_tc]; exact Finset.mem_singleton_self _)
    (fun g u hg => by rcases R1_pos hg with rfl | rfl | rfl <;> exact Finset.mem_singleton_self _)
    (fun p hp => by rw [Finset.mem_singleton.mp hp]; exact Nat.le_of_eq (lv_bar c))
    (fun g u hg => by
      rcases R1_pos hg with rfl | rfl | rfl
      · rw [lv_recv _ 3 (by decide)]; decide
      · rw [lv_recv _ 2 (by decide)]; decide
      · rw [lv_recv _ 1 (by decide)]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fwd_fwd : ∀ (c : Dev nD) (k : Fin 4), fwd (fwd c k.val) (4 - k.val) = c := by decide

/-- The kernel's result on device `c`: `outVal` of the four devices' input blocks. -/
def outAt (c : Dev nD) : (cc0_stg1_0 : Ref sig .tc).ty.Contents (Elt F) := outVal (fun d => xin m ρ d) c

/-- The cells' invariants device `c`'s body opens, under the names `K` the launch allocated them at: its own seven,
    the three peers' barrier cells (its signals), the three peers' receive cells it copies into. -/
def invs (K : Dev nD × Fin 7 → ℕ) (c : Dev nD) : sProp 𝕄 :=
  iprop(cellInv ER (ringRd m ρ) (K (c, 0)) (barCell c)
    ∗ cellInv ER (ringRd m ρ) (K (c, 1)) (sendCell c 1) ∗ cellInv ER (ringRd m ρ) (K (c, 2)) (sendCell c 2) ∗ cellInv ER (ringRd m ρ) (K (c, 3)) (sendCell c 3)
    ∗ cellInv ER (ringRd m ρ) (K (c, 4)) (recvCell c 1) ∗ cellInv ER (ringRd m ρ) (K (c, 5)) (recvCell c 2) ∗ cellInv ER (ringRd m ρ) (K (c, 6)) (recvCell c 3)
    ∗ cellInv ER (ringRd m ρ) (K (fwd c 1, 0)) (barCell (fwd c 1)) ∗ cellInv ER (ringRd m ρ) (K (fwd c 2, 0)) (barCell (fwd c 2)) ∗ cellInv ER (ringRd m ρ) (K (fwd c 3, 0)) (barCell (fwd c 3))
    ∗ cellInv ER (ringRd m ρ) (K (fwd c 1, 4)) (recvCell (fwd c 1) 1) ∗ cellInv ER (ringRd m ρ) (K (fwd c 2, 5)) (recvCell (fwd c 2) 2)
    ∗ cellInv ER (ringRd m ρ) (K (fwd c 3, 6)) (recvCell (fwd c 3) 3))

instance invs_persistent (K : Dev nD × Fin 7 → ℕ) (c : Dev nD) : BI.Persistent (invs m ρ K c) := by unfold invs; infer_instance

/-- The protocol's ghost state device `c` starts from: the invariants; its positions at round 0 of its seven cells; the
    reached-marks of the cells it pays and of its own send and receive cells; the nine duty tokens it pays with — duty
    `4 - k` of the barrier cell of the device `k` places after it, the receive duty of that device's cell `k`, its own send
    duty `k`, for k = 1, 2, 3. -/
def ghost (K : Dev nD × Fin 7 → ℕ) (c : Dev nD) : sProp 𝕄 :=
  iprop(invs m ρ K c
    ∗ atPos ER (barCell c) 0 ∅ 0
    ∗ atPos ER (sendCell c 1) 0 ∅ 0 ∗ atPos ER (sendCell c 2) 0 ∅ 0 ∗ atPos ER (sendCell c 3) 0 ∅ 0
    ∗ atPos ER (recvCell c 1) 0 ∅ 0 ∗ atPos ER (recvCell c 2) 0 ∅ 0 ∗ atPos ER (recvCell c 3) 0 ∅ 0
    ∗ reached ER (barCell (fwd c 1)) 0 ∗ reached ER (barCell (fwd c 2)) 0 ∗ reached ER (barCell (fwd c 3)) 0
    ∗ reached ER (recvCell (fwd c 1) 1) 0 ∗ reached ER (recvCell (fwd c 2) 2) 0 ∗ reached ER (recvCell (fwd c 3) 3) 0
    ∗ reached ER (sendCell c 1) 0 ∗ reached ER (sendCell c 2) 0 ∗ reached ER (sendCell c 3) 0
    ∗ reached ER (recvCell c 1) 0 ∗ reached ER (recvCell c 2) 0 ∗ reached ER (recvCell c 3) 0
    ∗ dutyTok ER (barCell (fwd c 1)) 0 3 ∗ dutyTok ER (barCell (fwd c 2)) 0 2 ∗ dutyTok ER (barCell (fwd c 3)) 0 1
    ∗ dutyTok ER (recvCell (fwd c 1) 1) 0 0 ∗ dutyTok ER (recvCell (fwd c 2) 2) 0 0 ∗ dutyTok ER (recvCell (fwd c 3) 3) 0 0
    ∗ dutyTok ER (sendCell c 1) 0 0 ∗ dutyTok ER (sendCell c 2) 0 0 ∗ dutyTok ER (sendCell c 3) 0 0)

/-- What device `c`'s body starts from: that at some names, its four credit tokens (its barrier's three units, each
    receive cell's credit) and the level facts. -/
def start (c : Dev nD) : sProp 𝕄 :=
  iprop((∃ K, ghost m ρ K c) ∗ cred (tallyAt (barCell c) () 3)
    ∗ cred (tallyAt (recvCell c 1) () N) ∗ cred (tallyAt (recvCell c 2) () N) ∗ cred (tallyAt (recvCell c 3) () N) ∗ levAts L lv)

/-- The whole statistics buffer of device `c` at contents `f`. -/
def scrPts (c : Dev nD) (f : Buf (Elt F) ((c : Thread nD τ).loc cc0_scratch0)) : sProp 𝕄 :=
  (((c : Thread nD τ).loc cc0_scratch0) ↦{fullShare} f : sProp 𝕄)

def Φ₀ (c : Dev nD) : sProp 𝕄 := iprop(start m ρ c ∗ ∃ f, scrPts c f)
/-- After the point: the statistics buffer at its final contents, the six OWN cells at zero, closed (the barrier cell is
    the runtime's: nothing to hand back). -/
def Φ₁ (c : Dev nD) : sProp 𝕄 :=
  iprop(scrPts c (scrC m ρ c) ∗ semVal (sendCell c 1) 0 ∗ semVal (sendCell c 2) 0 ∗ semVal (sendCell c 3) 0
    ∗ semVal (recvCell c 1) 0 ∗ semVal (recvCell c 2) 0 ∗ semVal (recvCell c 3) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.Kernel.Hand

end
-- ==== Proof.Kernel.Regions.lean ====
/-
  The statistics buffer cut into its four slots and joined again, slot 0 lent at three shares, and what the
  kernel's store into slot 0, its copies' landings and its four loads read, against the buffer's final contents.
-/
import proofs.«901059_g7700000000001060_dist_softmax_colshard_i_m1024_n512_v7x_i4_bf16_1_alg».proof.Proof.Kernel.Sched
import Idealize.ShloMosaic.Lib.Pipeline.Value

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The rectangle of slot `k` as the kernel's loads and its store name it. -/
abbrev rectK : Fin 4 → Rect S4x8x128
  | 0 => Rect.unit (s := S4x8x128) ![0, 0, 0] S1x8x128.size Facts₀.inb_S4x8x128_S1x8x128_0_0_0
  | 1 => Rect.unit (s := S4x8x128) ![1, 0, 0] S1x8x128.size Facts₀.inb_S4x8x128_S1x8x128_1_0_0
  | 2 => Rect.unit (s := S4x8x128) ![2, 0, 0] S1x8x128.size Facts₀.inb_S4x8x128_S1x8x128_2_0_0
  | 3 => Rect.unit (s := S4x8x128) ![3, 0, 0] S1x8x128.size Facts₀.inb_S4x8x128_S1x8x128_3_0_0

namespace Regions

omit [FloatOps F] in
/-- Bientailment of assertions is equality. -/
theorem eq_of_equiv {P Q : sProp 𝕄} (h : P ⊣⊢ Q) : P = Q := BI.equiv_iff.mp ⟨h.1, h.2⟩

/-- The device no places before `c` is `c`. -/
theorem src_zero (c : Dev nD) : src c 0 = c := by revert c; decide

/-- The slot rectangle at first coordinate `k` covers exactly slot `k`. -/
theorem rect_set (k : Fin 4) (inb : ∀ a, (![k.val, 0, 0] : Fin 3 → ℕ) a + S1x8x128.size a ≤ S4x8x128.size a) :
    (Rect.unit (s := S4x8x128) ![k.val, 0, 0] S1x8x128.size inb).set = slotSet k := by
  ext i
  rw [Rect.mem_set_unit, slotSet, Finset.mem_filter]
  simp only [Finset.mem_univ, true_and]
  constructor
  · intro h
    have h0 := h 0
    simp only [Matrix.cons_val_zero] at h0
    have : S1x8x128.size 0 = 1 := rfl
    omega
  · intro h a
    have h1 : (i 1).val < 8 := (i 1).isLt
    have h2 : (i 2).val < 128 := (i 2).isLt
    match a with
    | ⟨0, _⟩ => exact ⟨by show k.val ≤ (i 0).val; omega, by show (i 0).val < k.val + 1; omega⟩
    | ⟨1, _⟩ => exact ⟨Nat.zero_le _, by show (i 1).val < 0 + 8; omega⟩
    | ⟨2, _⟩ => exact ⟨Nat.zero_le _, by show (i 2).val < 0 + 128; omega⟩

theorem slotM_set0 : (slotM 0).view.set = slotSet 0 :=
  (View.set_reshape _ _).trans ((View.set_slice_whole _ _).trans (rect_set 0 _))
theorem slotM_set1 : (slotM 1).view.set = slotSet 1 :=
  (View.set_reshape _ _).trans ((View.set_slice_whole _ _).trans (rect_set 1 _))
theorem slotM_set2 : (slotM 2).view.set = slotSet 2 :=
  (View.set_reshape _ _).trans ((View.set_slice_whole _ _).trans (rect_set 2 _))
theorem slotM_set3 : (slotM 3).view.set = slotSet 3 :=
  (View.set_reshape _ _).trans ((View.set_slice_whole _ _).trans (rect_set 3 _))

theorem slotSet_disjoint {j k : Fin 4} (h : j ≠ k) : Disjoint (slotSet j) (slotSet k) :=
  Finset.disjoint_filter.mpr fun i _ h1 h2 => h (Fin.ext (h1.symm.trans h2))

/-- Every index of the buffer lies in one of the four slots. -/
theorem univ_eq_slots : (Finset.univ : Finset S4x8x128.Idx) = slotSet 0 ∪ (slotSet 1 ∪ (slotSet 2 ∪ slotSet 3)) := by
  ext i
  simp only [Finset.mem_univ, Finset.mem_union, slotSet, Finset.mem_filter, true_and, true_iff]
  have h : (i 0).val < 4 := (i 0).isLt
  show (i 0).val = 0 ∨ (i 0).val = 1 ∨ (i 0).val = 2 ∨ (i 0).val = 3
  omega

/-- The final contents under a slot rectangle's own index: the row sums of the device `k` places before. -/
theorem scrC_emb (c : Dev nD) (k : ℕ) (inb : ∀ a, (![k, 0, 0] : Fin 3 → ℕ) a + S1x8x128.size a ≤ S4x8x128.size a)
    (y : S1x8x128.Idx) :
    scrC m ρ c ((Rect.unit (s := S4x8x128) ![k, 0, 0] S1x8x128.size inb).emb y) = partial_ (xin m ρ (src c k)) y := by
  have h0 : (y 0).val = 0 := by have : (y 0).val < 1 := (y 0).isLt; omega
  have e1 : src c (((Rect.unit (s := S4x8x128) ![k, 0, 0] S1x8x128.size inb).emb y 0).val) = src c k :=
    congrArg (src c) (by show k + 1 * (y 0).val = k; omega)
  have e2 : (fun a : Fin 3 => match a with
      | ⟨0, _⟩ => (⟨0, Nat.one_pos⟩ : Fin 1)
      | ⟨1, _⟩ => (Rect.unit (s := S4x8x128) ![k, 0, 0] S1x8x128.size inb).emb y 1
      | ⟨2, _⟩ => (Rect.unit (s := S4x8x128) ![k, 0, 0] S1x8x128.size inb).emb y 2 : S1x8x128.Idx) = y := by
    funext a
    match a with
    | ⟨0, _⟩ => exact Fin.ext h0.symm
    | ⟨1, _⟩ => exact Fin.ext (by show 0 + 1 * (y 1).val = (y 1).val; omega)
    | ⟨2, _⟩ => exact Fin.ext (by show 0 + 1 * (y 2).val = (y 2).val; omega)
  show partial_ (xin m ρ (src c _)) _ = _
  rw [e1]
  exact congrArg (partial_ (xin m ρ (src c k))) e2

end Regions

open Regions

/-- The whole buffer is its four slots. -/
theorem scr_split (c : Dev nD) (f : Buf (Elt F) ((c : Thread nD τ).loc cc0_scratch0)) :
    (scrPts c f : sProp 𝕄) ⊣⊢ iprop(slotPts c 0 f ∗ slotPts c 1 f ∗ slotPts c 2 f ∗ slotPts c 3 f) := by
  unfold scrPts slotPts
  have e : ((c : Thread nD τ).loc cc0_scratch0 ↦{fullShare} f : sProp 𝕄)
      = ((c : Thread nD τ).loc cc0_scratch0 ↦[slotSet 0 ∪ (slotSet 1 ∪ (slotSet 2 ∪ slotSet 3))]{fullShare} f) :=
    congrArg (fun I => ((c : Thread nD τ).loc cc0_scratch0 ↦[I]{fullShare} f : sProp 𝕄)) Regions.univ_eq_slots
  have d23 : Disjoint (slotSet 2) (slotSet 3) := Regions.slotSet_disjoint (by decide)
  have d1 : Disjoint (slotSet 1) (slotSet 2 ∪ slotSet 3) :=
    Finset.disjoint_union_right.mpr ⟨Regions.slotSet_disjoint (by decide), Regions.slotSet_disjoint (by decide)⟩
  have d0 : Disjoint (slotSet 0) (slotSet 1 ∪ (slotSet 2 ∪ slotSet 3)) :=
    Finset.disjoint_union_right.mpr ⟨Regions.slotSet_disjoint (by decide),
      Finset.disjoint_union_right.mpr ⟨Regions.slotSet_disjoint (by decide), Regions.slotSet_disjoint (by decide)⟩⟩
  rw [e, Regions.eq_of_equiv (pointsTo_union d0), Regions.eq_of_equiv (pointsTo_union d1), Regions.eq_of_equiv (pointsTo_union d23)]

/-- Slot 0 at the full share is slot 0 at the three shares it is lent at. -/
theorem slot0_shares (c : Dev nD) (f : Buf (Elt F) ((c : Thread nD τ).loc cc0_scratch0)) :
    (slotPts c 0 f : sProp 𝕄) ⊣⊢ iprop(slot0Sh c (shareOf 1) f ∗ slot0Sh c (shareOf 2) f ∗ slot0Sh c (shareOf 3) f) := by
  have h1 : (slotPts c 0 f : sProp 𝕄) = iprop(slot0Sh c (shareOf 1) f ∗ slot0Sh c fullShare.right f) :=
    Regions.eq_of_equiv (pointsTo_share (ℓ := (c : Thread nD τ).loc cc0_scratch0) (I := slotSet 0) (q := fullShare) (q₁ := fullShare.left)
      (q₂ := fullShare.right) (f := f) (PosShare.mem_left_op_right fullShare))
  have h2 : (slot0Sh c fullShare.right f : sProp 𝕄) = iprop(slot0Sh c (shareOf 2) f ∗ slot0Sh c (shareOf 3) f) :=
    Regions.eq_of_equiv (pointsTo_share (ℓ := (c : Thread nD τ).loc cc0_scratch0) (I := slotSet 0) (q := fullShare.right) (q₁ := fullShare.right.left)
      (q₂ := fullShare.right.right) (f := f) (PosShare.mem_left_op_right fullShare.right))
  rw [h1, h2]

/-- A slot through the view the kernel's copies name it by. -/
theorem slotPts_view1 (c : Dev nD) (f : Buf (Elt F) ((c : Thread nD τ).loc cc0_scratch0)) :
    (slotPts c 1 f : sProp 𝕄) = ((slotM 1).view.loc (c : Thread nD τ) ↦[(slotM 1).view.set]{fullShare} f) := by
  rw [Regions.slotM_set1]; rfl
theorem slotPts_view2 (c : Dev nD) (f : Buf (Elt F) ((c : Thread nD τ).loc cc0_scratch0)) :
    (slotPts c 2 f : sProp 𝕄) = ((slotM 2).view.loc (c : Thread nD τ) ↦[(slotM 2).view.set]{fullShare} f) := by
  rw [Regions.slotM_set2]; rfl
theorem slotPts_view3 (c : Dev nD) (f : Buf (Elt F) ((c : Thread nD τ).loc cc0_scratch0)) :
    (slotPts c 3 f : sProp 𝕄) = ((slotM 3).view.loc (c : Thread nD τ) ↦[(slotM 3).view.set]{fullShare} f) := by
  rw [Regions.slotM_set3]; rfl
theorem slot0Sh_view (c : Dev nD) (q : PosShare TreeShare) (f : Buf (Elt F) ((c : Thread nD τ).loc cc0_scratch0)) :
    (slot0Sh c q f : sProp 𝕄) = ((slotM 0).view.loc (c : Thread nD τ) ↦[(slotM 0).view.set]{q} f) := by
  rw [Regions.slotM_set0]; rfl

/-- The kernel's load of slot 0 and its store into slot 0 touch slot 0 only. -/
theorem load0_sub : (rM : Memref sig .tc .vmem S4x8x128 .f32).view.setOn (rectK 0).toLoadRect.set ⊆ slotSet 0 := by
  have h : (rM : Memref sig .tc .vmem S4x8x128 .f32).view.setOn (rectK 0).toLoadRect.set = (rectK 0).toLoadRect.set :=
    Finset.map_refl
  rw [h]; exact (Regions.rect_set 0 _).subset
theorem store0_sub : ((rM : Memref sig .tc .vmem S4x8x128 .f32).access (rectK 0)).setOn (Finset.univ : Finset (rectK 0).shape.Idx) ⊆ slotSet 0 := by
  show ((View.whole cc0_scratch0).slice (rectK 0)).set ⊆ slotSet 0
  rw [View.set_slice_whole]; exact (Regions.rect_set 0 _).subset

/-- After the store of a device's own row sums, slot 0 holds its final contents. -/
theorem store0 (c : Dev nD) (f : Buf (Elt F) ((c : Thread nD τ).loc cc0_scratch0)) :
    ((((c : Thread nD τ).loc cc0_scratch0) ↦[slotSet 0]{fullShare}
        (((rM : Memref sig .tc .vmem S4x8x128 .f32).access (rectK 0)).write (Elt F) f (partial_ (xin m ρ c)) Finset.univ)) : sProp 𝕄)
      ⊢ slotPts c 0 (scrC m ρ c) := by
  unfold slotPts
  refine Entails.of_eq (pointsTo_congr fun i hi => ?_)
  have hi' : i ∈ ((rM : Memref sig .tc .vmem S4x8x128 .f32).access (rectK 0)).set := by
    show i ∈ ((View.whole cc0_scratch0).slice (rectK 0)).set
    rw [View.set_slice_whole]; exact (Regions.rect_set 0 _).symm.subset hi
  obtain ⟨y, rfl⟩ := View.exists_emb_of_mem_set _ hi'
  rw [View.write_emb_of_mem _ _ (Finset.mem_univ y)]
  show partial_ (xin m ρ c) y = scrC m ρ c ((Rect.unit (s := S4x8x128) ![0, 0, 0] S1x8x128.size _).emb y)
  rw [Regions.scrC_emb, Regions.src_zero]

/-- Copy `k` of device `c`, landed in slot `k` of the device `k` places after it, leaves that slot at its final contents. -/
theorem landing1 (c : Dev nD) (fd : Buf (Elt F) ((slotM 1).view.loc ((fwd c 1 : Dev nD) : Thread nD τ))) :
    (((slotM 1).view.loc ((fwd c 1 : Dev nD) : Thread nD τ) ↦[(slotM 1).view.set]{fullShare}
        ((slotM 1).view.write (Elt F) fd ((slotM 0).view.read (Elt F) (scrC m ρ c)) Finset.univ)) : sProp 𝕄)
      ⊢ recvPay m ρ (fwd c 1) 1 := by
  unfold recvPay
  rw [slotPts_view1]
  refine Entails.of_eq (pointsTo_congr fun i hi => ?_)
  obtain ⟨x, rfl⟩ := View.exists_emb_of_mem_set _ hi
  rw [View.write_emb_of_mem _ _ (Finset.mem_univ x)]
  show scrC m ρ c ((Rect.unit (s := S4x8x128) ![0, 0, 0] S1x8x128.size _).emb (Shape.reshapeEquiv _ x))
    = scrC m ρ (fwd c 1) ((Rect.unit (s := S4x8x128) ![1, 0, 0] S1x8x128.size _).emb (Shape.reshapeEquiv _ x))
  have e : src (fwd c 1) 1 = c := src_fwd c 1
  rw [Regions.scrC_emb, Regions.scrC_emb, Regions.src_zero, e]
theorem landing2 (c : Dev nD) (fd : Buf (Elt F) ((slotM 2).view.loc ((fwd c 2 : Dev nD) : Thread nD τ))) :
    (((slotM 2).view.loc ((fwd c 2 : Dev nD) : Thread nD τ) ↦[(slotM 2).view.set]{fullShare}
        ((slotM 2).view.write (Elt F) fd ((slotM 0).view.read (Elt F) (scrC m ρ c)) Finset.univ)) : sProp 𝕄)
      ⊢ recvPay m ρ (fwd c 2) 2 := by
  unfold recvPay
  rw [slotPts_view2]
  refine Entails.of_eq (pointsTo_congr fun i hi => ?_)
  obtain ⟨x, rfl⟩ := View.exists_emb_of_mem_set _ hi
  rw [View.write_emb_of_mem _ _ (Finset.mem_univ x)]
  show scrC m ρ c ((Rect.unit (s := S4x8x128) ![0, 0, 0] S1x8x128.size _).emb (Shape.reshapeEquiv _ x))
    = scrC m ρ (fwd c 2) ((Rect.unit (s := S4x8x128) ![2, 0, 0] S1x8x128.size _).emb (Shape.reshapeEquiv _ x))
  have e : src (fwd c 2) 2 = c := src_fwd c 2
  rw [Regions.scrC_emb, Regions.scrC_emb, Regions.src_zero, e]
theorem landing3 (c : Dev nD) (fd : Buf (Elt F) ((slotM 3).view.loc ((fwd c 3 : Dev nD) : Thread nD τ))) :
    (((slotM 3).view.loc ((fwd c 3 : Dev nD) : Thread nD τ) ↦[(slotM 3).view.set]{fullShare}
        ((slotM 3).view.write (Elt F) fd ((slotM 0).view.read (Elt F) (scrC m ρ c)) Finset.univ)) : sProp 𝕄)
      ⊢ recvPay m ρ (fwd c 3) 3 := by
  unfold recvPay
  rw [slotPts_view3]
  refine Entails.of_eq (pointsTo_congr fun i hi => ?_)
  obtain ⟨x, rfl⟩ := View.exists_emb_of_mem_set _ hi
  rw [View.write_emb_of_mem _ _ (Finset.mem_univ x)]
  show scrC m ρ c ((Rect.unit (s := S4x8x128) ![0, 0, 0] S1x8x128.size _).emb (Shape.reshapeEquiv _ x))
    = scrC m ρ (fwd c 3) ((Rect.unit (s := S4x8x128) ![3, 0, 0] S1x8x128.size _).emb (Shape.reshapeEquiv _ x))
  have e : src (fwd c 3) 3 = c := src_fwd c 3
  rw [Regions.scrC_emb, Regions.scrC_emb, Regions.src_zero, e]

/-- What the kernel's load of slot `k` reads off the final contents: the row sums of the device `k` places before. -/
theorem read_slot0 (c : Dev nD) :
    (rM : Memref sig .tc .vmem S4x8x128 .f32).view.readAt (Elt F) (rectK 0).toLoadRect (scrC m ρ c) = partial_ (xin m ρ c) := by
  funext y
  show scrC m ρ c ((Rect.unit (s := S4x8x128) ![0, 0, 0] S1x8x128.size _).emb y) = _
  rw [Regions.scrC_emb, Regions.src_zero]
theorem read_slot1 (c : Dev nD) :
    (rM : Memref sig .tc .vmem S4x8x128 .f32).view.readAt (Elt F) (rectK 1).toLoadRect (scrC m ρ c) = partial_ (xin m ρ (src c 1)) := by
  funext y
  show scrC m ρ c ((Rect.unit (s := S4x8x128) ![1, 0, 0] S1x8x128.size _).emb y) = _
  rw [Regions.scrC_emb]
theorem read_slot2 (c : Dev nD) :
    (rM : Memref sig .tc .vmem S4x8x128 .f32).view.readAt (Elt F) (rectK 2).toLoadRect (scrC m ρ c) = partial_ (xin m ρ (src c 2)) := by
  funext y
  show scrC m ρ c ((Rect.unit (s := S4x8x128) ![2, 0, 0] S1x8x128.size _).emb y) = _
  rw [Regions.scrC_emb]
theorem read_slot3 (c : Dev nD) :
    (rM : Memref sig .tc .vmem S4x8x128 .f32).view.readAt (Elt F) (rectK 3).toLoadRect (scrC m ρ c) = partial_ (xin m ρ (src c 3)) := by
  funext y
  show scrC m ρ c ((Rect.unit (s := S4x8x128) ![3, 0, 0] S1x8x128.size _).emb y) = _
  rw [Regions.scrC_emb]

end Cert.Kernel.Hand

end
-- ==== Proof.Kernel.Body.lean ====
/-
  One device's kernel body, stepped from the protocol's ghost state to the statistics buffer at its final
  contents and the result block written.
-/
import proofs.«901059_g7700000000001060_dist_softmax_colshard_i_m1024_n512_v7x_i4_bf16_1_alg».proof.Proof.Kernel.Regions

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Body

variable (K : Dev nD × Fin 7 → ℕ)

/-- A whole staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 3)
      ∗ cred (tallyAt (recvCell c 1) () N) ∗ cred (tallyAt (recvCell c 2) () N) ∗ cred (tallyAt (recvCell c 3) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xin m ρ c) ∗ stg c cc0_stg1_0 (outAt m ρ c))

theorem fwd13 (c : Dev nD) : fwd (fwd c 1) (3 : Fin 4).val = c := by revert c; decide
theorem fwd22 (c : Dev nD) : fwd (fwd c 2) (2 : Fin 4).val = c := by revert c; decide
theorem fwd31 (c : Dev nD) : fwd (fwd c 3) (1 : Fin 4).val = c := by revert c; decide

abbrev r0 : Rect S1024x512 := Rect.unit (s := S1024x512) ![0, 0] S1024x512.size Facts₀.inb_S1024x512_S1024x512_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S1024x512 .f32).view.readAt (Elt F) r0.toLoadRect f = f :=
  Memref.readAt_unit_zero (Elt F) cc0_stg0_0 hz _ f
omit [FloatOps F] in
theorem read_o (f : (cc0_stg1_0 : Ref sig .tc).ty.Contents (Elt F)) : (oM : Memref sig .tc .vmem S1024x512 .bf16).view.readAt (Elt F) r0.toLoadRect f = f :=
  Memref.readAt_unit_zero (Elt F) cc0_stg1_0 hz _ f
omit [FloatOps F] in
theorem write_out (f w : (cc0_stg1_0 : Ref sig .tc).ty.Contents (Elt F)) :
    ((oM : Memref sig .tc .vmem S1024x512 .bf16).access r0 : View sig .tc _ _ _).write (Elt F) f w Finset.univ = w :=
  Memref.write_access_unit_zero_univ (Elt F) cc0_stg1_0 hz _ f w

set_option maxHeartbeats 1600000 in
/-- `Rounds.wp_send_pointsTo` at copy 1's cells: slot 0 lent at share 1, slot 1 of the addressed device `n` (the device
    1 place after `c`, substituted) owned outright. -/
theorem wp_copy1 (c n : Dev nD) (hn : n = fwd c 1)
    {hsc : (slotM 1 : Memref sig (Dev.tc n : Thread nD τ).2.kind .vmem S8x128 .f32).view.ref.isScScratch = false}
    {hsrc : (slotM 0 : Memref sig .tc .vmem S8x128 .f32).view.WordExact} {hdst : (slotM 1 : Memref sig .tc .vmem S8x128 .f32).view.WordExact}
    {hsem : DmaTarget.Typed .vmem (.dma (recvS 1)) (.remote (Dev.tc n : Thread nD τ) (slotM 1 : Memref sig .tc .vmem S8x128 .f32) (.dma (sendS 1)) hsc)}
    {α : Type} {Q : α → sProp 𝕄} {kk : PUnit → Prog (TpuEff nD τ sig (Elt F) Λ₀ .tc) α}
    (fn : Buf (Elt F) (((fwd c 1 : Dev nD) : Thread nD τ).loc cc0_scratch0)) (O : CellTallies nD τ sig Unit) (W : Waits sig Unit) :
    iprop(cellInv ER (ringRd m ρ) (K (c, 1)) (sendCell c 1) ∗ cellInv ER (ringRd m ρ) (K (fwd c 1, 4)) (recvCell (fwd c 1) 1)
        ∗ slot0Sh c (shareOf 1) (scrC m ρ c) ∗ slotPts (fwd c 1) 1 fn
        ∗ owes (c : Thread nD τ) (O + tallyAt (recvCell (fwd c 1) 1) () N) W
        ∗ dutyTok ER (sendCell c 1) 0 0 ∗ reached ER (sendCell c 1) 0
        ∗ dutyTok ER (recvCell (fwd c 1) 1) 0 0 ∗ reached ER (recvCell (fwd c 1) 1) 0)
      ⊢ iprop(((cred (tallyAt (sendCell c 1) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM 0) (.remote (Dev.tc n : Thread nD τ) (slotM 1) (.dma (sendS 1)) hsc) (.dma (recvS 1)) hsrc hdst hsem) kk) Q) := by
  subst hn
  rw [slot0Sh_view, slotPts_view1]
  exact Rounds.wp_send_pointsTo 𝒱₀ ER (ringRd m ρ) (c : Thread nD τ) none (κ₁ := K (c, 1)) (κ₂ := K (fwd c 1, 4))
    (r₁ := 0) (r₂ := 0) (d₁ := 0) (d₂ := 0) (c' := ((fwd c 1 : Dev nD) : Thread nD τ)) (src := slotM 0) (dst := slotM 1) (sS := .dma (sendS 1)) (sem := .dma (recvS 1)) (q := shareOf 1) (fs := scrC m ρ c) (fd := fn)
    (by rw [duties_send m ρ c 1 (by decide)]; exact Finset.mem_singleton_self _)
    (by rw [duties_recv m ρ (fwd c 1) 1 (by decide)]; exact Finset.mem_singleton_self _)
    () () N ((View.amount_dma _ _).trans (credit_slot 1)) (amount_send m ρ c 1 0) (amount_recv m ρ (fwd c 1) 1 0) O rfl (W := W)
    (by rw [payload_send m ρ c 1 (by decide)]; unfold sendPay; rw [slot0Sh_view])
    (by rw [payload_recv m ρ (fwd c 1) 1 (by decide)]; exact landing1 m ρ c fn)

set_option maxHeartbeats 1600000 in
/-- `Rounds.wp_send_pointsTo` at copy 2's cells: slot 0 lent at share 2, slot 2 of the addressed device `n` (the device
    2 places after `c`, substituted) owned outright. -/
theorem wp_copy2 (c n : Dev nD) (hn : n = fwd c 2)
    {hsc : (slotM 2 : Memref sig (Dev.tc n : Thread nD τ).2.kind .vmem S8x128 .f32).view.ref.isScScratch = false}
    {hsrc : (slotM 0 : Memref sig .tc .vmem S8x128 .f32).view.WordExact} {hdst : (slotM 2 : Memref sig .tc .vmem S8x128 .f32).view.WordExact}
    {hsem : DmaTarget.Typed .vmem (.dma (recvS 2)) (.remote (Dev.tc n : Thread nD τ) (slotM 2 : Memref sig .tc .vmem S8x128 .f32) (.dma (sendS 2)) hsc)}
    {α : Type} {Q : α → sProp 𝕄} {kk : PUnit → Prog (TpuEff nD τ sig (Elt F) Λ₀ .tc) α}
    (fn : Buf (Elt F) (((fwd c 2 : Dev nD) : Thread nD τ).loc cc0_scratch0)) (O : CellTallies nD τ sig Unit) (W : Waits sig Unit) :
    iprop(cellInv ER (ringRd m ρ) (K (c, 2)) (sendCell c 2) ∗ cellInv ER (ringRd m ρ) (K (fwd c 2, 5)) (recvCell (fwd c 2) 2)
        ∗ slot0Sh c (shareOf 2) (scrC m ρ c) ∗ slotPts (fwd c 2) 2 fn
        ∗ owes (c : Thread nD τ) (O + tallyAt (recvCell (fwd c 2) 2) () N) W
        ∗ dutyTok ER (sendCell c 2) 0 0 ∗ reached ER (sendCell c 2) 0
        ∗ dutyTok ER (recvCell (fwd c 2) 2) 0 0 ∗ reached ER (recvCell (fwd c 2) 2) 0)
      ⊢ iprop(((cred (tallyAt (sendCell c 2) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM 0) (.remote (Dev.tc n : Thread nD τ) (slotM 2) (.dma (sendS 2)) hsc) (.dma (recvS 2)) hsrc hdst hsem) kk) Q) := by
  subst hn
  rw [slot0Sh_view, slotPts_view2]
  exact Rounds.wp_send_pointsTo 𝒱₀ ER (ringRd m ρ) (c : Thread nD τ) none (κ₁ := K (c, 2)) (κ₂ := K (fwd c 2, 5))
    (r₁ := 0) (r₂ := 0) (d₁ := 0) (d₂ := 0) (c' := ((fwd c 2 : Dev nD) : Thread nD τ)) (src := slotM 0) (dst := slotM 2) (sS := .dma (sendS 2)) (sem := .dma (recvS 2)) (q := shareOf 2) (fs := scrC m ρ c) (fd := fn)
    (by rw [duties_send m ρ c 2 (by decide)]; exact Finset.mem_singleton_self _)
    (by rw [duties_recv m ρ (fwd c 2) 2 (by decide)]; exact Finset.mem_singleton_self _)
    () () N ((View.amount_dma _ _).trans (credit_slot 2)) (amount_send m ρ c 2 0) (amount_recv m ρ (fwd c 2) 2 0) O rfl (W := W)
    (by rw [payload_send m ρ c 2 (by decide)]; unfold sendPay; rw [slot0Sh_view])
    (by rw [payload_recv m ρ (fwd c 2) 2 (by decide)]; exact landing2 m ρ c fn)

set_option maxHeartbeats 1600000 in
/-- `Rounds.wp_send_pointsTo` at copy 3's cells: slot 0 lent at share 3, slot 3 of the addressed device `n` (the device
    3 places after `c`, substituted) owned outright. -/
theorem wp_copy3 (c n : Dev nD) (hn : n = fwd c 3)
    {hsc : (slotM 3 : Memref sig (Dev.tc n : Thread nD τ).2.kind .vmem S8x128 .f32).view.ref.isScScratch = false}
    {hsrc : (slotM 0 : Memref sig .tc .vmem S8x128 .f32).view.WordExact} {hdst : (slotM 3 : Memref sig .tc .vmem S8x128 .f32).view.WordExact}
    {hsem : DmaTarget.Typed .vmem (.dma (recvS 3)) (.remote (Dev.tc n : Thread nD τ) (slotM 3 : Memref sig .tc .vmem S8x128 .f32) (.dma (sendS 3)) hsc)}
    {α : Type} {Q : α → sProp 𝕄} {kk : PUnit → Prog (TpuEff nD τ sig (Elt F) Λ₀ .tc) α}
    (fn : Buf (Elt F) (((fwd c 3 : Dev nD) : Thread nD τ).loc cc0_scratch0)) (O : CellTallies nD τ sig Unit) (W : Waits sig Unit) :
    iprop(cellInv ER (ringRd m ρ) (K (c, 3)) (sendCell c 3) ∗ cellInv ER (ringRd m ρ) (K (fwd c 3, 6)) (recvCell (fwd c 3) 3)
        ∗ slot0Sh c (shareOf 3) (scrC m ρ c) ∗ slotPts (fwd c 3) 3 fn
        ∗ owes (c : Thread nD τ) (O + tallyAt (recvCell (fwd c 3) 3) () N) W
        ∗ dutyTok ER (sendCell c 3) 0 0 ∗ reached ER (sendCell c 3) 0
        ∗ dutyTok ER (recvCell (fwd c 3) 3) 0 0 ∗ reached ER (recvCell (fwd c 3) 3) 0)
      ⊢ iprop(((cred (tallyAt (sendCell c 3) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM 0) (.remote (Dev.tc n : Thread nD τ) (slotM 3) (.dma (sendS 3)) hsc) (.dma (recvS 3)) hsrc hdst hsem) kk) Q) := by
  subst hn
  rw [slot0Sh_view, slotPts_view3]
  exact Rounds.wp_send_pointsTo 𝒱₀ ER (ringRd m ρ) (c : Thread nD τ) none (κ₁ := K (c, 3)) (κ₂ := K (fwd c 3, 6))
    (r₁ := 0) (r₂ := 0) (d₁ := 0) (d₂ := 0) (c' := ((fwd c 3 : Dev nD) : Thread nD τ)) (src := slotM 0) (dst := slotM 3) (sS := .dma (sendS 3)) (sem := .dma (recvS 3)) (q := shareOf 3) (fs := scrC m ρ c) (fd := fn)
    (by rw [duties_send m ρ c 3 (by decide)]; exact Finset.mem_singleton_self _)
    (by rw [duties_recv m ρ (fwd c 3) 3 (by decide)]; exact Finset.mem_singleton_self _)
    () () N ((View.amount_dma _ _).trans (credit_slot 3)) (amount_send m ρ c 3 0) (amount_recv m ρ (fwd c 3) 3 0) O rfl (W := W)
    (by rw [payload_send m ρ c 3 (by decide)]; unfold sendPay; rw [slot0Sh_view])
    (by rw [payload_recv m ρ (fwd c 3) 3 (by decide)]; exact landing3 m ρ c fn)

set_option maxHeartbeats 3200000 in
/-- The body, stepped from `bodyPre`, one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost invs
  iintro ⟨⟨⟨⟨⟨#HIb, #HIs1, #HIs2, #HIs3, #HIv1, #HIv2, #HIv3, #HIbN1, #HIbN2, #HIbN3, #HIvN1, #HIvN2, #HIvN3⟩,
      HatB, HatS1, HatS2, HatS3, HatV1, HatV2, HatV3, #HrB1, #HrB2, #HrB3, #HrVN1, #HrVN2, #HrVN3, #HrS1, #HrS2, #HrS3, #HrV1, #HrV2, #HrV3,
      HtB1, HtB2, HtB3, HtVN1, HtVN2, HtVN3, HtS1, HtS2, HtS3⟩, HcB, HcV1, HcV2, HcV3, #Hlev, ⟨%f0, Hscr⟩⟩,
    Ho, ⟨%d0, %g0, %hg0, Hx⟩, ⟨%d1, %g1, %hg1, Hout⟩⟩, Hk⟩
  have hx : g0 = xin m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c, dev4_eq c, dev5_eq c, dev6_eq c]
  -- the statistics buffer cut into its four slots
  ihave Hs := (scr_split c f0).1 $$ Hscr
  icases Hs with ⟨Hs0, Hs1, Hs2, Hs3⟩
  -- the signal to the device one place after: duty 3 of its barrier cell, with this device's slot 3
  iapply (Rounds.wp_signal 𝒱₀ ER (ringRd m ρ) (c : Thread nD τ) none (dst := (fwd c 1 : Thread nD τ)) (κ := K (fwd c 1, 0))
      (d := 3) (by rw [duties_bar]; decide) ((amount_bar m ρ (fwd c 1) 3).trans (by decide)) () (B2 c) rfl)
    $$ [HO HtB1 Hs3]
  · isplitr; · iexact HIbN1
    isplitl [HO]; · iexact HO
    isplitl [HtB1]; · iexact HtB1
    isplitl [Hs3]
    · rw [payload_bar m ρ (fwd c 1) 3 (by decide)]; unfold barPay; rw [fwd13]
      isplitl [Hs3]; · iexists f0; iexact Hs3
      iexact HrV3
    · iexact HrB1
  iintro HO
  -- two places after: duty 2, slot 2
  unfold B2
  iapply (Rounds.wp_signal 𝒱₀ ER (ringRd m ρ) (c : Thread nD τ) none (dst := (fwd c 2 : Thread nD τ)) (κ := K (fwd c 2, 0))
      (d := 2) (by rw [duties_bar]; decide) ((amount_bar m ρ (fwd c 2) 2).trans (by decide)) () (B3 c) rfl)
    $$ [HO HtB2 Hs2]
  · isplitr; · iexact HIbN2
    isplitl [HO]; · iexact HO
    isplitl [HtB2]; · iexact HtB2
    isplitl [Hs2]
    · rw [payload_bar m ρ (fwd c 2) 2 (by decide)]; unfold barPay; rw [fwd22]
      isplitl [Hs2]; · iexists f0; iexact Hs2
      iexact HrV2
    · iexact HrB2
  iintro HO
  -- three places after: duty 1, slot 1
  unfold B3
  iapply (Rounds.wp_signal 𝒱₀ ER (ringRd m ρ) (c : Thread nD τ) none (dst := (fwd c 3 : Thread nD τ)) (κ := K (fwd c 3, 0))
      (d := 1) (by rw [duties_bar]; decide) ((amount_bar m ρ (fwd c 3) 1).trans (by decide)) () (R1 c) rfl)
    $$ [HO HtB3 Hs1]
  · isplitr; · iexact HIbN3
    isplitl [HO]; · iexact HO
    isplitl [HtB3]; · iexact HtB3
    isplitl [Hs1]
    · rw [payload_bar m ρ (fwd c 3) 1 (by decide)]; unfold barPay; rw [fwd31]
      isplitl [Hs1]; · iexists f0; iexact Hs1
      iexact HrV1
    · iexact HrB3
  iintro HO
  -- the own block loaded, its exponentials stored into the result block, its row sums into slot 0
  iapply (wp_load 𝒱₀ (c : Thread nD τ) none Set.univ (m := xM) (Finset.subset_univ _)) $$ Hx; iintro Hx
  rw [read_x]
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out]
  unfold slotPts
  iapply (wp_load 𝒱₀ (c : Thread nD τ) none Set.univ (m := rM) load0_sub) $$ Hs0; iintro Hs0
  iapply (wp_store 𝒱₀ (c : Thread nD τ) none Set.univ (m := rM) (r := rectK 0) (Mk := Finset.univ) store0_sub) $$ Hs0; iintro Hs0
  ihave Hs0 := (store0 m ρ c f0) $$ Hs0
  -- the wait for three units on the own barrier cell, owing the three receive credits: the three peers' slots come with it
  iapply (Rounds.wp_wait_rest_token 𝒱₀ ER (ringRd m ρ) (c : Thread nD τ) none (κ := K (c, 0))
      (wpE_semWait_eq 𝒱₀ (c : Thread nD τ) none Set.univ) (Set.mem_univ _) () (O := R1 c) (W := W) (R := 0) (m := 0) (T := ∅)
      (by rw [expect_bar]; decide)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨⟨%fn1, Hn1⟩, -⟩, ⟨⟨%fn2, Hn2⟩, -⟩, ⟨%fn3, Hn3⟩, -⟩
  -- slot 0 lent at three shares, one per copy
  ihave Hsh := (slot0_shares c (scrC m ρ c)).1 $$ Hs0
  icases Hsh with ⟨Hq1, Hq2, Hq3⟩
  -- copy 1: slot 0 into slot 1 of the device 1 place after
  unfold R1
  iapply (wp_copy1 m ρ K c _ (dev4_eq c) fn1 (R2 c) (insert (SemLoc.reg barS, ()) W)) $$ [Hq1 Hn1 HO HtS1 HtVN1]
  · isplitr; · iexact HIs1
    isplitr; · iexact HIvN1
    isplitl [Hq1]; · iexact Hq1
    isplitl [Hn1]; · iexact Hn1
    isplitl [HO]; · iexact HO
    isplitl [HtS1]; · iexact HtS1
    isplitr; · iexact HrS1
    isplitl [HtVN1]; · iexact HtVN1
    iexact HrVN1
  iintro ⟨HcS1, HO⟩
  -- copy 2: slot 0 into slot 2 of the device 2 places after
  unfold R2
  iapply (wp_copy2 m ρ K c _ (dev5_eq c) fn2 (R3 c) (insert (SemLoc.reg barS, ()) W)) $$ [Hq2 Hn2 HO HtS2 HtVN2]
  · isplitr; · iexact HIs2
    isplitr; · iexact HIvN2
    isplitl [Hq2]; · iexact Hq2
    isplitl [Hn2]; · iexact Hn2
    isplitl [HO]; · iexact HO
    isplitl [HtS2]; · iexact HtS2
    isplitr; · iexact HrS2
    isplitl [HtVN2]; · iexact HtVN2
    iexact HrVN2
  iintro ⟨HcS2, HO⟩
  -- copy 3: slot 0 into slot 3 of the device 3 places after
  unfold R3
  iapply (wp_copy3 m ρ K c _ (dev6_eq c) fn3 0 (insert (SemLoc.reg barS, ()) W)) $$ [Hq3 Hn3 HO HtS3 HtVN3]
  · isplitr; · iexact HIs3
    isplitr; · iexact HIvN3
    isplitl [Hq3]; · iexact Hq3
    isplitl [Hn3]; · iexact Hn3
    isplitl [HO]; · rw [zero_add]; iexact HO
    isplitl [HtS3]; · iexact HtS3
    isplitr; · iexact HrS3
    isplitl [HtVN3]; · iexact HtVN3
    iexact HrVN3
  iintro ⟨HcS3, HO⟩
  -- the wait on receive cell 1: slot 1 at its final contents
  iapply (Rounds.wp_wait_rest_token 𝒱₀ ER (ringRd m ρ) (c : Thread nD τ) none (κ := K (c, 4))
      (wpE_waitDma2_eq 𝒱₀ (c : Thread nD τ) none Set.univ) (Set.mem_univ _) () (O := 0) (W := (insert (SemLoc.reg barS, ()) W)) (R := 0) (m := 0) (T := ∅)
      (by rw [Nat.zero_add, expect_recv m ρ c 1 (by decide)]; try exact credit_slot 1)) $$ [HcV1 HO HatV1]
  · isplitr; · iexact HIv1
    isplitl [HcV1]; · iexact HcV1
    isplitl [HO]; · iexact HO
    isplitr; · rw [MayWait_zero]; iempintro
    iexact HatV1
  iintro ⟨HO, HatV1, -, Hpay⟩
  ihave Hr1 := (Entails.of_eq (rest_recv m ρ c 1 (by decide))) $$ Hpay
  -- the wait on receive cell 2: slot 2 at its final contents
  iapply (Rounds.wp_wait_rest_token 𝒱₀ ER (ringRd m ρ) (c : Thread nD τ) none (κ := K (c, 5))
      (wpE_waitDma2_eq 𝒱₀ (c : Thread nD τ) none Set.univ) (Set.mem_univ _) () (O := 0) (W := (insert (SemLoc.dma (recvS 1), ()) (insert (SemLoc.reg barS, ()) W))) (R := 0) (m := 0) (T := ∅)
      (by rw [Nat.zero_add, expect_recv m ρ c 2 (by decide)]; try exact credit_slot 2)) $$ [HcV2 HO HatV2]
  · isplitr; · iexact HIv2
    isplitl [HcV2]; · iexact HcV2
    isplitl [HO]; · iexact HO
    isplitr; · rw [MayWait_zero]; iempintro
    iexact HatV2
  iintro ⟨HO, HatV2, -, Hpay⟩
  ihave Hr2 := (Entails.of_eq (rest_recv m ρ c 2 (by decide))) $$ Hpay
  -- the wait on receive cell 3: slot 3 at its final contents
  iapply (Rounds.wp_wait_rest_token 𝒱₀ ER (ringRd m ρ) (c : Thread nD τ) none (κ := K (c, 6))
      (wpE_waitDma2_eq 𝒱₀ (c : Thread nD τ) none Set.univ) (Set.mem_univ _) () (O := 0) (W := (insert (SemLoc.dma (recvS 2), ()) (insert (SemLoc.dma (recvS 1), ()) (insert (SemLoc.reg barS, ()) W)))) (R := 0) (m := 0) (T := ∅)
      (by rw [Nat.zero_add, expect_recv m ρ c 3 (by decide)]; try exact credit_slot 3)) $$ [HcV3 HO HatV3]
  · isplitr; · iexact HIv3
    isplitl [HcV3]; · iexact HcV3
    isplitl [HO]; · iexact HO
    isplitr; · rw [MayWait_zero]; iempintro
    iexact HatV3
  iintro ⟨HO, HatV3, -, Hpay⟩
  ihave Hr3 := (Entails.of_eq (rest_recv m ρ c 3 (by decide))) $$ Hpay
  -- the wait on send cell 1: share 1 of slot 0 back
  iapply (Rounds.wp_wait_rest_token 𝒱₀ ER (ringRd m ρ) (c : Thread nD τ) none (κ := K (c, 1))
      (wpE_waitDma2_eq 𝒱₀ (c : Thread nD τ) none Set.univ) (Set.mem_univ _) () (O := 0) (W := (insert (SemLoc.dma (recvS 3), ()) (insert (SemLoc.dma (recvS 2), ()) (insert (SemLoc.dma (recvS 1), ()) (insert (SemLoc.reg barS, ()) W))))) (R := 0) (m := 0) (T := ∅)
      (by rw [Nat.zero_add, expect_send m ρ c 1 (by decide)]; try exact credit_slot 0)) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hq1 := (Entails.of_eq (rest_send m ρ c 1 (by decide))) $$ Hpay
  -- the wait on send cell 2: share 2 of slot 0 back
  iapply (Rounds.wp_wait_rest_token 𝒱₀ ER (ringRd m ρ) (c : Thread nD τ) none (κ := K (c, 2))
      (wpE_waitDma2_eq 𝒱₀ (c : Thread nD τ) none Set.univ) (Set.mem_univ _) () (O := 0) (W := (insert (SemLoc.dma (sendS 1), ()) (insert (SemLoc.dma (recvS 3), ()) (insert (SemLoc.dma (recvS 2), ()) (insert (SemLoc.dma (recvS 1), ()) (insert (SemLoc.reg barS, ()) W)))))) (R := 0) (m := 0) (T := ∅)
      (by rw [Nat.zero_add, expect_send m ρ c 2 (by decide)]; try exact credit_slot 0)) $$ [HcS2 HO HatS2]
  · isplitr; · iexact HIs2
    isplitl [HcS2]; · iexact HcS2
    isplitl [HO]; · iexact HO
    isplitr; · rw [MayWait_zero]; iempintro
    iexact HatS2
  iintro ⟨HO, HatS2, -, Hpay⟩
  ihave Hq2 := (Entails.of_eq (rest_send m ρ c 2 (by decide))) $$ Hpay
  -- the wait on send cell 3: share 3 of slot 0 back
  iapply (Rounds.wp_wait_rest_token 𝒱₀ ER (ringRd m ρ) (c : Thread nD τ) none (κ := K (c, 3))
      (wpE_waitDma2_eq 𝒱₀ (c : Thread nD τ) none Set.univ) (Set.mem_univ _) () (O := 0) (W := (insert (SemLoc.dma (sendS 2), ()) (insert (SemLoc.dma (sendS 1), ()) (insert (SemLoc.dma (recvS 3), ()) (insert (SemLoc.dma (recvS 2), ()) (insert (SemLoc.dma (recvS 1), ()) (insert (SemLoc.reg barS, ()) W))))))) (R := 0) (m := 0) (T := ∅)
      (by rw [Nat.zero_add, expect_send m ρ c 3 (by decide)]; try exact credit_slot 0)) $$ [HcS3 HO HatS3]
  · isplitr; · iexact HIs3
    isplitl [HcS3]; · iexact HcS3
    isplitl [HO]; · iexact HO
    isplitr; · rw [MayWait_zero]; iempintro
    iexact HatS3
  iintro ⟨HO, HatS3, -, Hpay⟩
  ihave Hq3 := (Entails.of_eq (rest_send m ρ c 3 (by decide))) $$ Hpay
  -- the three shares of slot 0 joined, the four slots joined: the statistics buffer whole at its final contents
  unfold recvPay sendPay
  ihave Hs0 := (slot0_shares c (scrC m ρ c)).2 $$ [Hq1 Hq2 Hq3]
  · isplitl [Hq1]; · iexact Hq1
    isplitl [Hq2]; · iexact Hq2
    iexact Hq3
  ihave Hscr := (scr_split c (scrC m ρ c)).2 $$ [Hs0 Hr1 Hr2 Hr3]
  · isplitl [Hs0]; · iexact Hs0
    isplitl [Hr1]; · iexact Hr1
    isplitl [Hr2]; · iexact Hr2
    iexact Hr3
  -- the six own cells close: their counters at zero are the core's again
  imod (Rounds.cell_close ER (ringRd m ρ) (Set.mem_univ (K (c, 1))) (fun h => h) (R := 0 + 1) (duties_later m ρ (sendCell c 1))) $$ [HatS1] with HzS1
  · isplitr; · iexact HIs1
    iexact HatS1
  imod (Rounds.cell_close ER (ringRd m ρ) (Set.mem_univ (K (c, 2))) (fun h => h) (R := 0 + 1) (duties_later m ρ (sendCell c 2))) $$ [HatS2] with HzS2
  · isplitr; · iexact HIs2
    iexact HatS2
  imod (Rounds.cell_close ER (ringRd m ρ) (Set.mem_univ (K (c, 3))) (fun h => h) (R := 0 + 1) (duties_later m ρ (sendCell c 3))) $$ [HatS3] with HzS3
  · isplitr; · iexact HIs3
    iexact HatS3
  imod (Rounds.cell_close ER (ringRd m ρ) (Set.mem_univ (K (c, 4))) (fun h => h) (R := 0 + 1) (duties_later m ρ (recvCell c 1))) $$ [HatV1] with HzV1
  · isplitr; · iexact HIv1
    iexact HatV1
  imod (Rounds.cell_close ER (ringRd m ρ) (Set.mem_univ (K (c, 5))) (fun h => h) (R := 0 + 1) (duties_later m ρ (recvCell c 2))) $$ [HatV2] with HzV2
  · isplitr; · iexact HIv2
    iexact HatV2
  imod (Rounds.cell_close ER (ringRd m ρ) (Set.mem_univ (K (c, 6))) (fun h => h) (R := 0 + 1) (duties_later m ρ (recvCell c 3))) $$ [HatV3] with HzV3
  · isplitr; · iexact HIv3
    iexact HatV3
  -- the four slots loaded, the result block loaded and scaled
  unfold scrPts
  iapply (wp_load 𝒱₀ (c : Thread nD τ) none Set.univ (m := rM) (Finset.subset_univ _)) $$ Hscr; iintro Hscr
  rw [show (rM : Memref sig .tc .vmem S4x8x128 .f32).view.readAt (Elt F) (rectK 0).toLoadRect (scrC m ρ c) = partial_ (xin m ρ c) from read_slot0 m ρ c]
  iapply (wp_load 𝒱₀ (c : Thread nD τ) none Set.univ (m := rM) (Finset.subset_univ _)) $$ Hscr; iintro Hscr
  rw [show (rM : Memref sig .tc .vmem S4x8x128 .f32).view.readAt (Elt F) (rectK 1).toLoadRect (scrC m ρ c) = partial_ (xin m ρ (src c 1)) from read_slot1 m ρ c]
  iapply (wp_load 𝒱₀ (c : Thread nD τ) none Set.univ (m := rM) (Finset.subset_univ _)) $$ Hscr; iintro Hscr
  rw [show (rM : Memref sig .tc .vmem S4x8x128 .f32).view.readAt (Elt F) (rectK 2).toLoadRect (scrC m ρ c) = partial_ (xin m ρ (src c 2)) from read_slot2 m ρ c]
  iapply (wp_load 𝒱₀ (c : Thread nD τ) none Set.univ (m := rM) (Finset.subset_univ _)) $$ Hscr; iintro Hscr
  rw [show (rM : Memref sig .tc .vmem S4x8x128 .f32).view.readAt (Elt F) (rectK 3).toLoadRect (scrC m ρ c) = partial_ (xin m ρ (src c 3)) from read_slot3 m ρ c]
  iapply (wp_load 𝒱₀ (c : Thread nD τ) none Set.univ (m := oM) (Finset.subset_univ _)) $$ Hout; iintro Hout
  rw [read_o]
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hscr HzS1 HzS2 HzS3 HzV1 HzV2 HzV3]
  · isplitl [Hscr]; · unfold scrPts; iexact Hscr
    isplitl [HzS1]; · iexact HzS1
    isplitl [HzS2]; · iexact HzS2
    isplitl [HzS3]; · iexact HzS3
    isplitl [HzV1]; · iexact HzV1
    isplitl [HzV2]; · iexact HzV2
    iexact HzV3
  isplitl [HO]
  · iexists (insert (SemLoc.dma (sendS 3), ()) (insert (SemLoc.dma (sendS 2), ()) (insert (SemLoc.dma (sendS 1), ()) (insert (SemLoc.dma (recvS 3), ()) (insert (SemLoc.dma (recvS 2), ()) (insert (SemLoc.dma (recvS 1), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

end Body

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4, H5⟩
      isplitl [H1]; · iexact H1
      isplitl [H2]; · iexact H2
      isplitl [H3]; · iexact H3
      isplitl [H4]; · iexact H4
      isplitl [H5]; · iexact H5
      iexact Hscr
    isplitl [Ho]; · iexact Ho
    isplitl [Hx] <;> iassumption
  · iintro H; iexact H

end Cert.Kernel.Hand

end
-- ==== Proof.Kernel.Launch.lean ====
/-
  The launch: every device's ghost state funded and dealt, the cells' invariants allocated for all devices
  at once, and the run of @main on the four devices with each device's result named.
-/
import proofs.«901059_g7700000000001060_dist_softmax_colshard_i_m1024_n512_v7x_i4_bf16_1_alg».proof.Proof.Kernel.Body
import proofs.«901059_g7700000000001060_dist_softmax_colshard_i_m1024_n512_v7x_i4_bf16_1_alg».proof.Proof.Gen.Kernel.Frame

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts, and the protocol's cells -/

/-- The six semaphores of the two scratch arrays that the copies use are scoped, and none is a staging semaphore. -/
theorem ownSemFacts : Pipeline.OwnSemFacts cfg0.spec osem := by decide

theorem share_eq (c : Dev nD) (w : Fin cfg0.W) : (dats m ρ 0 c).share w = fullShare := by unfold Dat.share; split <;> rfl

/-- Different (device, semaphore) pairs are different cells. -/
theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The protocol's cells: seven on every device. -/
def ringCells : Finset (GSem nD τ sig) := Finset.univ.map ⟨kcell, kcell_injective⟩

/-- The nine duties of a device's own cells, as (cell, duty): the barrier cell's duties 1, 2, 3, and duty 0 of each of
    the three send cells and the three receive cells. -/
abbrev dutyTab : Fin 9 → Fin 7 × Fin 4 := ![(0, 1), (0, 2), (0, 3), (1, 0), (2, 0), (3, 0), (4, 0), (5, 0), (6, 0)]

theorem dutyTab_injective : Function.Injective dutyTab := by decide

/-- A device's own cells' duty tokens as minted: (device, which of the nine). -/
abbrev tokOf (cj : Dev nD × Fin 9) : GSem nD τ sig × ℕ × Fin 4 := (kcell (cj.1, (dutyTab cj.2).1), 0, (dutyTab cj.2).2)

theorem tokOf_injective : Function.Injective (tokOf : Dev nD × Fin 9 → GSem nD τ sig × ℕ × Fin 4) := by
  rintro ⟨c, j⟩ ⟨c', j'⟩ h
  have hk : kcell (c, (dutyTab j).1) = kcell (c', (dutyTab j').1) := congrArg (fun x : GSem nD τ sig × ℕ × Fin 4 => x.1) h
  have hd : (dutyTab j).2 = (dutyTab j').2 := congrArg (fun x : GSem nD τ sig × ℕ × Fin 4 => x.2.2) h
  have hp := kcell_injective hk
  have hc : c = c' := congrArg Prod.fst hp
  have hj : j = j' := dutyTab_injective (Prod.ext (congrArg Prod.snd hp) hd)
  rw [hc, hj]

def ringToks : Finset (GSem nD τ sig × ℕ × Fin 4) := Finset.univ.map ⟨tokOf, tokOf_injective⟩

/-- The launch element: the pipeline's cells and tokens beside the protocol's. -/
def u₀ : UU :=
  (initOf (Pipeline.cells cfgs cellOf_inj) (Pipeline.launchToks cfgs cellOf_inj), initOf ringCells ringToks)

/-- The duty tokens of device c's own cells. -/
def toks (c : Dev nD) : sProp 𝕄 :=
  iprop(dutyTok ER (barCell c) 0 1 ∗ dutyTok ER (barCell c) 0 2 ∗ dutyTok ER (barCell c) 0 3
    ∗ dutyTok ER (sendCell c 1) 0 0 ∗ dutyTok ER (sendCell c 2) 0 0 ∗ dutyTok ER (sendCell c 3) 0 0
    ∗ dutyTok ER (recvCell c 1) 0 0 ∗ dutyTok ER (recvCell c 2) 0 0 ∗ dutyTok ER (recvCell c 3) 0 0)

/-- What the launch element deals device c: its seven cells' round states, positions and reached-marks, and its own
    cells' duty tokens. -/
def G (c : Dev nD) : sProp 𝕄 :=
  iprop((bigSep Finset.univ fun k : Fin 7 => roundState ER (ringRd m ρ) (kcell (c, k)) 0)
    ∗ (bigSep Finset.univ fun k : Fin 7 => iprop(atPos ER (kcell (c, k)) 0 ∅ 0 ∗ reached ER (kcell (c, k)) 0)) ∗ toks c)

/-- What the global step makes of it: the ghost state the body starts from, at some names. -/
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The protocol's copy of the launch element, dealt device by device. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every device's cells allocated at once -/

/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 1) 0 ∗ semVal (sendCell c 2) 0 ∗ semVal (sendCell c 3) 0
        ∗ semVal (recvCell c 1) 0 ∗ semVal (recvCell c 2) 0 ∗ semVal (recvCell c 3) 0) := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together: the seven counters of a device's cells, at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

/-- A device's seven cells, each with its counter at zero and its round state, closed into invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The ghost state regrouped: invariants and reached-marks shared, tokens dealt around the ring -/

/-- The names of all cells' invariants and all cells' reached-marks: persistent, so every device may read off the ones
    its body names. -/
def records (K : Dev nD × Fin 7 → ℕ) : sProp 𝕄 :=
  iprop((bigSep Finset.univ fun ck : Dev nD × Fin 7 => cellInv ER (ringRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (ringRd m ρ) (K ck) (kcell ck) : sProp 𝕄)) ⊢ cellInv ER (ringRd m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- The tokens of the duties device c pays: towards the device k places after it, duty 4 - k of that device's barrier
    cell and the duty of its receive cell k; and the duties of its own three send cells. -/
def payToks (c : Dev nD) : sProp 𝕄 :=
  iprop(dutyTok ER (barCell (fwd c 1)) 0 3 ∗ dutyTok ER (barCell (fwd c 2)) 0 2 ∗ dutyTok ER (barCell (fwd c 3)) 0 1
    ∗ dutyTok ER (recvCell (fwd c 1) 1) 0 0 ∗ dutyTok ER (recvCell (fwd c 2) 2) 0 0 ∗ dutyTok ER (recvCell (fwd c 3) 3) 0 0
    ∗ dutyTok ER (sendCell c 1) 0 0 ∗ dutyTok ER (sendCell c 2) 0 0 ∗ dutyTok ER (sendCell c 3) 0 0)

/-- What stays with device c alone: its positions at its seven cells, and the tokens it pays with. -/
def linear (c : Dev nD) : sProp 𝕄 :=
  iprop((atPos ER (barCell c) 0 ∅ 0
      ∗ atPos ER (sendCell c 1) 0 ∅ 0 ∗ atPos ER (sendCell c 2) 0 ∅ 0 ∗ atPos ER (sendCell c 3) 0 ∅ 0
      ∗ atPos ER (recvCell c 1) 0 ∅ 0 ∗ atPos ER (recvCell c 2) 0 ∅ 0 ∗ atPos ER (recvCell c 3) 0 ∅ 0) ∗ payToks c)

theorem ghost_intro (K : Dev nD × Fin 7 → ℕ) (c : Dev nD) : iprop(records m ρ K ∗ linear c) ⊢ G' m ρ c := by
  unfold records linear payToks G' ghost invs
  iintro ⟨⟨#HI, #HR⟩, ⟨Ha0, Ha1, Ha2, Ha3, Ha4, Ha5, Ha6⟩, Ht1, Ht2, Ht3, Ht4, Ht5, Ht6, Ht7, Ht8, Ht9⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (fwd c 1, 0)); iexact HI
    isplitr; · iapply (inv_at m ρ K (fwd c 2, 0)); iexact HI
    isplitr; · iapply (inv_at m ρ K (fwd c 3, 0)); iexact HI
    isplitr; · iapply (inv_at m ρ K (fwd c 1, 4)); iexact HI
    isplitr; · iapply (inv_at m ρ K (fwd c 2, 5)); iexact HI
    iapply (inv_at m ρ K (fwd c 3, 6)); iexact HI
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitr; · iapply (reached_at (F := F) (fwd c 1, 0)); iexact HR
  isplitr; · iapply (reached_at (F := F) (fwd c 2, 0)); iexact HR
  isplitr; · iapply (reached_at (F := F) (fwd c 3, 0)); iexact HR
  isplitr; · iapply (reached_at (F := F) (fwd c 1, 4)); iexact HR
  isplitr; · iapply (reached_at (F := F) (fwd c 2, 5)); iexact HR
  isplitr; · iapply (reached_at (F := F) (fwd c 3, 6)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  isplitr; · iapply (reached_at (F := F) (c, 6)); iexact HR
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  iexact Ht9

/-- Going k places forward around the ring of four is a bijection of the devices, k places back its inverse. -/
def ringE (k : Fin 4) : Dev nD ≃ Dev nD := ⟨fun c => fwd c k.val, fun c => src c k.val, fun c => src_fwd c k, fun c => fwd_src c k⟩

/-- The tokens dealt around the ring: a barrier cell's duty 4 - k token, and the token of receive cell k, go k places
    back, to the device that pays them; the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (ringE 1) (fun c : Dev nD => (dutyTok ER (barCell c) 0 3 : sProp 𝕄)),
    bigSep_univ_equiv (ringE 2) (fun c : Dev nD => (dutyTok ER (barCell c) 0 2 : sProp 𝕄)),
    bigSep_univ_equiv (ringE 3) (fun c : Dev nD => (dutyTok ER (barCell c) 0 1 : sProp 𝕄)),
    bigSep_univ_equiv (ringE 1) (fun c : Dev nD => (dutyTok ER (recvCell c 1) 0 0 : sProp 𝕄)),
    bigSep_univ_equiv (ringE 2) (fun c : Dev nD => (dutyTok ER (recvCell c 2) 0 0 : sProp 𝕄)),
    bigSep_univ_equiv (ringE 3) (fun c : Dev nD => (dutyTok ER (recvCell c 3) 0 0 : sProp 𝕄))]
  iintro ⟨H1, H2, H3, H4, H5, H6, H7, H8, H9⟩
  isplitl [H3]; · iexact H3
  isplitl [H2]; · iexact H2
  isplitl [H1]; · iexact H1
  isplitl [H7]; · iexact H7
  isplitl [H8]; · iexact H8
  isplitl [H9]; · iexact H9
  isplitl [H4]; · iexact H4
  isplitl [H5]; · iexact H5
  iexact H6

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (ringRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rw [bigSep_fin7])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Every device owing one unit to the barrier cell of the device k places after it, each device's own barrier cell is
    credited one unit; -/
theorem cred_bar (c : Dev nD) (j : ℕ) (h1 : ∀ c : Dev nD, fwd (src c j) j = c) (h2 : ∀ d : Dev nD, src (fwd d j) j = d) :
    (Pipeline.launchCred (fun d : Dev nD => (tallyAt (barCell (fwd d j)) () 1 : CellTallies nD τ sig Unit)) c : sProp 𝕄)
      ⊢ cred (tallyAt (barCell c) () 1) :=
  Pipeline.launchCred_tallyAt (.reg barS) (fun d => fwd d j) (fun c => src c j) h1 h2 () 1 c

/-- every device owing a slot's credit to receive cell k of the device k places after it, each device's own receive cell
    k is credited a slot's credit. -/
theorem cred_recv (c : Dev nD) (k : Fin 4) (j : ℕ) (h1 : ∀ c : Dev nD, fwd (src c j) j = c) (h2 : ∀ d : Dev nD, src (fwd d j) j = d) :
    (Pipeline.launchCred (fun d : Dev nD => (tallyAt (recvCell (fwd d j) k) () N : CellTallies nD τ sig Unit)) c : sProp 𝕄)
      ⊢ cred (tallyAt (recvCell c k) () N) :=
  Pipeline.launchCred_tallyAt (.dma (recvS k)) (fun d => fwd d j) (fun c => src c j) h1 h2 () N c

/-- Three units of credit at one cell are a credit of three. -/
theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by
    rw [tallyAt_add, tallyAt_add]]
  exact (sep_mono_right (cred_add _ _).2).trans (cred_add _ _).2

/-- What the launch credits device c: its barrier cell the three peers' units, each receive cell its one sender's credit. -/
theorem creds (c : Dev nD) :
    (Pipeline.launchCred O₀ c : sProp 𝕄) ⊢ iprop(cred (tallyAt (barCell c) () 3)
      ∗ cred (tallyAt (recvCell c 1) () N) ∗ cred (tallyAt (recvCell c 2) () N) ∗ cred (tallyAt (recvCell c 3) () N)) := by
  have hO : (O₀ : Dev nD → CellTallies nD τ sig Unit) = fun d =>
      ((((tallyAt (recvCell (fwd d 3) 3) () N + tallyAt (recvCell (fwd d 2) 2) () N) + tallyAt (recvCell (fwd d 1) 1) () N)
        + tallyAt (barCell (fwd d 3)) () 1) + tallyAt (barCell (fwd d 2)) () 1) + tallyAt (barCell (fwd d 1)) () 1 := rfl
  rw [hO, Pipeline.launchCred_add, Pipeline.launchCred_add, Pipeline.launchCred_add, Pipeline.launchCred_add, Pipeline.launchCred_add]
  iintro ⟨⟨⟨⟨⟨HR3, HR2⟩, HR1⟩, HB3⟩, HB2⟩, HB1⟩
  ihave C1 := (cred_bar (F := F) c 1 (fun c => fwd_src c 1) (fun d => src_fwd d 1)) $$ HB1
  ihave C2 := (cred_bar (F := F) c 2 (fun c => fwd_src c 2) (fun d => src_fwd d 2)) $$ HB2
  ihave C3 := (cred_bar (F := F) c 3 (fun c => fwd_src c 3) (fun d => src_fwd d 3)) $$ HB3
  ihave D1 := (cred_recv (F := F) c 1 1 (fun c => fwd_src c 1) (fun d => src_fwd d 1)) $$ HR1
  ihave D2 := (cred_recv (F := F) c 2 2 (fun c => fwd_src c 2) (fun d => src_fwd d 2)) $$ HR2
  ihave D3 := (cred_recv (F := F) c 3 3 (fun c => fwd_src c 3) (fun d => src_fwd d 3)) $$ HR3
  isplitl [C1 C2 C3]
  · iapply (cred_three (F := F) (barCell c))
    isplitl [C1]; · iexact C1
    isplitl [C2]; · iexact C2
    iexact C3
  isplitl [D1]; · iexact D1
  isplitl [D2]; · iexact D2
  iexact D3

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HB, H1, H2, H3⟩
  imodintro
  unfold start G'
  isplitl
  · isplitl [HG]; · iexact HG
    isplitl [HB]; · iexact HB
    isplitl [H1]; · iexact H1
    isplitl [H2]; · iexact H2
    isplitl [H3]; · iexact H3
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ scrPts
  iintro ⟨Hr, H1, H2, H3, H4, H5, H6⟩
  isplitr; · iempintro
  isplitl [H1 H2 H3 H4 H5 H6]
  · isplitl [H1]; · iexact H1
    isplitl [H2]; · iexact H2
    isplitl [H3]; · iexact H3
    isplitl [H4]; · iexact H4
    isplitl [H5]; · iexact H5
    iexact H6
  iexists (scrC m ρ c); iexact Hr

/-- The pipeline's staging waits lie below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The arrays when the run has ended -/

/-- The input array is never written back: it holds what it held. -/
theorem final_in (c : Dev nD) : (dats m ρ 0 c).arrAt (0 : Fin 2) cfg0.N = m ((c.tc : Thread nD τ).loc main_arg0) :=
  (dats (F := F) m ρ 0 c).arrAt_in (0 : Fin 2) rfl _

/-- The result array after the one write-back: the whole block, written over the whole array. -/
theorem final_out (c : Dev nD) : (dats m ρ 0 c).arrAt (1 : Fin 2) cfg0.N = outAt m ρ c := by
  have h := (dats (F := F) m ρ 0 c).arrAt_succ (1 : Fin 2) t₀
  rw [flush0_1, if_pos rfl] at h
  refine (congrArg ((dats (F := F) m ρ 0 c).arrAt (1 : Fin 2)) (cfg0_N : cfg0.N = t₀.val + 1)).trans (h.trans ?_)
  exact Memref.write_access_unit_zero_univ (Elt F) main_v1 (off := fun a => win0_1.index t₀ a * win0_1.size a)
    (by funext a; fin_cases a <;> decide) _ _ _

/-! ## The run -/

set_option maxRecDepth 8000 in
/-- At the compiled mesh of four devices, for any float values, from any memory with zero counters: every weakly fair
    execution of @main terminates, and every final state has each device's result array at `outAt` of the four input
    blocks and its input unchanged. -/
theorem run_main : θ_run defs (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun s h c => ⟨((h c).1 (1 : Fin 2)).trans (final_out m ρ c), ((h c).1 (0 : Fin 2)).trans (final_in m ρ c)⟩)

/-- A device's input block as its staging buffer holds it is the block in memory. -/
theorem xin_eq (c : Dev nD) : xin m ρ c = m ((c.tc : Thread nD τ).loc main_arg0) :=
  Memref.read_access_unit_zero (Elt F) main_arg0 (off := fun a => win0_0.index (0 : Fin 1) a * win0_0.size a)
    (by funext a; fin_cases a <;> decide) _ _

/-- info: 'Cert.Kernel.Hand.run_main' depends on axioms: [propext, Classical.choice, Quot.sound] -/
#guard_msgs in #print axioms run_main

end Cert.Kernel.Hand

end
-- ==== Proof.KernelIdeal.Out.lean ====
/-
  What each device's result buffer holds when the kernel has run, as ONE pure term of the four devices'
  input blocks. Device `c` keeps in slot 0 of its statistics buffer the row sums of the exponentials of
  its own block; slot `k` (k = 1, 2, 3) receives the row sums of the device `k` places before it on the
  ring of four. The result is the exponential of the own block, row by row times the reciprocal of the
  sum of the four slots.
-/
import proofs.«901059_g7700000000001060_dist_softmax_colshard_i_m1024_n512_v7x_i4_bf16_1_alg».proof.Proof.Gen.KernelIdeal.Skeleton

noncomputable section

namespace Cert.KernelIdeal.Hand

open Idealize.ShloMosaic Cert.KernelIdeal Cert.KernelIdeal.Gen

variable {F : FTy → Type} [FloatOps F]

/-- The device `k` places before `c` on the ring of four: the one whose copy lands in `c`'s slot `k`. -/
def src (c : Dev nD) (k : ℕ) : Dev nD := ⟨(c.val + (4 - k % 4)) % 4, Nat.mod_lt _ (by decide)⟩

/-- The row sums of the exponentials of a block, laid out as the statistics slot holds them. -/
abbrev partial_ (x : Vec F S1024x512 .f32) : FVec F S1x8x128 .f32 := k0_pay3 x

/-- Device `c`'s result: the exponentials of its block scaled, row by row, by the reciprocal of the sum of
    the four devices' row sums. -/
def outVal (xs : Dev nD → Vec F S1024x512 .f32) (c : Dev nD) : FVec F S1024x512 .bf16 :=
  k0_pay1 (k0_pay4 (partial_ (xs c)) (partial_ (xs (src c 1))) (partial_ (xs (src c 2))) (partial_ (xs (src c 3))))
    k0_pay5 (k0_pay2 (xs c))

end Cert.KernelIdeal.Hand

end
-- ==== Proof.KernelIdeal.Sched.lean ====
/-
  The cross-device protocol of the column-sharded softmax on four devices, as a schedule of rounds.

  Every device signals the barrier semaphore of each of the three others once and waits for three units on
  its own: after that wait all three peers are inside the kernel. A peer's signal hands over the slot of
  the peer's statistics buffer that the waiter is going to write, and the fact that the peer's receive
  cell for that slot has reached round 0. Then each device copies slot 0 of its statistics buffer (the
  row sums of its own block) into slot `k` of the device `k` places after it, for k = 1, 2, 3: the copy
  credits the sender's send cell `k` (which hands a share of slot 0 back) and the receiver's receive cell
  `k` (which hands the receiver its slot `k`, now holding the sender's row sums).
-/
import proofs.«901059_g7700000000001060_dist_softmax_colshard_i_m1024_n512_v7x_i4_bf16_1_alg».proof.Proof.KernelIdeal.Out
import proofs.«901059_g7700000000001060_dist_softmax_colshard_i_m1024_n512_v7x_i4_bf16_1_alg».proof.Proof.Gen.KernelIdeal.Launch
import proofs.«901059_g7700000000001060_dist_softmax_colshard_i_m1024_n512_v7x_i4_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the protocol's (duties `Fin 4`) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of four -/

/-- The device `k` places after `c`: the one `c`'s copy `k` is addressed to. -/
def fwd (c : Dev nD) (k : ℕ) : Dev nD := ⟨(c.val + k) % 4, Nat.mod_lt _ (by decide)⟩

theorem src_fwd (c : Dev nD) (k : Fin 4) : src (fwd c k.val) k.val = c := by revert c k; decide
theorem fwd_src (c : Dev nD) (k : Fin 4) : fwd (src c k.val) k.val = c := by revert c k; decide

/-- The kernel's `device_id` chains. -/
theorem dev1_eq (c : Dev nD) : (⟨k0_dev1 c, k0_dev1_lt c⟩ : Dev nD) = fwd c 1 := Fin.ext (k0_dev1_eq c)
theorem dev2_eq (c : Dev nD) : (⟨k0_dev2 c, k0_dev2_lt c⟩ : Dev nD) = fwd c 2 := Fin.ext (k0_dev2_eq c)
theorem dev3_eq (c : Dev nD) : (⟨k0_dev3 c, k0_dev3_lt c⟩ : Dev nD) = fwd c 3 := Fin.ext (k0_dev3_eq c)
theorem dev4_eq (c : Dev nD) : (⟨k0_dev4 c, k0_dev4_lt c⟩ : Dev nD) = fwd c 1 := Fin.ext (k0_dev4_eq c)
theorem dev5_eq (c : Dev nD) : (⟨k0_dev5 c, k0_dev5_lt c⟩ : Dev nD) = fwd c 2 := Fin.ext (k0_dev5_eq c)
theorem dev6_eq (c : Dev nD) : (⟨k0_dev6 c, k0_dev6_lt c⟩ : Dev nD) = fwd c 3 := Fin.ext (k0_dev6_eq c)

/-! ## The memrefs and cells -/

abbrev xM : Memref sig .tc .vmem S1024x512 .f32 := Memref.whole cc0_stg0_0
abbrev oM : Memref sig .tc .vmem S1024x512 .bf16 := Memref.whole cc0_stg1_0
abbrev rM : Memref sig .tc .vmem S4x8x128 .f32 := Memref.whole cc0_scratch0

/-- Slot `k` of the statistics buffer, as the kernel's copies and waits name it. -/
abbrev slotM : Fin 4 → Memref sig .tc .vmem S8x128 .f32
  | 0 => (rM.slice (Rect.unit (s := S4x8x128) ![0, 0, 0] S1x8x128.size Facts₀.inb_S4x8x128_S1x8x128_0_0_0) (fun _ => rfl)).squeeze S8x128 Facts₀.squeezes_S1x8x128_S8x128
  | 1 => (rM.slice (Rect.unit (s := S4x8x128) ![1, 0, 0] S1x8x128.size Facts₀.inb_S4x8x128_S1x8x128_1_0_0) (fun _ => rfl)).squeeze S8x128 Facts₀.squeezes_S1x8x128_S8x128
  | 2 => (rM.slice (Rect.unit (s := S4x8x128) ![2, 0, 0] S1x8x128.size Facts₀.inb_S4x8x128_S1x8x128_2_0_0) (fun _ => rfl)).squeeze S8x128 Facts₀.squeezes_S1x8x128_S8x128
  | 3 => (rM.slice (Rect.unit (s := S4x8x128) ![3, 0, 0] S1x8x128.size Facts₀.inb_S4x8x128_S1x8x128_3_0_0) (fun _ => rfl)).squeeze S8x128 Facts₀.squeezes_S1x8x128_S8x128

/-- The runtime's barrier semaphore of collective id 0 (unscoped). -/
abbrev barS : Sem sig := (SemArray.scalar (sig.barrier 0 rfl) : Sems sig S_).sem
/-- Send semaphore `k` and receive semaphore `k` of the two scratch arrays, as the kernel's copies name them (k = 1, 2, 3). -/
abbrev sendS : Fin 4 → DmaSem sig
  | 0 => ((cc0_scratch1.slice (Rect.unit (s := S4) ![1] S1.size Facts₀.inb_S4_S1_1)).squeeze S_ Facts₀.squeezes_S1_S_).sem
  | 1 => ((cc0_scratch1.slice (Rect.unit (s := S4) ![1] S1.size Facts₀.inb_S4_S1_1)).squeeze S_ Facts₀.squeezes_S1_S_).sem
  | 2 => ((cc0_scratch1.slice (Rect.unit (s := S4) ![2] S1.size Facts₀.inb_S4_S1_2)).squeeze S_ Facts₀.squeezes_S1_S_).sem
  | 3 => ((cc0_scratch1.slice (Rect.unit (s := S4) ![3] S1.size Facts₀.inb_S4_S1_3)).squeeze S_ Facts₀.squeezes_S1_S_).sem
abbrev recvS : Fin 4 → DmaSem sig
  | 0 => ((cc0_scratch2.slice (Rect.unit (s := S4) ![1] S1.size Facts₀.inb_S4_S1_1)).squeeze S_ Facts₀.squeezes_S1_S_).sem
  | 1 => ((cc0_scratch2.slice (Rect.unit (s := S4) ![1] S1.size Facts₀.inb_S4_S1_1)).squeeze S_ Facts₀.squeezes_S1_S_).sem
  | 2 => ((cc0_scratch2.slice (Rect.unit (s := S4) ![2] S1.size Facts₀.inb_S4_S1_2)).squeeze S_ Facts₀.squeezes_S1_S_).sem
  | 3 => ((cc0_scratch2.slice (Rect.unit (s := S4) ![3] S1.size Facts₀.inb_S4_S1_3)).squeeze S_ Facts₀.squeezes_S1_S_).sem

theorem sendS_val : ∀ k : Fin 4, k ≠ 0 → (sendS k).val = 2 + k.val := by decide
theorem recvS_val : ∀ k : Fin 4, k ≠ 0 → (recvS k).val = 6 + k.val := by decide

/-- A device's cells: its barrier cell, its three send cells, its three receive cells. -/
abbrev barCell (c : Dev nD) : GSem nD τ sig := ((c : Thread nD τ), .reg barS)
abbrev sendCell (c : Dev nD) (k : Fin 4) : GSem nD τ sig := ((c : Thread nD τ), .dma (sendS k))
abbrev recvCell (c : Dev nD) (k : Fin 4) : GSem nD τ sig := ((c : Thread nD τ), .dma (recvS k))

/-- The kernel's OWN (scoped) semaphores, as the launch theorem indexes them: send 1–3, receive 1–3; -/
abbrev osem : Fin 6 → SemLoc sig := fun | 0 => .dma (sendS 1) | 1 => .dma (sendS 2) | 2 => .dma (sendS 3) | 3 => .dma (recvS 1) | 4 => .dma (recvS 2) | 5 => .dma (recvS 3)
/-- all seven of the protocol's, as this proof indexes them: barrier, send 1–3, receive 1–3. -/
abbrev csem : Fin 7 → SemLoc sig := fun | 0 => .reg barS | 1 => .dma (sendS 1) | 2 => .dma (sendS 2) | 3 => .dma (sendS 3) | 4 => .dma (recvS 1) | 5 => .dma (recvS 2) | 6 => .dma (recvS 3)
abbrev kcell (ck : Dev nD × Fin 7) : GSem nD τ sig := ((ck.1 : Thread nD τ), csem ck.2)

abbrev N : ℕ := (slotM 1).view.dmaCredit
theorem N_pos : 0 < N := View.dmaCredit_pos _ (by decide)
theorem credit_slot : ∀ k : Fin 4, (slotM k).view.dmaCredit = N := by decide

/-! ## Contents -/

/-- Device `c`'s block of the input, as its staging buffer holds it. -/
def xin (c : Dev nD) : (cc0_stg0_0 : Ref sig .tc).ty.Contents (Elt F) :=
  (win0_0.blk (0 : Fin 1)).view.read (Elt F) ((s₀ m ρ).mem ((c : Thread nD τ).loc main_arg0))

/-- What device `c`'s statistics buffer holds once every copy has landed: slot `k` the row sums of the device
    `k` places before it. -/
def scrC (c : Dev nD) : Buf (Elt F) ((c : Thread nD τ).loc cc0_scratch0) :=
  fun i => partial_ (xin m ρ (src c (i 0).val)) (fun a => match a with | ⟨0, _⟩ => ⟨0, Nat.one_pos⟩ | ⟨1, _⟩ => i 1 | ⟨2, _⟩ => i 2)

/-- The indices of slot `k` of the statistics buffer. -/
def slotSet (k : Fin 4) : Finset S4x8x128.Idx := Finset.univ.filter fun i => (i 0).val = k.val

/-- Slot `k` of device `c`'s statistics buffer, owned outright at contents `f`; -/
def slotPts (c : Dev nD) (k : Fin 4) (f : Buf (Elt F) ((c : Thread nD τ).loc cc0_scratch0)) : sProp 𝕄 :=
  ((c : Thread nD τ).loc cc0_scratch0) ↦[slotSet k]{fullShare} f
/-- slot 0 held at a share. -/
def slot0Sh (c : Dev nD) (q : PosShare TreeShare) (f : Buf (Elt F) ((c : Thread nD τ).loc cc0_scratch0)) : sProp 𝕄 :=
  ((c : Thread nD τ).loc cc0_scratch0) ↦[slotSet 0]{q} f

/-- The three shares slot 0 is lent at, one per copy. -/
def shareOf : Fin 4 → PosShare TreeShare
  | 0 => fullShare | 1 => fullShare.left | 2 => fullShare.right.left | 3 => fullShare.right.right

omit [FloatOps F] in
instance slotPts_storable (c : Dev nD) (k : Fin 4) (f) : BI.Storable (upEmb : UEmb _ 𝕄) (slotPts (F := F) c k f) := by unfold slotPts; infer_instance
omit [FloatOps F] in
instance slot0Sh_storable (c : Dev nD) (q) (f) : BI.Storable (upEmb : UEmb _ 𝕄) (slot0Sh (F := F) c q f) := by unfold slot0Sh; infer_instance

/-! ## The schedule -/

/-- What the signal of the device `k` places after `c` hands `c`: that device's slot `k`, which `c` is going to write,
    and that its receive cell `k` has reached round 0. -/
def barPay (c : Dev nD) (k : Fin 4) : sProp 𝕄 := iprop((∃ f, slotPts (fwd c k.val) k f) ∗ reached ER (recvCell (fwd c k.val) k) 0)
/-- What the landing of copy `k` hands the receiver: its slot `k` at the final contents. -/
def recvPay (c : Dev nD) (k : Fin 4) : sProp 𝕄 := slotPts c k (scrC m ρ c)
/-- What the departure of copy `k` hands the sender back: the share of slot 0 it lent. -/
def sendPay (c : Dev nD) (k : Fin 4) : sProp 𝕄 := slot0Sh c (shareOf k) (scrC m ρ c)

/-- Which slot a DMA semaphore of the two scratch arrays belongs to. -/
def slotOfSend (q : DmaSem sig) : Option (Fin 4) := if q = sendS 1 then some 1 else if q = sendS 2 then some 2 else if q = sendS 3 then some 3 else none
def slotOfRecv (q : DmaSem sig) : Option (Fin 4) := if q = recvS 1 then some 1 else if q = recvS 2 then some 2 else if q = recvS 3 then some 3 else none

abbrev IsBar (g : GSem nD τ sig) : Prop := g.1.2 = .tc ∧ g.2 = .reg barS
abbrev IsXfer (g : GSem nD τ sig) : Prop := g.1.2 = .tc ∧ ∃ k : Fin 4, k ≠ 0 ∧ (g.2 = .dma (sendS k) ∨ g.2 = .dma (recvS k))

instance (g : GSem nD τ sig) : Decidable (IsXfer g) := by unfold IsXfer; infer_instance

/-- One round, round 0: a barrier cell has the three duties 1, 2, 3 (duty `k` paid by the device `k` places after the
    owner) of one unit each; a send or receive cell the duty 0 of the slot's credit. -/
def ringRd : Rounds.Schedule (GSem nD τ sig) (Fin 4) 𝕄 where
  duties g r := if r = 0 ∧ IsBar g then {1, 2, 3} else if r = 0 ∧ IsXfer g then {0} else ∅
  unitless _ := False
  amount g _ _ := if g.2 = .reg barS then 1 else N
  payload g _ d :=
    match g.2 with
    | .reg s => if s = barS then (if d = 0 then iprop(emp) else barPay g.1.1 d) else iprop(emp)
    | .dma q =>
      match slotOfRecv q with
      | some k => recvPay m ρ g.1.1 k
      | none => match slotOfSend q with
        | some k => sendPay m ρ g.1.1 k
        | none => iprop(emp)
  amount_pos g _ _ _ := by
    by_cases h : g.2 = .reg barS
    · rw [if_pos h]; exact Nat.one_pos
    · rw [if_neg h]; exact N_pos

instance ringRd_payload_storable (g : GSem nD τ sig) (r : ℕ) (d : Fin 4) :
    BI.Storable (upEmb : UEmb _ 𝕄) ((ringRd (F := F) m ρ).payload g r d) := by
  show BI.Storable upEmb (match g.2 with
    | .reg s => if s = barS then (if d = 0 then iprop(emp) else barPay g.1.1 d) else iprop(emp)
    | .dma q =>
      match slotOfRecv q with
      | some k => recvPay m ρ g.1.1 k
      | none => match slotOfSend q with
        | some k => sendPay m ρ g.1.1 k
        | none => iprop(emp))
  unfold barPay recvPay sendPay
  (repeat' split) <;> infer_instance

section Sched
variable (c : Dev nD)

theorem slotOfRecv_recv : ∀ k : Fin 4, k ≠ 0 → slotOfRecv (recvS k) = some k := by decide
theorem slotOfRecv_send : ∀ k : Fin 4, slotOfRecv (sendS k) = none := by decide
theorem slotOfSend_send : ∀ k : Fin 4, k ≠ 0 → slotOfSend (sendS k) = some k := by decide

theorem not_bar_dma (q : DmaSem sig) : ¬ IsBar (((c : Thread nD τ), SemLoc.dma q) : GSem nD τ sig) := fun h => by cases h.2

theorem duties_bar : (ringRd (F := F) m ρ).duties (barCell c) 0 = {1, 2, 3} := by dsimp only [ringRd]; exact if_pos ⟨rfl, rfl, rfl⟩
theorem duties_send (k : Fin 4) (hk : k ≠ 0) : (ringRd (F := F) m ρ).duties (sendCell c k) 0 = {0} := by
  dsimp only [ringRd]; rw [if_neg (fun h => not_bar_dma c _ h.2)]; exact if_pos ⟨rfl, rfl, k, hk, .inl rfl⟩
theorem duties_recv (k : Fin 4) (hk : k ≠ 0) : (ringRd (F := F) m ρ).duties (recvCell c k) 0 = {0} := by
  dsimp only [ringRd]; rw [if_neg (fun h => not_bar_dma c _ h.2)]; exact if_pos ⟨rfl, rfl, k, hk, .inr rfl⟩
theorem duties_later (g : GSem nD τ sig) : ∀ r, 1 ≤ r → (ringRd (F := F) m ρ).duties g r = ∅ :=
  fun r hr => by dsimp only [ringRd]; rw [if_neg fun h => by omega, if_neg fun h => by omega]

theorem amount_bar (d : Fin 4) : (ringRd (F := F) m ρ).amount (barCell c) 0 d = 1 := by dsimp only [ringRd]; exact if_pos rfl
theorem amount_send (k d : Fin 4) : (ringRd (F := F) m ρ).amount (sendCell c k) 0 d = N := by dsimp only [ringRd]; exact if_neg (fun h => by cases h)
theorem amount_recv (k d : Fin 4) : (ringRd (F := F) m ρ).amount (recvCell c k) 0 d = N := by dsimp only [ringRd]; exact if_neg (fun h => by cases h)

theorem expect_bar : (ringRd (F := F) m ρ).expect (barCell c) 0 = 3 := by
  unfold Schedule.expect Schedule.amountOf
  rw [duties_bar, Finset.sum_congr rfl fun d _ => amount_bar m ρ c d, Finset.sum_const, smul_eq_mul]; rfl
theorem expect_send (k : Fin 4) (hk : k ≠ 0) : (ringRd (F := F) m ρ).expect (sendCell c k) 0 = N := by
  unfold Schedule.expect Schedule.amountOf; rw [duties_send m ρ c k hk, Finset.sum_singleton, amount_send]
theorem expect_recv (k : Fin 4) (hk : k ≠ 0) : (ringRd (F := F) m ρ).expect (recvCell c k) 0 = N := by
  unfold Schedule.expect Schedule.amountOf; rw [duties_recv m ρ c k hk, Finset.sum_singleton, amount_recv]

theorem payload_bar (d : Fin 4) (hd : d ≠ 0) : (ringRd (F := F) m ρ).payload (barCell c) 0 d = barPay c d := by
  show (if barS = barS then (if d = 0 then iprop(emp) else barPay c d) else iprop(emp)) = _
  rw [if_pos rfl, if_neg hd]
theorem payload_send (k : Fin 4) (hk : k ≠ 0) (d : Fin 4) : (ringRd (F := F) m ρ).payload (sendCell c k) 0 d = sendPay m ρ c k := by
  show (match slotOfRecv (sendS k) with
      | some k => recvPay m ρ c k
      | none => match slotOfSend (sendS k) with
        | some k => sendPay m ρ c k
        | none => iprop(emp)) = _
  rw [slotOfRecv_send k, slotOfSend_send k hk]
theorem payload_recv (k : Fin 4) (hk : k ≠ 0) (d : Fin 4) : (ringRd (F := F) m ρ).payload (recvCell c k) 0 d = recvPay m ρ c k := by
  show (match slotOfRecv (recvS k) with
      | some k => recvPay m ρ c k
      | none => match slotOfSend (recvS k) with
        | some k => sendPay m ρ c k
        | none => iprop(emp)) = _
  rw [slotOfRecv_recv k hk]

/-- The rest of the barrier cell's round, no duty taken: the three peers' payloads. -/
theorem rest_bar : bigSep ((ringRd (F := F) m ρ).duties (barCell c) 0 \ ∅) (fun d => (ringRd (F := F) m ρ).payload (barCell c) 0 d)
    = iprop(barPay c 1 ∗ barPay c 2 ∗ barPay c 3) := by
  rw [Finset.sdiff_empty, duties_bar, bigSep_eq_bigSepL_of_eq [1, 2, 3] (by decide) (by decide), bigSepL_cons_cons, bigSepL_cons_cons, bigSepL_singleton,
    payload_bar m ρ c 1 (by decide), payload_bar m ρ c 2 (by decide), payload_bar m ρ c 3 (by decide)]
  rfl
theorem rest_send (k : Fin 4) (hk : k ≠ 0) : bigSep ((ringRd (F := F) m ρ).duties (sendCell c k) 0 \ ∅) (fun d => (ringRd (F := F) m ρ).payload (sendCell c k) 0 d) = sendPay m ρ c k := by
  rw [Finset.sdiff_empty, duties_send m ρ c k hk, bigSep_singleton, payload_send m ρ c k hk]
theorem rest_recv (k : Fin 4) (hk : k ≠ 0) : bigSep ((ringRd (F := F) m ρ).duties (recvCell c k) 0 \ ∅) (fun d => (ringRd (F := F) m ρ).payload (recvCell c k) 0 d) = recvPay m ρ c k := by
  rw [Finset.sdiff_empty, duties_recv m ρ c k hk, bigSep_singleton, payload_recv m ρ c k hk]

end Sched

/-! ## What each core owes at launch; the levels -/

/-- Device `c` owes each peer's receive cell a slot's credit and each peer's barrier cell one unit — summed so that the
    kernel's steps peel the last summand in program order: the three signals first, then the three copies. -/
def R3 (c : Dev nD) : CellTallies nD τ sig Unit := tallyAt (recvCell (fwd c 3) 3) () N
def R2 (c : Dev nD) : CellTallies nD τ sig Unit := R3 c + tallyAt (recvCell (fwd c 2) 2) () N
def R1 (c : Dev nD) : CellTallies nD τ sig Unit := R2 c + tallyAt (recvCell (fwd c 1) 1) () N
def B3 (c : Dev nD) : CellTallies nD τ sig Unit := R1 c + tallyAt (barCell (fwd c 3)) () 1
def B2 (c : Dev nD) : CellTallies nD τ sig Unit := B3 c + tallyAt (barCell (fwd c 2)) () 1
def O₀ (c : Dev nD) : CellTallies nD τ sig Unit := B2 c + tallyAt (barCell (fwd c 1)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if ∃ k : Fin 4, k ≠ 0 ∧ g.2 = .dma (recvS k) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (k : Fin 4) (hk : k ≠ 0) : lv (recvCell c k) () = 2 := by
  unfold lv; rw [if_neg (fun h => by cases h), if_pos ⟨k, hk, rfl⟩]

/-- What a device still owes once its signals are out lies on receive cells only. -/
theorem R1_pos {c : Dev nD} {g : GSem nD τ sig} {u : Unit} (h : 0 < R1 c g u) :
    g = recvCell (fwd c 3) 3 ∨ g = recvCell (fwd c 2) 2 ∨ g = recvCell (fwd c 1) 1 := by
  unfold R1 R2 R3 at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem O₀_pos {c : Dev nD} {g : GSem nD τ sig} {u : Unit} (h : 0 < O₀ c g u) :
    (∃ k : Fin 4, k ≠ 0 ∧ g = recvCell (fwd c k.val) k) ∨ (∃ k : Fin 4, g = barCell (fwd c k.val)) := by
  unfold O₀ B2 B3 at h
  rw [Pi.add_apply, Finsupp.add_apply, Pi.add_apply, Finsupp.add_apply, Pi.add_apply, Finsupp.add_apply, tallyAt_apply, tallyAt_apply, tallyAt_apply] at h
  by_cases h1 : g = barCell (fwd c 1)
  · exact .inr ⟨1, h1⟩
  by_cases h2 : g = barCell (fwd c 2)
  · exact .inr ⟨2, h2⟩
  by_cases h3 : g = barCell (fwd c 3)
  · exact .inr ⟨3, h3⟩
  rw [if_neg (fun h' => h3 h'.1), if_neg (fun h' => h2 h'.1), if_neg (fun h' => h1 h'.1)] at h
  replace h : 0 < R1 c g u := h
  rcases R1_pos h with rfl | rfl | rfl
  · exact .inl ⟨3, by decide, rfl⟩
  · exact .inl ⟨2, by decide, rfl⟩
  · exact .inl ⟨1, by decide, rfl⟩

/-- A staging wait of the pipeline, owing everything or nothing: the staging cells lie below every cell a device owes. -/
theorem mayWait_stage (c : Dev nD) (q : DmaSem sig) (hq : ∀ k : Fin 4, k ≠ 0 → SemLoc.dma q ≠ .dma (recvS k)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, _, rfl⟩ | ⟨k, rfl⟩ <;> exact Finset.mem_singleton_self _)
      (fun p hp => by
        rw [Finset.mem_singleton.mp hp]; dsimp only [lv]
        rw [if_neg (fun h => by cases h), if_neg (fun ⟨k, hk, h⟩ => hq k hk h)])
      (fun g u hg => by
        rcases O₀_pos hg with ⟨k, hk, rfl⟩ | ⟨k, rfl⟩
        · rw [lv_recv _ k hk]; decide
        · rw [lv_bar]; decide)
  · rw [MayWait_zero]; iintro -; iempintro

/-- At its barrier wait a device owes its three peers' receive credits only: receive cells, above its barrier cell. -/
theorem mayWait_bar (c : Dev nD) :
    (levAts L lv : sProp 𝕄) ⊢ MayWait (c : Thread nD τ) (.reg barS) () (R1 c) :=
  MayOwe.of_cut (L := L) (lev := lv) 1 (fun p hp => by rw [Finset.mem_singleton.mp hp, L_tc]; exact Finset.mem_singleton_self _)
    (fun g u hg => by rcases R1_pos hg with rfl | rfl | rfl <;> exact Finset.mem_singleton_self _)
    (fun p hp => by rw [Finset.mem_singleton.mp hp]; exact Nat.le_of_eq (lv_bar c))
    (fun g u hg => by
      rcases R1_pos hg with rfl | rfl | rfl
      · rw [lv_recv _ 3 (by decide)]; decide
      · rw [lv_recv _ 2 (by decide)]; decide
      · rw [lv_recv _ 1 (by decide)]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fwd_fwd : ∀ (c : Dev nD) (k : Fin 4), fwd (fwd c k.val) (4 - k.val) = c := by decide

/-- The kernel's result on device `c`: `outVal` of the four devices' input blocks. -/
def outAt (c : Dev nD) : (cc0_stg1_0 : Ref sig .tc).ty.Contents (Elt F) := outVal (fun d => xin m ρ d) c

/-- The cells' invariants device `c`'s body opens, under the names `K` the launch allocated them at: its own seven,
    the three peers' barrier cells (its signals), the three peers' receive cells it copies into. -/
def invs (K : Dev nD × Fin 7 → ℕ) (c : Dev nD) : sProp 𝕄 :=
  iprop(cellInv ER (ringRd m ρ) (K (c, 0)) (barCell c)
    ∗ cellInv ER (ringRd m ρ) (K (c, 1)) (sendCell c 1) ∗ cellInv ER (ringRd m ρ) (K (c, 2)) (sendCell c 2) ∗ cellInv ER (ringRd m ρ) (K (c, 3)) (sendCell c 3)
    ∗ cellInv ER (ringRd m ρ) (K (c, 4)) (recvCell c 1) ∗ cellInv ER (ringRd m ρ) (K (c, 5)) (recvCell c 2) ∗ cellInv ER (ringRd m ρ) (K (c, 6)) (recvCell c 3)
    ∗ cellInv ER (ringRd m ρ) (K (fwd c 1, 0)) (barCell (fwd c 1)) ∗ cellInv ER (ringRd m ρ) (K (fwd c 2, 0)) (barCell (fwd c 2)) ∗ cellInv ER (ringRd m ρ) (K (fwd c 3, 0)) (barCell (fwd c 3))
    ∗ cellInv ER (ringRd m ρ) (K (fwd c 1, 4)) (recvCell (fwd c 1) 1) ∗ cellInv ER (ringRd m ρ) (K (fwd c 2, 5)) (recvCell (fwd c 2) 2)
    ∗ cellInv ER (ringRd m ρ) (K (fwd c 3, 6)) (recvCell (fwd c 3) 3))

instance invs_persistent (K : Dev nD × Fin 7 → ℕ) (c : Dev nD) : BI.Persistent (invs m ρ K c) := by unfold invs; infer_instance

/-- The protocol's ghost state device `c` starts from: the invariants; its positions at round 0 of its seven cells; the
    reached-marks of the cells it pays and of its own send and receive cells; the nine duty tokens it pays with — duty
    `4 - k` of the barrier cell of the device `k` places after it, the receive duty of that device's cell `k`, its own send
    duty `k`, for k = 1, 2, 3. -/
def ghost (K : Dev nD × Fin 7 → ℕ) (c : Dev nD) : sProp 𝕄 :=
  iprop(invs m ρ K c
    ∗ atPos ER (barCell c) 0 ∅ 0
    ∗ atPos ER (sendCell c 1) 0 ∅ 0 ∗ atPos ER (sendCell c 2) 0 ∅ 0 ∗ atPos ER (sendCell c 3) 0 ∅ 0
    ∗ atPos ER (recvCell c 1) 0 ∅ 0 ∗ atPos ER (recvCell c 2) 0 ∅ 0 ∗ atPos ER (recvCell c 3) 0 ∅ 0
    ∗ reached ER (barCell (fwd c 1)) 0 ∗ reached ER (barCell (fwd c 2)) 0 ∗ reached ER (barCell (fwd c 3)) 0
    ∗ reached ER (recvCell (fwd c 1) 1) 0 ∗ reached ER (recvCell (fwd c 2) 2) 0 ∗ reached ER (recvCell (fwd c 3) 3) 0
    ∗ reached ER (sendCell c 1) 0 ∗ reached ER (sendCell c 2) 0 ∗ reached ER (sendCell c 3) 0
    ∗ reached ER (recvCell c 1) 0 ∗ reached ER (recvCell c 2) 0 ∗ reached ER (recvCell c 3) 0
    ∗ dutyTok ER (barCell (fwd c 1)) 0 3 ∗ dutyTok ER (barCell (fwd c 2)) 0 2 ∗ dutyTok ER (barCell (fwd c 3)) 0 1
    ∗ dutyTok ER (recvCell (fwd c 1) 1) 0 0 ∗ dutyTok ER (recvCell (fwd c 2) 2) 0 0 ∗ dutyTok ER (recvCell (fwd c 3) 3) 0 0
    ∗ dutyTok ER (sendCell c 1) 0 0 ∗ dutyTok ER (sendCell c 2) 0 0 ∗ dutyTok ER (sendCell c 3) 0 0)

/-- What device `c`'s body starts from: that at some names, its four credit tokens (its barrier's three units, each
    receive cell's credit) and the level facts. -/
def start (c : Dev nD) : sProp 𝕄 :=
  iprop((∃ K, ghost m ρ K c) ∗ cred (tallyAt (barCell c) () 3)
    ∗ cred (tallyAt (recvCell c 1) () N) ∗ cred (tallyAt (recvCell c 2) () N) ∗ cred (tallyAt (recvCell c 3) () N) ∗ levAts L lv)

/-- The whole statistics buffer of device `c` at contents `f`. -/
def scrPts (c : Dev nD) (f : Buf (Elt F) ((c : Thread nD τ).loc cc0_scratch0)) : sProp 𝕄 :=
  (((c : Thread nD τ).loc cc0_scratch0) ↦{fullShare} f : sProp 𝕄)

def Φ₀ (c : Dev nD) : sProp 𝕄 := iprop(start m ρ c ∗ ∃ f, scrPts c f)
/-- After the point: the statistics buffer at its final contents, the six OWN cells at zero, closed (the barrier cell is
    the runtime's: nothing to hand back). -/
def Φ₁ (c : Dev nD) : sProp 𝕄 :=
  iprop(scrPts c (scrC m ρ c) ∗ semVal (sendCell c 1) 0 ∗ semVal (sendCell c 2) 0 ∗ semVal (sendCell c 3) 0
    ∗ semVal (recvCell c 1) 0 ∗ semVal (recvCell c 2) 0 ∗ semVal (recvCell c 3) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.KernelIdeal.Hand

end
-- ==== Proof.KernelIdeal.Regions.lean ====
/-
  The statistics buffer cut into its four slots and joined again, slot 0 lent at three shares, and what the
  kernel's store into slot 0, its copies' landings and its four loads read, against the buffer's final contents.
-/
import proofs.«901059_g7700000000001060_dist_softmax_colshard_i_m1024_n512_v7x_i4_bf16_1_alg».proof.Proof.KernelIdeal.Sched
import Idealize.ShloMosaic.Lib.Pipeline.Value

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The rectangle of slot `k` as the kernel's loads and its store name it. -/
abbrev rectK : Fin 4 → Rect S4x8x128
  | 0 => Rect.unit (s := S4x8x128) ![0, 0, 0] S1x8x128.size Facts₀.inb_S4x8x128_S1x8x128_0_0_0
  | 1 => Rect.unit (s := S4x8x128) ![1, 0, 0] S1x8x128.size Facts₀.inb_S4x8x128_S1x8x128_1_0_0
  | 2 => Rect.unit (s := S4x8x128) ![2, 0, 0] S1x8x128.size Facts₀.inb_S4x8x128_S1x8x128_2_0_0
  | 3 => Rect.unit (s := S4x8x128) ![3, 0, 0] S1x8x128.size Facts₀.inb_S4x8x128_S1x8x128_3_0_0

namespace Regions

omit [FloatOps F] in
/-- Bientailment of assertions is equality. -/
theorem eq_of_equiv {P Q : sProp 𝕄} (h : P ⊣⊢ Q) : P = Q := BI.equiv_iff.mp ⟨h.1, h.2⟩

/-- The device no places before `c` is `c`. -/
theorem src_zero (c : Dev nD) : src c 0 = c := by revert c; decide

/-- The slot rectangle at first coordinate `k` covers exactly slot `k`. -/
theorem rect_set (k : Fin 4) (inb : ∀ a, (![k.val, 0, 0] : Fin 3 → ℕ) a + S1x8x128.size a ≤ S4x8x128.size a) :
    (Rect.unit (s := S4x8x128) ![k.val, 0, 0] S1x8x128.size inb).set = slotSet k := by
  ext i
  rw [Rect.mem_set_unit, slotSet, Finset.mem_filter]
  simp only [Finset.mem_univ, true_and]
  constructor
  · intro h
    have h0 := h 0
    simp only [Matrix.cons_val_zero] at h0
    have : S1x8x128.size 0 = 1 := rfl
    omega
  · intro h a
    have h1 : (i 1).val < 8 := (i 1).isLt
    have h2 : (i 2).val < 128 := (i 2).isLt
    match a with
    | ⟨0, _⟩ => exact ⟨by show k.val ≤ (i 0).val; omega, by show (i 0).val < k.val + 1; omega⟩
    | ⟨1, _⟩ => exact ⟨Nat.zero_le _, by show (i 1).val < 0 + 8; omega⟩
    | ⟨2, _⟩ => exact ⟨Nat.zero_le _, by show (i 2).val < 0 + 128; omega⟩

theorem slotM_set0 : (slotM 0).view.set = slotSet 0 :=
  (View.set_reshape _ _).trans ((View.set_slice_whole _ _).trans (rect_set 0 _))
theorem slotM_set1 : (slotM 1).view.set = slotSet 1 :=
  (View.set_reshape _ _).trans ((View.set_slice_whole _ _).trans (rect_set 1 _))
theorem slotM_set2 : (slotM 2).view.set = slotSet 2 :=
  (View.set_reshape _ _).trans ((View.set_slice_whole _ _).trans (rect_set 2 _))
theorem slotM_set3 : (slotM 3).view.set = slotSet 3 :=
  (View.set_reshape _ _).trans ((View.set_slice_whole _ _).trans (rect_set 3 _))

theorem slotSet_disjoint {j k : Fin 4} (h : j ≠ k) : Disjoint (slotSet j) (slotSet k) :=
  Finset.disjoint_filter.mpr fun i _ h1 h2 => h (Fin.ext (h1.symm.trans h2))

/-- Every index of the buffer lies in one of the four slots. -/
theorem univ_eq_slots : (Finset.univ : Finset S4x8x128.Idx) = slotSet 0 ∪ (slotSet 1 ∪ (slotSet 2 ∪ slotSet 3)) := by
  ext i
  simp only [Finset.mem_univ, Finset.mem_union, slotSet, Finset.mem_filter, true_and, true_iff]
  have h : (i 0).val < 4 := (i 0).isLt
  show (i 0).val = 0 ∨ (i 0).val = 1 ∨ (i 0).val = 2 ∨ (i 0).val = 3
  omega

/-- The final contents under a slot rectangle's own index: the row sums of the device `k` places before. -/
theorem scrC_emb (c : Dev nD) (k : ℕ) (inb : ∀ a, (![k, 0, 0] : Fin 3 → ℕ) a + S1x8x128.size a ≤ S4x8x128.size a)
    (y : S1x8x128.Idx) :
    scrC m ρ c ((Rect.unit (s := S4x8x128) ![k, 0, 0] S1x8x128.size inb).emb y) = partial_ (xin m ρ (src c k)) y := by
  have h0 : (y 0).val = 0 := by have : (y 0).val < 1 := (y 0).isLt; omega
  have e1 : src c (((Rect.unit (s := S4x8x128) ![k, 0, 0] S1x8x128.size inb).emb y 0).val) = src c k :=
    congrArg (src c) (by show k + 1 * (y 0).val = k; omega)
  have e2 : (fun a : Fin 3 => match a with
      | ⟨0, _⟩ => (⟨0, Nat.one_pos⟩ : Fin 1)
      | ⟨1, _⟩ => (Rect.unit (s := S4x8x128) ![k, 0, 0] S1x8x128.size inb).emb y 1
      | ⟨2, _⟩ => (Rect.unit (s := S4x8x128) ![k, 0, 0] S1x8x128.size inb).emb y 2 : S1x8x128.Idx) = y := by
    funext a
    match a with
    | ⟨0, _⟩ => exact Fin.ext h0.symm
    | ⟨1, _⟩ => exact Fin.ext (by show 0 + 1 * (y 1).val = (y 1).val; omega)
    | ⟨2, _⟩ => exact Fin.ext (by show 0 + 1 * (y 2).val = (y 2).val; omega)
  show partial_ (xin m ρ (src c _)) _ = _
  rw [e1]
  exact congrArg (partial_ (xin m ρ (src c k))) e2

end Regions

open Regions

/-- The whole buffer is its four slots. -/
theorem scr_split (c : Dev nD) (f : Buf (Elt F) ((c : Thread nD τ).loc cc0_scratch0)) :
    (scrPts c f : sProp 𝕄) ⊣⊢ iprop(slotPts c 0 f ∗ slotPts c 1 f ∗ slotPts c 2 f ∗ slotPts c 3 f) := by
  unfold scrPts slotPts
  have e : ((c : Thread nD τ).loc cc0_scratch0 ↦{fullShare} f : sProp 𝕄)
      = ((c : Thread nD τ).loc cc0_scratch0 ↦[slotSet 0 ∪ (slotSet 1 ∪ (slotSet 2 ∪ slotSet 3))]{fullShare} f) :=
    congrArg (fun I => ((c : Thread nD τ).loc cc0_scratch0 ↦[I]{fullShare} f : sProp 𝕄)) Regions.univ_eq_slots
  have d23 : Disjoint (slotSet 2) (slotSet 3) := Regions.slotSet_disjoint (by decide)
  have d1 : Disjoint (slotSet 1) (slotSet 2 ∪ slotSet 3) :=
    Finset.disjoint_union_right.mpr ⟨Regions.slotSet_disjoint (by decide), Regions.slotSet_disjoint (by decide)⟩
  have d0 : Disjoint (slotSet 0) (slotSet 1 ∪ (slotSet 2 ∪ slotSet 3)) :=
    Finset.disjoint_union_right.mpr ⟨Regions.slotSet_disjoint (by decide),
      Finset.disjoint_union_right.mpr ⟨Regions.slotSet_disjoint (by decide), Regions.slotSet_disjoint (by decide)⟩⟩
  rw [e, Regions.eq_of_equiv (pointsTo_union d0), Regions.eq_of_equiv (pointsTo_union d1), Regions.eq_of_equiv (pointsTo_union d23)]

/-- Slot 0 at the full share is slot 0 at the three shares it is lent at. -/
theorem slot0_shares (c : Dev nD) (f : Buf (Elt F) ((c : Thread nD τ).loc cc0_scratch0)) :
    (slotPts c 0 f : sProp 𝕄) ⊣⊢ iprop(slot0Sh c (shareOf 1) f ∗ slot0Sh c (shareOf 2) f ∗ slot0Sh c (shareOf 3) f) := by
  have h1 : (slotPts c 0 f : sProp 𝕄) = iprop(slot0Sh c (shareOf 1) f ∗ slot0Sh c fullShare.right f) :=
    Regions.eq_of_equiv (pointsTo_share (ℓ := (c : Thread nD τ).loc cc0_scratch0) (I := slotSet 0) (q := fullShare) (q₁ := fullShare.left)
      (q₂ := fullShare.right) (f := f) (PosShare.mem_left_op_right fullShare))
  have h2 : (slot0Sh c fullShare.right f : sProp 𝕄) = iprop(slot0Sh c (shareOf 2) f ∗ slot0Sh c (shareOf 3) f) :=
    Regions.eq_of_equiv (pointsTo_share (ℓ := (c : Thread nD τ).loc cc0_scratch0) (I := slotSet 0) (q := fullShare.right) (q₁ := fullShare.right.left)
      (q₂ := fullShare.right.right) (f := f) (PosShare.mem_left_op_right fullShare.right))
  rw [h1, h2]

/-- A slot through the view the kernel's copies name it by. -/
theorem slotPts_view1 (c : Dev nD) (f : Buf (Elt F) ((c : Thread nD τ).loc cc0_scratch0)) :
    (slotPts c 1 f : sProp 𝕄) = ((slotM 1).view.loc (c : Thread nD τ) ↦[(slotM 1).view.set]{fullShare} f) := by
  rw [Regions.slotM_set1]; rfl
theorem slotPts_view2 (c : Dev nD) (f : Buf (Elt F) ((c : Thread nD τ).loc cc0_scratch0)) :
    (slotPts c 2 f : sProp 𝕄) = ((slotM 2).view.loc (c : Thread nD τ) ↦[(slotM 2).view.set]{fullShare} f) := by
  rw [Regions.slotM_set2]; rfl
theorem slotPts_view3 (c : Dev nD) (f : Buf (Elt F) ((c : Thread nD τ).loc cc0_scratch0)) :
    (slotPts c 3 f : sProp 𝕄) = ((slotM 3).view.loc (c : Thread nD τ) ↦[(slotM 3).view.set]{fullShare} f) := by
  rw [Regions.slotM_set3]; rfl
theorem slot0Sh_view (c : Dev nD) (q : PosShare TreeShare) (f : Buf (Elt F) ((c : Thread nD τ).loc cc0_scratch0)) :
    (slot0Sh c q f : sProp 𝕄) = ((slotM 0).view.loc (c : Thread nD τ) ↦[(slotM 0).view.set]{q} f) := by
  rw [Regions.slotM_set0]; rfl

/-- The kernel's load of slot 0 and its store into slot 0 touch slot 0 only. -/
theorem load0_sub : (rM : Memref sig .tc .vmem S4x8x128 .f32).view.setOn (rectK 0).toLoadRect.set ⊆ slotSet 0 := by
  have h : (rM : Memref sig .tc .vmem S4x8x128 .f32).view.setOn (rectK 0).toLoadRect.set = (rectK 0).toLoadRect.set :=
    Finset.map_refl
  rw [h]; exact (Regions.rect_set 0 _).subset
theorem store0_sub : ((rM : Memref sig .tc .vmem S4x8x128 .f32).access (rectK 0)).setOn (Finset.univ : Finset (rectK 0).shape.Idx) ⊆ slotSet 0 := by
  show ((View.whole cc0_scratch0).slice (rectK 0)).set ⊆ slotSet 0
  rw [View.set_slice_whole]; exact (Regions.rect_set 0 _).subset

/-- After the store of a device's own row sums, slot 0 holds its final contents. -/
theorem store0 (c : Dev nD) (f : Buf (Elt F) ((c : Thread nD τ).loc cc0_scratch0)) :
    ((((c : Thread nD τ).loc cc0_scratch0) ↦[slotSet 0]{fullShare}
        (((rM : Memref sig .tc .vmem S4x8x128 .f32).access (rectK 0)).write (Elt F) f (partial_ (xin m ρ c)) Finset.univ)) : sProp 𝕄)
      ⊢ slotPts c 0 (scrC m ρ c) := by
  unfold slotPts
  refine Entails.of_eq (pointsTo_congr fun i hi => ?_)
  have hi' : i ∈ ((rM : Memref sig .tc .vmem S4x8x128 .f32).access (rectK 0)).set := by
    show i ∈ ((View.whole cc0_scratch0).slice (rectK 0)).set
    rw [View.set_slice_whole]; exact (Regions.rect_set 0 _).symm.subset hi
  obtain ⟨y, rfl⟩ := View.exists_emb_of_mem_set _ hi'
  rw [View.write_emb_of_mem _ _ (Finset.mem_univ y)]
  show partial_ (xin m ρ c) y = scrC m ρ c ((Rect.unit (s := S4x8x128) ![0, 0, 0] S1x8x128.size _).emb y)
  rw [Regions.scrC_emb, Regions.src_zero]

/-- Copy `k` of device `c`, landed in slot `k` of the device `k` places after it, leaves that slot at its final contents. -/
theorem landing1 (c : Dev nD) (fd : Buf (Elt F) ((slotM 1).view.loc ((fwd c 1 : Dev nD) : Thread nD τ))) :
    (((slotM 1).view.loc ((fwd c 1 : Dev nD) : Thread nD τ) ↦[(slotM 1).view.set]{fullShare}
        ((slotM 1).view.write (Elt F) fd ((slotM 0).view.read (Elt F) (scrC m ρ c)) Finset.univ)) : sProp 𝕄)
      ⊢ recvPay m ρ (fwd c 1) 1 := by
  unfold recvPay
  rw [slotPts_view1]
  refine Entails.of_eq (pointsTo_congr fun i hi => ?_)
  obtain ⟨x, rfl⟩ := View.exists_emb_of_mem_set _ hi
  rw [View.write_emb_of_mem _ _ (Finset.mem_univ x)]
  show scrC m ρ c ((Rect.unit (s := S4x8x128) ![0, 0, 0] S1x8x128.size _).emb (Shape.reshapeEquiv _ x))
    = scrC m ρ (fwd c 1) ((Rect.unit (s := S4x8x128) ![1, 0, 0] S1x8x128.size _).emb (Shape.reshapeEquiv _ x))
  have e : src (fwd c 1) 1 = c := src_fwd c 1
  rw [Regions.scrC_emb, Regions.scrC_emb, Regions.src_zero, e]
theorem landing2 (c : Dev nD) (fd : Buf (Elt F) ((slotM 2).view.loc ((fwd c 2 : Dev nD) : Thread nD τ))) :
    (((slotM 2).view.loc ((fwd c 2 : Dev nD) : Thread nD τ) ↦[(slotM 2).view.set]{fullShare}
        ((slotM 2).view.write (Elt F) fd ((slotM 0).view.read (Elt F) (scrC m ρ c)) Finset.univ)) : sProp 𝕄)
      ⊢ recvPay m ρ (fwd c 2) 2 := by
  unfold recvPay
  rw [slotPts_view2]
  refine Entails.of_eq (pointsTo_congr fun i hi => ?_)
  obtain ⟨x, rfl⟩ := View.exists_emb_of_mem_set _ hi
  rw [View.write_emb_of_mem _ _ (Finset.mem_univ x)]
  show scrC m ρ c ((Rect.unit (s := S4x8x128) ![0, 0, 0] S1x8x128.size _).emb (Shape.reshapeEquiv _ x))
    = scrC m ρ (fwd c 2) ((Rect.unit (s := S4x8x128) ![2, 0, 0] S1x8x128.size _).emb (Shape.reshapeEquiv _ x))
  have e : src (fwd c 2) 2 = c := src_fwd c 2
  rw [Regions.scrC_emb, Regions.scrC_emb, Regions.src_zero, e]
theorem landing3 (c : Dev nD) (fd : Buf (Elt F) ((slotM 3).view.loc ((fwd c 3 : Dev nD) : Thread nD τ))) :
    (((slotM 3).view.loc ((fwd c 3 : Dev nD) : Thread nD τ) ↦[(slotM 3).view.set]{fullShare}
        ((slotM 3).view.write (Elt F) fd ((slotM 0).view.read (Elt F) (scrC m ρ c)) Finset.univ)) : sProp 𝕄)
      ⊢ recvPay m ρ (fwd c 3) 3 := by
  unfold recvPay
  rw [slotPts_view3]
  refine Entails.of_eq (pointsTo_congr fun i hi => ?_)
  obtain ⟨x, rfl⟩ := View.exists_emb_of_mem_set _ hi
  rw [View.write_emb_of_mem _ _ (Finset.mem_univ x)]
  show scrC m ρ c ((Rect.unit (s := S4x8x128) ![0, 0, 0] S1x8x128.size _).emb (Shape.reshapeEquiv _ x))
    = scrC m ρ (fwd c 3) ((Rect.unit (s := S4x8x128) ![3, 0, 0] S1x8x128.size _).emb (Shape.reshapeEquiv _ x))
  have e : src (fwd c 3) 3 = c := src_fwd c 3
  rw [Regions.scrC_emb, Regions.scrC_emb, Regions.src_zero, e]

/-- What the kernel's load of slot `k` reads off the final contents: the row sums of the device `k` places before. -/
theorem read_slot0 (c : Dev nD) :
    (rM : Memref sig .tc .vmem S4x8x128 .f32).view.readAt (Elt F) (rectK 0).toLoadRect (scrC m ρ c) = partial_ (xin m ρ c) := by
  funext y
  show scrC m ρ c ((Rect.unit (s := S4x8x128) ![0, 0, 0] S1x8x128.size _).emb y) = _
  rw [Regions.scrC_emb, Regions.src_zero]
theorem read_slot1 (c : Dev nD) :
    (rM : Memref sig .tc .vmem S4x8x128 .f32).view.readAt (Elt F) (rectK 1).toLoadRect (scrC m ρ c) = partial_ (xin m ρ (src c 1)) := by
  funext y
  show scrC m ρ c ((Rect.unit (s := S4x8x128) ![1, 0, 0] S1x8x128.size _).emb y) = _
  rw [Regions.scrC_emb]
theorem read_slot2 (c : Dev nD) :
    (rM : Memref sig .tc .vmem S4x8x128 .f32).view.readAt (Elt F) (rectK 2).toLoadRect (scrC m ρ c) = partial_ (xin m ρ (src c 2)) := by
  funext y
  show scrC m ρ c ((Rect.unit (s := S4x8x128) ![2, 0, 0] S1x8x128.size _).emb y) = _
  rw [Regions.scrC_emb]
theorem read_slot3 (c : Dev nD) :
    (rM : Memref sig .tc .vmem S4x8x128 .f32).view.readAt (Elt F) (rectK 3).toLoadRect (scrC m ρ c) = partial_ (xin m ρ (src c 3)) := by
  funext y
  show scrC m ρ c ((Rect.unit (s := S4x8x128) ![3, 0, 0] S1x8x128.size _).emb y) = _
  rw [Regions.scrC_emb]

end Cert.KernelIdeal.Hand

end
-- ==== Proof.KernelIdeal.Body.lean ====
/-
  One device's kernel body, stepped from the protocol's ghost state to the statistics buffer at its final
  contents and the result block written.
-/
import proofs.«901059_g7700000000001060_dist_softmax_colshard_i_m1024_n512_v7x_i4_bf16_1_alg».proof.Proof.KernelIdeal.Regions

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Body

variable (K : Dev nD × Fin 7 → ℕ)

/-- A whole staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 3)
      ∗ cred (tallyAt (recvCell c 1) () N) ∗ cred (tallyAt (recvCell c 2) () N) ∗ cred (tallyAt (recvCell c 3) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xin m ρ c) ∗ stg c cc0_stg1_0 (outAt m ρ c))

theorem fwd13 (c : Dev nD) : fwd (fwd c 1) (3 : Fin 4).val = c := by revert c; decide
theorem fwd22 (c : Dev nD) : fwd (fwd c 2) (2 : Fin 4).val = c := by revert c; decide
theorem fwd31 (c : Dev nD) : fwd (fwd c 3) (1 : Fin 4).val = c := by revert c; decide

abbrev r0 : Rect S1024x512 := Rect.unit (s := S1024x512) ![0, 0] S1024x512.size Facts₀.inb_S1024x512_S1024x512_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S1024x512 .f32).view.readAt (Elt F) r0.toLoadRect f = f :=
  Memref.readAt_unit_zero (Elt F) cc0_stg0_0 hz _ f
omit [FloatOps F] in
theorem read_o (f : (cc0_stg1_0 : Ref sig .tc).ty.Contents (Elt F)) : (oM : Memref sig .tc .vmem S1024x512 .bf16).view.readAt (Elt F) r0.toLoadRect f = f :=
  Memref.readAt_unit_zero (Elt F) cc0_stg1_0 hz _ f
omit [FloatOps F] in
theorem write_out (f w : (cc0_stg1_0 : Ref sig .tc).ty.Contents (Elt F)) :
    ((oM : Memref sig .tc .vmem S1024x512 .bf16).access r0 : View sig .tc _ _ _).write (Elt F) f w Finset.univ = w :=
  Memref.write_access_unit_zero_univ (Elt F) cc0_stg1_0 hz _ f w

set_option maxHeartbeats 1600000 in
/-- `Rounds.wp_send_pointsTo` at copy 1's cells: slot 0 lent at share 1, slot 1 of the addressed device `n` (the device
    1 place after `c`, substituted) owned outright. -/
theorem wp_copy1 (c n : Dev nD) (hn : n = fwd c 1)
    {hsc : (slotM 1 : Memref sig (Dev.tc n : Thread nD τ).2.kind .vmem S8x128 .f32).view.ref.isScScratch = false}
    {hsrc : (slotM 0 : Memref sig .tc .vmem S8x128 .f32).view.WordExact} {hdst : (slotM 1 : Memref sig .tc .vmem S8x128 .f32).view.WordExact}
    {hsem : DmaTarget.Typed .vmem (.dma (recvS 1)) (.remote (Dev.tc n : Thread nD τ) (slotM 1 : Memref sig .tc .vmem S8x128 .f32) (.dma (sendS 1)) hsc)}
    {α : Type} {Q : α → sProp 𝕄} {kk : PUnit → Prog (TpuEff nD τ sig (Elt F) Λ₀ .tc) α}
    (fn : Buf (Elt F) (((fwd c 1 : Dev nD) : Thread nD τ).loc cc0_scratch0)) (O : CellTallies nD τ sig Unit) (W : Waits sig Unit) :
    iprop(cellInv ER (ringRd m ρ) (K (c, 1)) (sendCell c 1) ∗ cellInv ER (ringRd m ρ) (K (fwd c 1, 4)) (recvCell (fwd c 1) 1)
        ∗ slot0Sh c (shareOf 1) (scrC m ρ c) ∗ slotPts (fwd c 1) 1 fn
        ∗ owes (c : Thread nD τ) (O + tallyAt (recvCell (fwd c 1) 1) () N) W
        ∗ dutyTok ER (sendCell c 1) 0 0 ∗ reached ER (sendCell c 1) 0
        ∗ dutyTok ER (recvCell (fwd c 1) 1) 0 0 ∗ reached ER (recvCell (fwd c 1) 1) 0)
      ⊢ iprop(((cred (tallyAt (sendCell c 1) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM 0) (.remote (Dev.tc n : Thread nD τ) (slotM 1) (.dma (sendS 1)) hsc) (.dma (recvS 1)) hsrc hdst hsem) kk) Q) := by
  subst hn
  rw [slot0Sh_view, slotPts_view1]
  exact Rounds.wp_send_pointsTo 𝒱₀ ER (ringRd m ρ) (c : Thread nD τ) none (κ₁ := K (c, 1)) (κ₂ := K (fwd c 1, 4))
    (r₁ := 0) (r₂ := 0) (d₁ := 0) (d₂ := 0) (c' := ((fwd c 1 : Dev nD) : Thread nD τ)) (src := slotM 0) (dst := slotM 1) (sS := .dma (sendS 1)) (sem := .dma (recvS 1)) (q := shareOf 1) (fs := scrC m ρ c) (fd := fn)
    (by rw [duties_send m ρ c 1 (by decide)]; exact Finset.mem_singleton_self _)
    (by rw [duties_recv m ρ (fwd c 1) 1 (by decide)]; exact Finset.mem_singleton_self _)
    () () N ((View.amount_dma _ _).trans (credit_slot 1)) (amount_send m ρ c 1 0) (amount_recv m ρ (fwd c 1) 1 0) O rfl (W := W)
    (by rw [payload_send m ρ c 1 (by decide)]; unfold sendPay; rw [slot0Sh_view])
    (by rw [payload_recv m ρ (fwd c 1) 1 (by decide)]; exact landing1 m ρ c fn)

set_option maxHeartbeats 1600000 in
/-- `Rounds.wp_send_pointsTo` at copy 2's cells: slot 0 lent at share 2, slot 2 of the addressed device `n` (the device
    2 places after `c`, substituted) owned outright. -/
theorem wp_copy2 (c n : Dev nD) (hn : n = fwd c 2)
    {hsc : (slotM 2 : Memref sig (Dev.tc n : Thread nD τ).2.kind .vmem S8x128 .f32).view.ref.isScScratch = false}
    {hsrc : (slotM 0 : Memref sig .tc .vmem S8x128 .f32).view.WordExact} {hdst : (slotM 2 : Memref sig .tc .vmem S8x128 .f32).view.WordExact}
    {hsem : DmaTarget.Typed .vmem (.dma (recvS 2)) (.remote (Dev.tc n : Thread nD τ) (slotM 2 : Memref sig .tc .vmem S8x128 .f32) (.dma (sendS 2)) hsc)}
    {α : Type} {Q : α → sProp 𝕄} {kk : PUnit → Prog (TpuEff nD τ sig (Elt F) Λ₀ .tc) α}
    (fn : Buf (Elt F) (((fwd c 2 : Dev nD) : Thread nD τ).loc cc0_scratch0)) (O : CellTallies nD τ sig Unit) (W : Waits sig Unit) :
    iprop(cellInv ER (ringRd m ρ) (K (c, 2)) (sendCell c 2) ∗ cellInv ER (ringRd m ρ) (K (fwd c 2, 5)) (recvCell (fwd c 2) 2)
        ∗ slot0Sh c (shareOf 2) (scrC m ρ c) ∗ slotPts (fwd c 2) 2 fn
        ∗ owes (c : Thread nD τ) (O + tallyAt (recvCell (fwd c 2) 2) () N) W
        ∗ dutyTok ER (sendCell c 2) 0 0 ∗ reached ER (sendCell c 2) 0
        ∗ dutyTok ER (recvCell (fwd c 2) 2) 0 0 ∗ reached ER (recvCell (fwd c 2) 2) 0)
      ⊢ iprop(((cred (tallyAt (sendCell c 2) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM 0) (.remote (Dev.tc n : Thread nD τ) (slotM 2) (.dma (sendS 2)) hsc) (.dma (recvS 2)) hsrc hdst hsem) kk) Q) := by
  subst hn
  rw [slot0Sh_view, slotPts_view2]
  exact Rounds.wp_send_pointsTo 𝒱₀ ER (ringRd m ρ) (c : Thread nD τ) none (κ₁ := K (c, 2)) (κ₂ := K (fwd c 2, 5))
    (r₁ := 0) (r₂ := 0) (d₁ := 0) (d₂ := 0) (c' := ((fwd c 2 : Dev nD) : Thread nD τ)) (src := slotM 0) (dst := slotM 2) (sS := .dma (sendS 2)) (sem := .dma (recvS 2)) (q := shareOf 2) (fs := scrC m ρ c) (fd := fn)
    (by rw [duties_send m ρ c 2 (by decide)]; exact Finset.mem_singleton_self _)
    (by rw [duties_recv m ρ (fwd c 2) 2 (by decide)]; exact Finset.mem_singleton_self _)
    () () N ((View.amount_dma _ _).trans (credit_slot 2)) (amount_send m ρ c 2 0) (amount_recv m ρ (fwd c 2) 2 0) O rfl (W := W)
    (by rw [payload_send m ρ c 2 (by decide)]; unfold sendPay; rw [slot0Sh_view])
    (by rw [payload_recv m ρ (fwd c 2) 2 (by decide)]; exact landing2 m ρ c fn)

set_option maxHeartbeats 1600000 in
/-- `Rounds.wp_send_pointsTo` at copy 3's cells: slot 0 lent at share 3, slot 3 of the addressed device `n` (the device
    3 places after `c`, substituted) owned outright. -/
theorem wp_copy3 (c n : Dev nD) (hn : n = fwd c 3)
    {hsc : (slotM 3 : Memref sig (Dev.tc n : Thread nD τ).2.kind .vmem S8x128 .f32).view.ref.isScScratch = false}
    {hsrc : (slotM 0 : Memref sig .tc .vmem S8x128 .f32).view.WordExact} {hdst : (slotM 3 : Memref sig .tc .vmem S8x128 .f32).view.WordExact}
    {hsem : DmaTarget.Typed .vmem (.dma (recvS 3)) (.remote (Dev.tc n : Thread nD τ) (slotM 3 : Memref sig .tc .vmem S8x128 .f32) (.dma (sendS 3)) hsc)}
    {α : Type} {Q : α → sProp 𝕄} {kk : PUnit → Prog (TpuEff nD τ sig (Elt F) Λ₀ .tc) α}
    (fn : Buf (Elt F) (((fwd c 3 : Dev nD) : Thread nD τ).loc cc0_scratch0)) (O : CellTallies nD τ sig Unit) (W : Waits sig Unit) :
    iprop(cellInv ER (ringRd m ρ) (K (c, 3)) (sendCell c 3) ∗ cellInv ER (ringRd m ρ) (K (fwd c 3, 6)) (recvCell (fwd c 3) 3)
        ∗ slot0Sh c (shareOf 3) (scrC m ρ c) ∗ slotPts (fwd c 3) 3 fn
        ∗ owes (c : Thread nD τ) (O + tallyAt (recvCell (fwd c 3) 3) () N) W
        ∗ dutyTok ER (sendCell c 3) 0 0 ∗ reached ER (sendCell c 3) 0
        ∗ dutyTok ER (recvCell (fwd c 3) 3) 0 0 ∗ reached ER (recvCell (fwd c 3) 3) 0)
      ⊢ iprop(((cred (tallyAt (sendCell c 3) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM 0) (.remote (Dev.tc n : Thread nD τ) (slotM 3) (.dma (sendS 3)) hsc) (.dma (recvS 3)) hsrc hdst hsem) kk) Q) := by
  subst hn
  rw [slot0Sh_view, slotPts_view3]
  exact Rounds.wp_send_pointsTo 𝒱₀ ER (ringRd m ρ) (c : Thread nD τ) none (κ₁ := K (c, 3)) (κ₂ := K (fwd c 3, 6))
    (r₁ := 0) (r₂ := 0) (d₁ := 0) (d₂ := 0) (c' := ((fwd c 3 : Dev nD) : Thread nD τ)) (src := slotM 0) (dst := slotM 3) (sS := .dma (sendS 3)) (sem := .dma (recvS 3)) (q := shareOf 3) (fs := scrC m ρ c) (fd := fn)
    (by rw [duties_send m ρ c 3 (by decide)]; exact Finset.mem_singleton_self _)
    (by rw [duties_recv m ρ (fwd c 3) 3 (by decide)]; exact Finset.mem_singleton_self _)
    () () N ((View.amount_dma _ _).trans (credit_slot 3)) (amount_send m ρ c 3 0) (amount_recv m ρ (fwd c 3) 3 0) O rfl (W := W)
    (by rw [payload_send m ρ c 3 (by decide)]; unfold sendPay; rw [slot0Sh_view])
    (by rw [payload_recv m ρ (fwd c 3) 3 (by decide)]; exact landing3 m ρ c fn)

set_option maxHeartbeats 3200000 in
/-- The body, stepped from `bodyPre`, one rule per effect in program order, to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost invs
  iintro ⟨⟨⟨⟨⟨#HIb, #HIs1, #HIs2, #HIs3, #HIv1, #HIv2, #HIv3, #HIbN1, #HIbN2, #HIbN3, #HIvN1, #HIvN2, #HIvN3⟩,
      HatB, HatS1, HatS2, HatS3, HatV1, HatV2, HatV3, #HrB1, #HrB2, #HrB3, #HrVN1, #HrVN2, #HrVN3, #HrS1, #HrS2, #HrS3, #HrV1, #HrV2, #HrV3,
      HtB1, HtB2, HtB3, HtVN1, HtVN2, HtVN3, HtS1, HtS2, HtS3⟩, HcB, HcV1, HcV2, HcV3, #Hlev, ⟨%f0, Hscr⟩⟩,
    Ho, ⟨%d0, %g0, %hg0, Hx⟩, ⟨%d1, %g1, %hg1, Hout⟩⟩, Hk⟩
  have hx : g0 = xin m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c, dev4_eq c, dev5_eq c, dev6_eq c]
  -- the statistics buffer cut into its four slots
  ihave Hs := (scr_split c f0).1 $$ Hscr
  icases Hs with ⟨Hs0, Hs1, Hs2, Hs3⟩
  -- the signal to the device one place after: duty 3 of its barrier cell, with this device's slot 3
  iapply (Rounds.wp_signal 𝒱₀ ER (ringRd m ρ) (c : Thread nD τ) none (dst := (fwd c 1 : Thread nD τ)) (κ := K (fwd c 1, 0))
      (d := 3) (by rw [duties_bar]; decide) ((amount_bar m ρ (fwd c 1) 3).trans (by decide)) () (B2 c) rfl)
    $$ [HO HtB1 Hs3]
  · isplitr; · iexact HIbN1
    isplitl [HO]; · iexact HO
    isplitl [HtB1]; · iexact HtB1
    isplitl [Hs3]
    · rw [payload_bar m ρ (fwd c 1) 3 (by decide)]; unfold barPay; rw [fwd13]
      isplitl [Hs3]; · iexists f0; iexact Hs3
      iexact HrV3
    · iexact HrB1
  iintro HO
  -- two places after: duty 2, slot 2
  unfold B2
  iapply (Rounds.wp_signal 𝒱₀ ER (ringRd m ρ) (c : Thread nD τ) none (dst := (fwd c 2 : Thread nD τ)) (κ := K (fwd c 2, 0))
      (d := 2) (by rw [duties_bar]; decide) ((amount_bar m ρ (fwd c 2) 2).trans (by decide)) () (B3 c) rfl)
    $$ [HO HtB2 Hs2]
  · isplitr; · iexact HIbN2
    isplitl [HO]; · iexact HO
    isplitl [HtB2]; · iexact HtB2
    isplitl [Hs2]
    · rw [payload_bar m ρ (fwd c 2) 2 (by decide)]; unfold barPay; rw [fwd22]
      isplitl [Hs2]; · iexists f0; iexact Hs2
      iexact HrV2
    · iexact HrB2
  iintro HO
  -- three places after: duty 1, slot 1
  unfold B3
  iapply (Rounds.wp_signal 𝒱₀ ER (ringRd m ρ) (c : Thread nD τ) none (dst := (fwd c 3 : Thread nD τ)) (κ := K (fwd c 3, 0))
      (d := 1) (by rw [duties_bar]; decide) ((amount_bar m ρ (fwd c 3) 1).trans (by decide)) () (R1 c) rfl)
    $$ [HO HtB3 Hs1]
  · isplitr; · iexact HIbN3
    isplitl [HO]; · iexact HO
    isplitl [HtB3]; · iexact HtB3
    isplitl [Hs1]
    · rw [payload_bar m ρ (fwd c 3) 1 (by decide)]; unfold barPay; rw [fwd31]
      isplitl [Hs1]; · iexists f0; iexact Hs1
      iexact HrV1
    · iexact HrB3
  iintro HO
  -- the own block loaded, its exponentials stored into the result block, its row sums into slot 0
  iapply (wp_load 𝒱₀ (c : Thread nD τ) none Set.univ (m := xM) (Finset.subset_univ _)) $$ Hx; iintro Hx
  rw [read_x]
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out]
  unfold slotPts
  iapply (wp_load 𝒱₀ (c : Thread nD τ) none Set.univ (m := rM) load0_sub) $$ Hs0; iintro Hs0
  iapply (wp_store 𝒱₀ (c : Thread nD τ) none Set.univ (m := rM) (r := rectK 0) (Mk := Finset.univ) store0_sub) $$ Hs0; iintro Hs0
  ihave Hs0 := (store0 m ρ c f0) $$ Hs0
  -- the wait for three units on the own barrier cell, owing the three receive credits: the three peers' slots come with it
  iapply (Rounds.wp_wait_rest_token 𝒱₀ ER (ringRd m ρ) (c : Thread nD τ) none (κ := K (c, 0))
      (wpE_semWait_eq 𝒱₀ (c : Thread nD τ) none Set.univ) (Set.mem_univ _) () (O := R1 c) (W := W) (R := 0) (m := 0) (T := ∅)
      (by rw [expect_bar]; decide)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨⟨%fn1, Hn1⟩, -⟩, ⟨⟨%fn2, Hn2⟩, -⟩, ⟨%fn3, Hn3⟩, -⟩
  -- slot 0 lent at three shares, one per copy
  ihave Hsh := (slot0_shares c (scrC m ρ c)).1 $$ Hs0
  icases Hsh with ⟨Hq1, Hq2, Hq3⟩
  -- copy 1: slot 0 into slot 1 of the device 1 place after
  unfold R1
  iapply (wp_copy1 m ρ K c _ (dev4_eq c) fn1 (R2 c) (insert (SemLoc.reg barS, ()) W)) $$ [Hq1 Hn1 HO HtS1 HtVN1]
  · isplitr; · iexact HIs1
    isplitr; · iexact HIvN1
    isplitl [Hq1]; · iexact Hq1
    isplitl [Hn1]; · iexact Hn1
    isplitl [HO]; · iexact HO
    isplitl [HtS1]; · iexact HtS1
    isplitr; · iexact HrS1
    isplitl [HtVN1]; · iexact HtVN1
    iexact HrVN1
  iintro ⟨HcS1, HO⟩
  -- copy 2: slot 0 into slot 2 of the device 2 places after
  unfold R2
  iapply (wp_copy2 m ρ K c _ (dev5_eq c) fn2 (R3 c) (insert (SemLoc.reg barS, ()) W)) $$ [Hq2 Hn2 HO HtS2 HtVN2]
  · isplitr; · iexact HIs2
    isplitr; · iexact HIvN2
    isplitl [Hq2]; · iexact Hq2
    isplitl [Hn2]; · iexact Hn2
    isplitl [HO]; · iexact HO
    isplitl [HtS2]; · iexact HtS2
    isplitr; · iexact HrS2
    isplitl [HtVN2]; · iexact HtVN2
    iexact HrVN2
  iintro ⟨HcS2, HO⟩
  -- copy 3: slot 0 into slot 3 of the device 3 places after
  unfold R3
  iapply (wp_copy3 m ρ K c _ (dev6_eq c) fn3 0 (insert (SemLoc.reg barS, ()) W)) $$ [Hq3 Hn3 HO HtS3 HtVN3]
  · isplitr; · iexact HIs3
    isplitr; · iexact HIvN3
    isplitl [Hq3]; · iexact Hq3
    isplitl [Hn3]; · iexact Hn3
    isplitl [HO]; · rw [zero_add]; iexact HO
    isplitl [HtS3]; · iexact HtS3
    isplitr; · iexact HrS3
    isplitl [HtVN3]; · iexact HtVN3
    iexact HrVN3
  iintro ⟨HcS3, HO⟩
  -- the wait on receive cell 1: slot 1 at its final contents
  iapply (Rounds.wp_wait_rest_token 𝒱₀ ER (ringRd m ρ) (c : Thread nD τ) none (κ := K (c, 4))
      (wpE_waitDma2_eq 𝒱₀ (c : Thread nD τ) none Set.univ) (Set.mem_univ _) () (O := 0) (W := (insert (SemLoc.reg barS, ()) W)) (R := 0) (m := 0) (T := ∅)
      (by rw [Nat.zero_add, expect_recv m ρ c 1 (by decide)]; try exact credit_slot 1)) $$ [HcV1 HO HatV1]
  · isplitr; · iexact HIv1
    isplitl [HcV1]; · iexact HcV1
    isplitl [HO]; · iexact HO
    isplitr; · rw [MayWait_zero]; iempintro
    iexact HatV1
  iintro ⟨HO, HatV1, -, Hpay⟩
  ihave Hr1 := (Entails.of_eq (rest_recv m ρ c 1 (by decide))) $$ Hpay
  -- the wait on receive cell 2: slot 2 at its final contents
  iapply (Rounds.wp_wait_rest_token 𝒱₀ ER (ringRd m ρ) (c : Thread nD τ) none (κ := K (c, 5))
      (wpE_waitDma2_eq 𝒱₀ (c : Thread nD τ) none Set.univ) (Set.mem_univ _) () (O := 0) (W := (insert (SemLoc.dma (recvS 1), ()) (insert (SemLoc.reg barS, ()) W))) (R := 0) (m := 0) (T := ∅)
      (by rw [Nat.zero_add, expect_recv m ρ c 2 (by decide)]; try exact credit_slot 2)) $$ [HcV2 HO HatV2]
  · isplitr; · iexact HIv2
    isplitl [HcV2]; · iexact HcV2
    isplitl [HO]; · iexact HO
    isplitr; · rw [MayWait_zero]; iempintro
    iexact HatV2
  iintro ⟨HO, HatV2, -, Hpay⟩
  ihave Hr2 := (Entails.of_eq (rest_recv m ρ c 2 (by decide))) $$ Hpay
  -- the wait on receive cell 3: slot 3 at its final contents
  iapply (Rounds.wp_wait_rest_token 𝒱₀ ER (ringRd m ρ) (c : Thread nD τ) none (κ := K (c, 6))
      (wpE_waitDma2_eq 𝒱₀ (c : Thread nD τ) none Set.univ) (Set.mem_univ _) () (O := 0) (W := (insert (SemLoc.dma (recvS 2), ()) (insert (SemLoc.dma (recvS 1), ()) (insert (SemLoc.reg barS, ()) W)))) (R := 0) (m := 0) (T := ∅)
      (by rw [Nat.zero_add, expect_recv m ρ c 3 (by decide)]; try exact credit_slot 3)) $$ [HcV3 HO HatV3]
  · isplitr; · iexact HIv3
    isplitl [HcV3]; · iexact HcV3
    isplitl [HO]; · iexact HO
    isplitr; · rw [MayWait_zero]; iempintro
    iexact HatV3
  iintro ⟨HO, HatV3, -, Hpay⟩
  ihave Hr3 := (Entails.of_eq (rest_recv m ρ c 3 (by decide))) $$ Hpay
  -- the wait on send cell 1: share 1 of slot 0 back
  iapply (Rounds.wp_wait_rest_token 𝒱₀ ER (ringRd m ρ) (c : Thread nD τ) none (κ := K (c, 1))
      (wpE_waitDma2_eq 𝒱₀ (c : Thread nD τ) none Set.univ) (Set.mem_univ _) () (O := 0) (W := (insert (SemLoc.dma (recvS 3), ()) (insert (SemLoc.dma (recvS 2), ()) (insert (SemLoc.dma (recvS 1), ()) (insert (SemLoc.reg barS, ()) W))))) (R := 0) (m := 0) (T := ∅)
      (by rw [Nat.zero_add, expect_send m ρ c 1 (by decide)]; try exact credit_slot 0)) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hq1 := (Entails.of_eq (rest_send m ρ c 1 (by decide))) $$ Hpay
  -- the wait on send cell 2: share 2 of slot 0 back
  iapply (Rounds.wp_wait_rest_token 𝒱₀ ER (ringRd m ρ) (c : Thread nD τ) none (κ := K (c, 2))
      (wpE_waitDma2_eq 𝒱₀ (c : Thread nD τ) none Set.univ) (Set.mem_univ _) () (O := 0) (W := (insert (SemLoc.dma (sendS 1), ()) (insert (SemLoc.dma (recvS 3), ()) (insert (SemLoc.dma (recvS 2), ()) (insert (SemLoc.dma (recvS 1), ()) (insert (SemLoc.reg barS, ()) W)))))) (R := 0) (m := 0) (T := ∅)
      (by rw [Nat.zero_add, expect_send m ρ c 2 (by decide)]; try exact credit_slot 0)) $$ [HcS2 HO HatS2]
  · isplitr; · iexact HIs2
    isplitl [HcS2]; · iexact HcS2
    isplitl [HO]; · iexact HO
    isplitr; · rw [MayWait_zero]; iempintro
    iexact HatS2
  iintro ⟨HO, HatS2, -, Hpay⟩
  ihave Hq2 := (Entails.of_eq (rest_send m ρ c 2 (by decide))) $$ Hpay
  -- the wait on send cell 3: share 3 of slot 0 back
  iapply (Rounds.wp_wait_rest_token 𝒱₀ ER (ringRd m ρ) (c : Thread nD τ) none (κ := K (c, 3))
      (wpE_waitDma2_eq 𝒱₀ (c : Thread nD τ) none Set.univ) (Set.mem_univ _) () (O := 0) (W := (insert (SemLoc.dma (sendS 2), ()) (insert (SemLoc.dma (sendS 1), ()) (insert (SemLoc.dma (recvS 3), ()) (insert (SemLoc.dma (recvS 2), ()) (insert (SemLoc.dma (recvS 1), ()) (insert (SemLoc.reg barS, ()) W))))))) (R := 0) (m := 0) (T := ∅)
      (by rw [Nat.zero_add, expect_send m ρ c 3 (by decide)]; try exact credit_slot 0)) $$ [HcS3 HO HatS3]
  · isplitr; · iexact HIs3
    isplitl [HcS3]; · iexact HcS3
    isplitl [HO]; · iexact HO
    isplitr; · rw [MayWait_zero]; iempintro
    iexact HatS3
  iintro ⟨HO, HatS3, -, Hpay⟩
  ihave Hq3 := (Entails.of_eq (rest_send m ρ c 3 (by decide))) $$ Hpay
  -- the three shares of slot 0 joined, the four slots joined: the statistics buffer whole at its final contents
  unfold recvPay sendPay
  ihave Hs0 := (slot0_shares c (scrC m ρ c)).2 $$ [Hq1 Hq2 Hq3]
  · isplitl [Hq1]; · iexact Hq1
    isplitl [Hq2]; · iexact Hq2
    iexact Hq3
  ihave Hscr := (scr_split c (scrC m ρ c)).2 $$ [Hs0 Hr1 Hr2 Hr3]
  · isplitl [Hs0]; · iexact Hs0
    isplitl [Hr1]; · iexact Hr1
    isplitl [Hr2]; · iexact Hr2
    iexact Hr3
  -- the six own cells close: their counters at zero are the core's again
  imod (Rounds.cell_close ER (ringRd m ρ) (Set.mem_univ (K (c, 1))) (fun h => h) (R := 0 + 1) (duties_later m ρ (sendCell c 1))) $$ [HatS1] with HzS1
  · isplitr; · iexact HIs1
    iexact HatS1
  imod (Rounds.cell_close ER (ringRd m ρ) (Set.mem_univ (K (c, 2))) (fun h => h) (R := 0 + 1) (duties_later m ρ (sendCell c 2))) $$ [HatS2] with HzS2
  · isplitr; · iexact HIs2
    iexact HatS2
  imod (Rounds.cell_close ER (ringRd m ρ) (Set.mem_univ (K (c, 3))) (fun h => h) (R := 0 + 1) (duties_later m ρ (sendCell c 3))) $$ [HatS3] with HzS3
  · isplitr; · iexact HIs3
    iexact HatS3
  imod (Rounds.cell_close ER (ringRd m ρ) (Set.mem_univ (K (c, 4))) (fun h => h) (R := 0 + 1) (duties_later m ρ (recvCell c 1))) $$ [HatV1] with HzV1
  · isplitr; · iexact HIv1
    iexact HatV1
  imod (Rounds.cell_close ER (ringRd m ρ) (Set.mem_univ (K (c, 5))) (fun h => h) (R := 0 + 1) (duties_later m ρ (recvCell c 2))) $$ [HatV2] with HzV2
  · isplitr; · iexact HIv2
    iexact HatV2
  imod (Rounds.cell_close ER (ringRd m ρ) (Set.mem_univ (K (c, 6))) (fun h => h) (R := 0 + 1) (duties_later m ρ (recvCell c 3))) $$ [HatV3] with HzV3
  · isplitr; · iexact HIv3
    iexact HatV3
  -- the four slots loaded, the result block loaded and scaled
  unfold scrPts
  iapply (wp_load 𝒱₀ (c : Thread nD τ) none Set.univ (m := rM) (Finset.subset_univ _)) $$ Hscr; iintro Hscr
  rw [show (rM : Memref sig .tc .vmem S4x8x128 .f32).view.readAt (Elt F) (rectK 0).toLoadRect (scrC m ρ c) = partial_ (xin m ρ c) from read_slot0 m ρ c]
  iapply (wp_load 𝒱₀ (c : Thread nD τ) none Set.univ (m := rM) (Finset.subset_univ _)) $$ Hscr; iintro Hscr
  rw [show (rM : Memref sig .tc .vmem S4x8x128 .f32).view.readAt (Elt F) (rectK 1).toLoadRect (scrC m ρ c) = partial_ (xin m ρ (src c 1)) from read_slot1 m ρ c]
  iapply (wp_load 𝒱₀ (c : Thread nD τ) none Set.univ (m := rM) (Finset.subset_univ _)) $$ Hscr; iintro Hscr
  rw [show (rM : Memref sig .tc .vmem S4x8x128 .f32).view.readAt (Elt F) (rectK 2).toLoadRect (scrC m ρ c) = partial_ (xin m ρ (src c 2)) from read_slot2 m ρ c]
  iapply (wp_load 𝒱₀ (c : Thread nD τ) none Set.univ (m := rM) (Finset.subset_univ _)) $$ Hscr; iintro Hscr
  rw [show (rM : Memref sig .tc .vmem S4x8x128 .f32).view.readAt (Elt F) (rectK 3).toLoadRect (scrC m ρ c) = partial_ (xin m ρ (src c 3)) from read_slot3 m ρ c]
  iapply (wp_load 𝒱₀ (c : Thread nD τ) none Set.univ (m := oM) (Finset.subset_univ _)) $$ Hout; iintro Hout
  rw [read_o]
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hscr HzS1 HzS2 HzS3 HzV1 HzV2 HzV3]
  · isplitl [Hscr]; · unfold scrPts; iexact Hscr
    isplitl [HzS1]; · iexact HzS1
    isplitl [HzS2]; · iexact HzS2
    isplitl [HzS3]; · iexact HzS3
    isplitl [HzV1]; · iexact HzV1
    isplitl [HzV2]; · iexact HzV2
    iexact HzV3
  isplitl [HO]
  · iexists (insert (SemLoc.dma (sendS 3), ()) (insert (SemLoc.dma (sendS 2), ()) (insert (SemLoc.dma (sendS 1), ()) (insert (SemLoc.dma (recvS 3), ()) (insert (SemLoc.dma (recvS 2), ()) (insert (SemLoc.dma (recvS 1), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

end Body

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4, H5⟩
      isplitl [H1]; · iexact H1
      isplitl [H2]; · iexact H2
      isplitl [H3]; · iexact H3
      isplitl [H4]; · iexact H4
      isplitl [H5]; · iexact H5
      iexact Hscr
    isplitl [Ho]; · iexact Ho
    isplitl [Hx] <;> iassumption
  · iintro H; iexact H

end Cert.KernelIdeal.Hand

end
-- ==== Proof.KernelIdeal.Launch.lean ====
/-
  The launch: every device's ghost state funded and dealt, the cells' invariants allocated for all devices
  at once, and the run of @main on the four devices with each device's result named.
-/
import proofs.«901059_g7700000000001060_dist_softmax_colshard_i_m1024_n512_v7x_i4_bf16_1_alg».proof.Proof.KernelIdeal.Body
import proofs.«901059_g7700000000001060_dist_softmax_colshard_i_m1024_n512_v7x_i4_bf16_1_alg».proof.Proof.Gen.KernelIdeal.Frame

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts, and the protocol's cells -/

/-- The six semaphores of the two scratch arrays that the copies use are scoped, and none is a staging semaphore. -/
theorem ownSemFacts : Pipeline.OwnSemFacts cfg0.spec osem := by decide

theorem share_eq (c : Dev nD) (w : Fin cfg0.W) : (dats m ρ 0 c).share w = fullShare := by unfold Dat.share; split <;> rfl

/-- Different (device, semaphore) pairs are different cells. -/
theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The protocol's cells: seven on every device. -/
def ringCells : Finset (GSem nD τ sig) := Finset.univ.map ⟨kcell, kcell_injective⟩

/-- The nine duties of a device's own cells, as (cell, duty): the barrier cell's duties 1, 2, 3, and duty 0 of each of
    the three send cells and the three receive cells. -/
abbrev dutyTab : Fin 9 → Fin 7 × Fin 4 := ![(0, 1), (0, 2), (0, 3), (1, 0), (2, 0), (3, 0), (4, 0), (5, 0), (6, 0)]

theorem dutyTab_injective : Function.Injective dutyTab := by decide

/-- A device's own cells' duty tokens as minted: (device, which of the nine). -/
abbrev tokOf (cj : Dev nD × Fin 9) : GSem nD τ sig × ℕ × Fin 4 := (kcell (cj.1, (dutyTab cj.2).1), 0, (dutyTab cj.2).2)

theorem tokOf_injective : Function.Injective (tokOf : Dev nD × Fin 9 → GSem nD τ sig × ℕ × Fin 4) := by
  rintro ⟨c, j⟩ ⟨c', j'⟩ h
  have hk : kcell (c, (dutyTab j).1) = kcell (c', (dutyTab j').1) := congrArg (fun x : GSem nD τ sig × ℕ × Fin 4 => x.1) h
  have hd : (dutyTab j).2 = (dutyTab j').2 := congrArg (fun x : GSem nD τ sig × ℕ × Fin 4 => x.2.2) h
  have hp := kcell_injective hk
  have hc : c = c' := congrArg Prod.fst hp
  have hj : j = j' := dutyTab_injective (Prod.ext (congrArg Prod.snd hp) hd)
  rw [hc, hj]

def ringToks : Finset (GSem nD τ sig × ℕ × Fin 4) := Finset.univ.map ⟨tokOf, tokOf_injective⟩

/-- The launch element: the pipeline's cells and tokens beside the protocol's. -/
def u₀ : UU :=
  (initOf (Pipeline.cells cfgs cellOf_inj) (Pipeline.launchToks cfgs cellOf_inj), initOf ringCells ringToks)

/-- The duty tokens of device c's own cells. -/
def toks (c : Dev nD) : sProp 𝕄 :=
  iprop(dutyTok ER (barCell c) 0 1 ∗ dutyTok ER (barCell c) 0 2 ∗ dutyTok ER (barCell c) 0 3
    ∗ dutyTok ER (sendCell c 1) 0 0 ∗ dutyTok ER (sendCell c 2) 0 0 ∗ dutyTok ER (sendCell c 3) 0 0
    ∗ dutyTok ER (recvCell c 1) 0 0 ∗ dutyTok ER (recvCell c 2) 0 0 ∗ dutyTok ER (recvCell c 3) 0 0)

/-- What the launch element deals device c: its seven cells' round states, positions and reached-marks, and its own
    cells' duty tokens. -/
def G (c : Dev nD) : sProp 𝕄 :=
  iprop((bigSep Finset.univ fun k : Fin 7 => roundState ER (ringRd m ρ) (kcell (c, k)) 0)
    ∗ (bigSep Finset.univ fun k : Fin 7 => iprop(atPos ER (kcell (c, k)) 0 ∅ 0 ∗ reached ER (kcell (c, k)) 0)) ∗ toks c)

/-- What the global step makes of it: the ghost state the body starts from, at some names. -/
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The protocol's copy of the launch element, dealt device by device. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin9]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every device's cells allocated at once -/

/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 1) 0 ∗ semVal (sendCell c 2) 0 ∗ semVal (sendCell c 3) 0
        ∗ semVal (recvCell c 1) 0 ∗ semVal (recvCell c 2) 0 ∗ semVal (recvCell c 3) 0) := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together: the seven counters of a device's cells, at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

/-- A device's seven cells, each with its counter at zero and its round state, closed into invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The ghost state regrouped: invariants and reached-marks shared, tokens dealt around the ring -/

/-- The names of all cells' invariants and all cells' reached-marks: persistent, so every device may read off the ones
    its body names. -/
def records (K : Dev nD × Fin 7 → ℕ) : sProp 𝕄 :=
  iprop((bigSep Finset.univ fun ck : Dev nD × Fin 7 => cellInv ER (ringRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (ringRd m ρ) (K ck) (kcell ck) : sProp 𝕄)) ⊢ cellInv ER (ringRd m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- The tokens of the duties device c pays: towards the device k places after it, duty 4 - k of that device's barrier
    cell and the duty of its receive cell k; and the duties of its own three send cells. -/
def payToks (c : Dev nD) : sProp 𝕄 :=
  iprop(dutyTok ER (barCell (fwd c 1)) 0 3 ∗ dutyTok ER (barCell (fwd c 2)) 0 2 ∗ dutyTok ER (barCell (fwd c 3)) 0 1
    ∗ dutyTok ER (recvCell (fwd c 1) 1) 0 0 ∗ dutyTok ER (recvCell (fwd c 2) 2) 0 0 ∗ dutyTok ER (recvCell (fwd c 3) 3) 0 0
    ∗ dutyTok ER (sendCell c 1) 0 0 ∗ dutyTok ER (sendCell c 2) 0 0 ∗ dutyTok ER (sendCell c 3) 0 0)

/-- What stays with device c alone: its positions at its seven cells, and the tokens it pays with. -/
def linear (c : Dev nD) : sProp 𝕄 :=
  iprop((atPos ER (barCell c) 0 ∅ 0
      ∗ atPos ER (sendCell c 1) 0 ∅ 0 ∗ atPos ER (sendCell c 2) 0 ∅ 0 ∗ atPos ER (sendCell c 3) 0 ∅ 0
      ∗ atPos ER (recvCell c 1) 0 ∅ 0 ∗ atPos ER (recvCell c 2) 0 ∅ 0 ∗ atPos ER (recvCell c 3) 0 ∅ 0) ∗ payToks c)

theorem ghost_intro (K : Dev nD × Fin 7 → ℕ) (c : Dev nD) : iprop(records m ρ K ∗ linear c) ⊢ G' m ρ c := by
  unfold records linear payToks G' ghost invs
  iintro ⟨⟨#HI, #HR⟩, ⟨Ha0, Ha1, Ha2, Ha3, Ha4, Ha5, Ha6⟩, Ht1, Ht2, Ht3, Ht4, Ht5, Ht6, Ht7, Ht8, Ht9⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (fwd c 1, 0)); iexact HI
    isplitr; · iapply (inv_at m ρ K (fwd c 2, 0)); iexact HI
    isplitr; · iapply (inv_at m ρ K (fwd c 3, 0)); iexact HI
    isplitr; · iapply (inv_at m ρ K (fwd c 1, 4)); iexact HI
    isplitr; · iapply (inv_at m ρ K (fwd c 2, 5)); iexact HI
    iapply (inv_at m ρ K (fwd c 3, 6)); iexact HI
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitr; · iapply (reached_at (F := F) (fwd c 1, 0)); iexact HR
  isplitr; · iapply (reached_at (F := F) (fwd c 2, 0)); iexact HR
  isplitr; · iapply (reached_at (F := F) (fwd c 3, 0)); iexact HR
  isplitr; · iapply (reached_at (F := F) (fwd c 1, 4)); iexact HR
  isplitr; · iapply (reached_at (F := F) (fwd c 2, 5)); iexact HR
  isplitr; · iapply (reached_at (F := F) (fwd c 3, 6)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  isplitr; · iapply (reached_at (F := F) (c, 6)); iexact HR
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  iexact Ht9

/-- Going k places forward around the ring of four is a bijection of the devices, k places back its inverse. -/
def ringE (k : Fin 4) : Dev nD ≃ Dev nD := ⟨fun c => fwd c k.val, fun c => src c k.val, fun c => src_fwd c k, fun c => fwd_src c k⟩

/-- The tokens dealt around the ring: a barrier cell's duty 4 - k token, and the token of receive cell k, go k places
    back, to the device that pays them; the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv (ringE 1) (fun c : Dev nD => (dutyTok ER (barCell c) 0 3 : sProp 𝕄)),
    bigSep_univ_equiv (ringE 2) (fun c : Dev nD => (dutyTok ER (barCell c) 0 2 : sProp 𝕄)),
    bigSep_univ_equiv (ringE 3) (fun c : Dev nD => (dutyTok ER (barCell c) 0 1 : sProp 𝕄)),
    bigSep_univ_equiv (ringE 1) (fun c : Dev nD => (dutyTok ER (recvCell c 1) 0 0 : sProp 𝕄)),
    bigSep_univ_equiv (ringE 2) (fun c : Dev nD => (dutyTok ER (recvCell c 2) 0 0 : sProp 𝕄)),
    bigSep_univ_equiv (ringE 3) (fun c : Dev nD => (dutyTok ER (recvCell c 3) 0 0 : sProp 𝕄))]
  iintro ⟨H1, H2, H3, H4, H5, H6, H7, H8, H9⟩
  isplitl [H3]; · iexact H3
  isplitl [H2]; · iexact H2
  isplitl [H1]; · iexact H1
  isplitl [H7]; · iexact H7
  isplitl [H8]; · iexact H8
  isplitl [H9]; · iexact H9
  isplitl [H4]; · iexact H4
  isplitl [H5]; · iexact H5
  iexact H6

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (ringRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rw [bigSep_fin7])))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- Every device owing one unit to the barrier cell of the device k places after it, each device's own barrier cell is
    credited one unit; -/
theorem cred_bar (c : Dev nD) (j : ℕ) (h1 : ∀ c : Dev nD, fwd (src c j) j = c) (h2 : ∀ d : Dev nD, src (fwd d j) j = d) :
    (Pipeline.launchCred (fun d : Dev nD => (tallyAt (barCell (fwd d j)) () 1 : CellTallies nD τ sig Unit)) c : sProp 𝕄)
      ⊢ cred (tallyAt (barCell c) () 1) :=
  Pipeline.launchCred_tallyAt (.reg barS) (fun d => fwd d j) (fun c => src c j) h1 h2 () 1 c

/-- every device owing a slot's credit to receive cell k of the device k places after it, each device's own receive cell
    k is credited a slot's credit. -/
theorem cred_recv (c : Dev nD) (k : Fin 4) (j : ℕ) (h1 : ∀ c : Dev nD, fwd (src c j) j = c) (h2 : ∀ d : Dev nD, src (fwd d j) j = d) :
    (Pipeline.launchCred (fun d : Dev nD => (tallyAt (recvCell (fwd d j) k) () N : CellTallies nD τ sig Unit)) c : sProp 𝕄)
      ⊢ cred (tallyAt (recvCell c k) () N) :=
  Pipeline.launchCred_tallyAt (.dma (recvS k)) (fun d => fwd d j) (fun c => src c j) h1 h2 () N c

/-- Three units of credit at one cell are a credit of three. -/
theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by
    rw [tallyAt_add, tallyAt_add]]
  exact (sep_mono_right (cred_add _ _).2).trans (cred_add _ _).2

/-- What the launch credits device c: its barrier cell the three peers' units, each receive cell its one sender's credit. -/
theorem creds (c : Dev nD) :
    (Pipeline.launchCred O₀ c : sProp 𝕄) ⊢ iprop(cred (tallyAt (barCell c) () 3)
      ∗ cred (tallyAt (recvCell c 1) () N) ∗ cred (tallyAt (recvCell c 2) () N) ∗ cred (tallyAt (recvCell c 3) () N)) := by
  have hO : (O₀ : Dev nD → CellTallies nD τ sig Unit) = fun d =>
      ((((tallyAt (recvCell (fwd d 3) 3) () N + tallyAt (recvCell (fwd d 2) 2) () N) + tallyAt (recvCell (fwd d 1) 1) () N)
        + tallyAt (barCell (fwd d 3)) () 1) + tallyAt (barCell (fwd d 2)) () 1) + tallyAt (barCell (fwd d 1)) () 1 := rfl
  rw [hO, Pipeline.launchCred_add, Pipeline.launchCred_add, Pipeline.launchCred_add, Pipeline.launchCred_add, Pipeline.launchCred_add]
  iintro ⟨⟨⟨⟨⟨HR3, HR2⟩, HR1⟩, HB3⟩, HB2⟩, HB1⟩
  ihave C1 := (cred_bar (F := F) c 1 (fun c => fwd_src c 1) (fun d => src_fwd d 1)) $$ HB1
  ihave C2 := (cred_bar (F := F) c 2 (fun c => fwd_src c 2) (fun d => src_fwd d 2)) $$ HB2
  ihave C3 := (cred_bar (F := F) c 3 (fun c => fwd_src c 3) (fun d => src_fwd d 3)) $$ HB3
  ihave D1 := (cred_recv (F := F) c 1 1 (fun c => fwd_src c 1) (fun d => src_fwd d 1)) $$ HR1
  ihave D2 := (cred_recv (F := F) c 2 2 (fun c => fwd_src c 2) (fun d => src_fwd d 2)) $$ HR2
  ihave D3 := (cred_recv (F := F) c 3 3 (fun c => fwd_src c 3) (fun d => src_fwd d 3)) $$ HR3
  isplitl [C1 C2 C3]
  · iapply (cred_three (F := F) (barCell c))
    isplitl [C1]; · iexact C1
    isplitl [C2]; · iexact C2
    iexact C3
  isplitl [D1]; · iexact D1
  isplitl [D2]; · iexact D2
  iexact D3

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HB, H1, H2, H3⟩
  imodintro
  unfold start G'
  isplitl
  · isplitl [HG]; · iexact HG
    isplitl [HB]; · iexact HB
    isplitl [H1]; · iexact H1
    isplitl [H2]; · iexact H2
    isplitl [H3]; · iexact H3
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ scrPts
  iintro ⟨Hr, H1, H2, H3, H4, H5, H6⟩
  isplitr; · iempintro
  isplitl [H1 H2 H3 H4 H5 H6]
  · isplitl [H1]; · iexact H1
    isplitl [H2]; · iexact H2
    isplitl [H3]; · iexact H3
    isplitl [H4]; · iexact H4
    isplitl [H5]; · iexact H5
    iexact H6
  iexists (scrC m ρ c); iexact Hr

/-- The pipeline's staging waits lie below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The arrays when the run has ended -/

/-- The input array is never written back: it holds what it held. -/
theorem final_in (c : Dev nD) : (dats m ρ 0 c).arrAt (0 : Fin 2) cfg0.N = m ((c.tc : Thread nD τ).loc main_arg0) :=
  (dats (F := F) m ρ 0 c).arrAt_in (0 : Fin 2) rfl _

/-- The result array after the one write-back: the whole block, written over the whole array. -/
theorem final_out (c : Dev nD) : (dats m ρ 0 c).arrAt (1 : Fin 2) cfg0.N = outAt m ρ c := by
  have h := (dats (F := F) m ρ 0 c).arrAt_succ (1 : Fin 2) t₀
  rw [flush0_1, if_pos rfl] at h
  refine (congrArg ((dats (F := F) m ρ 0 c).arrAt (1 : Fin 2)) (cfg0_N : cfg0.N = t₀.val + 1)).trans (h.trans ?_)
  exact Memref.write_access_unit_zero_univ (Elt F) main_v1 (off := fun a => win0_1.index t₀ a * win0_1.size a)
    (by funext a; fin_cases a <;> decide) _ _ _

/-! ## The run -/

set_option maxRecDepth 8000 in
/-- At the compiled mesh of four devices, for any float values, from any memory with zero counters: every weakly fair
    execution of @main terminates, and every final state has each device's result array at `outAt` of the four input
    blocks and its input unchanged. -/
theorem run_main : θ_run defs (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun s h c => ⟨((h c).1 (1 : Fin 2)).trans (final_out m ρ c), ((h c).1 (0 : Fin 2)).trans (final_in m ρ c)⟩)

/-- A device's input block as its staging buffer holds it is the block in memory. -/
theorem xin_eq (c : Dev nD) : xin m ρ c = m ((c.tc : Thread nD τ).loc main_arg0) :=
  Memref.read_access_unit_zero (Elt F) main_arg0 (off := fun a => win0_0.index (0 : Fin 1) a * win0_0.size a)
    (by funext a; fin_cases a <;> decide) _ _

/-- info: 'Cert.KernelIdeal.Hand.run_main' depends on axioms: [propext, Classical.choice, Quot.sound] -/
#guard_msgs in #print axioms run_main

end Cert.KernelIdeal.Hand

end
-- ==== Proof.Value.Spec.lean ====
/-
  The common form both programs are brought to: the exponential of an entry times the reciprocal of the
  sum of the exponentials of its row.
-/
import Idealize.ShloMosaic.PureOps.Ideal
import Idealize.ShloMosaic.Lib.ValueIdx

noncomputable section

namespace Cert.SoftmaxValue

open Idealize.ShloMosaic Idealize.ShloMosaic.ValueIdx

/-- The sum over row `r` of the exponentials of an array of 1024 rows and `n` columns. -/
def rowSum {n : Nat} (x : (⟨2, ![1024, n]⟩ : Shape).Idx → EReal) (r : Fin 1024) : EReal :=
  ∑ j : Fin n, Ideal.exp (x (ix2 r j))

end Cert.SoftmaxValue

end
-- ==== Proof.Value.KernelSide.lean ====
/-
  The kernel's result on a device, read at an index: the exponential of the device's own entry times the
  reciprocal of the sum of the four devices' row sums.
-/
import proofs.«901059_g7700000000001060_dist_softmax_colshard_i_m1024_n512_v7x_i4_bf16_1_alg».proof.Proof.KernelIdeal.Out
import proofs.«901059_g7700000000001060_dist_softmax_colshard_i_m1024_n512_v7x_i4_bf16_1_alg».proof.Proof.Value.Spec
import Idealize.ShloMosaic.PureOps.Ideal.Laws
import Idealize.ShloMosaic.Lib.Pipeline.Value
import Idealize.ShloMosaic.Lib.ValueLayout
import Idealize.ShloMosaic.Lib.Affine
import Idealize.ShloMosaic.Lib.IdealHost
import Idealize.ShloMosaic.Lib.WordArith

noncomputable section

namespace Cert.SoftmaxValue

open Idealize.ShloMosaic Idealize.ShloMosaic.ValueIdx Cert.KernelIdeal Cert.KernelIdeal.Gen Cert.KernelIdeal.Hand

/-! ## The pieces, each read at explicit coordinates -/

namespace KernelSide

/-- The exponential payload at an index. -/
theorem pay2_apply (x : Vec Ideal S1024x512 .f32) (i : S1024x512.Idx) :
    k0_pay2 (F := Ideal) x i = Ideal.exp (x i) := by
  unfold k0_pay2
  rw [shapeCast_self]
  rfl

/-- A statistics slot viewed as eight rows of 128 lanes reads the slot at the same row and lane. -/
theorem slot_apply (p : Vec Ideal S1x8x128 .f32) (h : S1x8x128.ShapeCasts S8x128) (a : Fin 8) (b : Fin 128) :
    shapeCast S8x128 p h (ix2 a b) = p (ix3 0 a b) := by
  refine shapeCast_apply p h _ _ ?_
  rw [Shape.rowMajor_val_three, Shape.rowMajor_val_two]
  show ((0 : Nat) * 8 + a.val) * 128 + b.val = a.val * 128 + b.val
  omega

/-- The reciprocal of the four slots' sum at an index. -/
theorem pay4_apply (p0 p1 p2 p3 : Vec Ideal S1x8x128 .f32) (a : Fin 8) (b : Fin 128) :
    k0_pay4 (F := Ideal) p0 p1 p2 p3 (ix2 a b)
      = Ideal.div 1 (p0 (ix3 0 a b) + p1 (ix3 0 a b) + p2 (ix3 0 a b) + p3 (ix3 0 a b)) := by
  unfold k0_pay4
  simp only [divf_apply, addf_apply, broadcast_apply]
  rw [slot_apply p0, slot_apply p1, slot_apply p2, slot_apply p3]
  show Ideal.div (Ideal.ofBits .f32 0x3F800000#32) _ = _
  rw [Ideal.ofBits_one_f32]

/-- The index a reduction along the columns inserts a column into is the row and that column. -/
theorem lift_row {n m : Nat} (h : (⟨2, ![n, m]⟩ : Shape).Reduces [1] ⟨1, ![n]⟩) (r : Fin n) (k : Fin m) :
    h.lift (ix1 r) k = ix2 r k := by
  funext d
  match d with
  | ⟨0, _⟩ => exact Fin.ext rfl
  | ⟨1, _⟩ => exact Fin.ext rfl

/-- The row sums as the statistics slot holds them: row `128 a + b` at row `a`, lane `b`. -/
theorem pay3_apply (x : Vec Ideal S1024x512 .f32) (a : Fin 8) (b : Fin 128) :
    k0_pay3 (F := Ideal) x (ix3 0 a b) = rowSum x ⟨128 * a.val + b.val, by omega⟩ := by
  unfold k0_pay3
  rw [shapeCast_apply _ _ (ix3 0 a b) (ix2 a b) (by
        rw [Shape.rowMajor_val_three, Shape.rowMajor_val_two]
        show a.val * 128 + b.val = ((0 : Nat) * 8 + a.val) * 128 + b.val
        omega)]
  rw [shapeCast_apply _ _ (ix2 a b) (ix2 (⟨128 * a.val + b.val, by omega⟩ : Fin 1024) (0 : Fin 1)) (by
        rw [Shape.rowMajor_val_two, Shape.rowMajor_val_two]
        show (128 * a.val + b.val) * 1 + 0 = a.val * 128 + b.val
        omega)]
  rw [shapeCast_apply _ _ (ix2 (⟨128 * a.val + b.val, by omega⟩ : Fin 1024) (0 : Fin 1)) (ix1 (⟨128 * a.val + b.val, by omega⟩ : Fin 1024)) (by
        rw [Shape.rowMajor_val_two, Shape.rowMajor_val_one]
        show (128 * a.val + b.val) = (128 * a.val + b.val) * 1 + 0
        omega)]
  refine (Ideal.multiReduction_add_single (extf .f32 (k0_pay2 x) _) _ reduces_S1024x512_S1024 _ _ _).trans ?_
  unfold rowSum
  refine Finset.sum_congr rfl fun k _ => ?_
  rw [extf_apply, pay2_apply]
  exact congrArg (fun i => Ideal.exp (x i)) (lift_row _ _ _)

/-- Signed division of a small nonnegative word by 128 is the division of naturals. -/
theorem divsi128 (n : Nat) (hn : n < 1024) :
    IntOp.divsi .vector (BitVec.ofNat 32 n) 128#32 = BitVec.ofNat 32 (n / 128) := by
  have hm : (BitVec.ofNat 32 n).msb = false := by
    rw [BitVec.msb_eq_false_iff_two_mul_lt, BitVec.toNat_ofNat]; omega
  have h128 : (128#32 : BitVec 32).msb = false := by decide
  unfold IntOp.divsi
  rw [if_neg (IntOp.not_corner_of_pos (by decide))]
  simp only [BitVec.sdiv_eq, hm, h128]
  apply BitVec.eq_of_toNat_eq
  rw [BitVec.udiv_eq, BitVec.toNat_udiv]
  simp only [BitVec.toNat_ofNat, Nat.reducePow, Nat.reduceMod]
  omega

/-- The floor division by 128 of a small nonnegative word, as it is lowered (the quotient, less one when the signs
    differ and the remainder is not zero), is the division of naturals. -/
theorem floordiv128 (n : Nat) (hn : n < 1024) :
    Scalar.select (IntOp.andi (IntOp.cmpi .ne (IntOp.subi ((IntOp.cmpi .sgt (BitVec.ofNat 32 n) 0#32).setWidth 32)
          ((IntOp.cmpi .slt (BitVec.ofNat 32 n) 0#32).setWidth 32)) 1#32)
        (IntOp.cmpi .ne (IntOp.remsi .vector (BitVec.ofNat 32 n) 128#32) 0#32))
      (IntOp.subi (IntOp.divsi .vector (BitVec.ofNat 32 n) 128#32) 1#32) (IntOp.divsi .vector (BitVec.ofNat 32 n) 128#32)
      = BitVec.ofNat 32 (n / 128) := by
  have hI : (BitVec.ofNat 32 n).toInt = n := WordArith.toInt_ofNat_small n (by omega)
  have hc : ¬ IntOp.andi (IntOp.cmpi .ne (IntOp.subi ((IntOp.cmpi .sgt (BitVec.ofNat 32 n) 0#32).setWidth 32)
          ((IntOp.cmpi .slt (BitVec.ofNat 32 n) 0#32).setWidth 32)) 1#32)
        (IntOp.cmpi .ne (IntOp.remsi .vector (BitVec.ofNat 32 n) 128#32) 0#32) = 1#1 := by
    rw [IntOp.andi_eq_one, IntOp.cmpi_ne, IntOp.cmpi_ne]
    rintro ⟨h1, h2⟩
    rcases Nat.eq_zero_or_pos n with h0 | hp
    · subst h0; exact h2 (by decide)
    · have hs : IntOp.cmpi .sgt (BitVec.ofNat 32 n) 0#32 = 1#1 := by
        rw [IntOp.cmpi_sgt, hI]; show (0 : Int) < n; omega
      have hl : IntOp.cmpi .slt (BitVec.ofNat 32 n) 0#32 = 0#1 := by
        apply eq_zero_of_ne_one
        rw [IntOp.cmpi_slt, hI]; show ¬ ((n : Int) < 0); omega
      rw [hs, hl] at h1
      exact h1 (by decide)
  rw [eq_zero_of_ne_one hc, select_zero, divsi128 n hn]

/-- The row's block number as the kernel computes it. -/
theorem pay5_apply (r : Fin 1024) (k : Fin 8) : k0_pay5 (ix2 r k) = BitVec.ofNat 32 (r.val / 128) := by
  unfold k0_pay5
  simp only [select, andi, cmpi, subi, extui, remsi, divsi, broadcast]
  have hi : iota .tc S1024x8 32 [0] iota_S1024x8_d0_w32 (ix2 r k) = BitVec.ofNat 32 r.val :=
    iota_single_apply _ _ _ _ _ _
  have h1 : Scalar.subi (Scalar.extui (Scalar.cmpi .sgt 128#32 0#32)) (Scalar.extui (Scalar.cmpi .slt 128#32 0#32)) = 1#32 := by
    decide
  rw [hi, h1]
  exact floordiv128 r.val r.isLt

/-- The remainder of a small nonnegative word by 128, as it is lowered (the remainder, plus 128 when its sign differs from
    the divisor's and it is not zero), is the remainder of naturals. -/
theorem floormod128 (n : Nat) (hn : n < 1024) (c : BitVec 1) (hc : c = 0#1) :
    Scalar.select (IntOp.andi (IntOp.xori (IntOp.cmpi .slt (IntOp.remsi .vector (BitVec.ofNat 32 n) 128#32) 0#32) c)
        (IntOp.cmpi .ne (IntOp.remsi .vector (BitVec.ofNat 32 n) 128#32) 0#32))
      (IntOp.addi (IntOp.remsi .vector (BitVec.ofNat 32 n) 128#32) 128#32) (IntOp.remsi .vector (BitVec.ofNat 32 n) 128#32)
      = BitVec.ofNat 32 (n % 128) := by
  have hr : IntOp.remsi .vector (BitVec.ofNat 32 n) 128#32 = BitVec.ofNat 32 (n % 128) := by
    apply BitVec.eq_of_toNat_eq
    rw [show (128#32 : BitVec 32) = BitVec.ofNat 32 128 from rfl, IntOp.toNat_remsi .vector (by
      simp only [BitVec.toNat_ofNat, Nat.reducePow]; omega) 128 (by omega) (by omega)]
    simp only [BitVec.toNat_ofNat, Nat.reducePow]
    omega
  rw [hr]
  have hl : IntOp.cmpi .slt (BitVec.ofNat 32 (n % 128)) 0#32 = 0#1 := by
    apply eq_zero_of_ne_one
    rw [IntOp.cmpi_slt, WordArith.toInt_ofNat_small _ (by omega)]
    show ¬ (((n % 128 : Nat) : Int) < 0); omega
  rw [hl, hc]
  have h0 : ∀ d : BitVec 1, IntOp.andi (IntOp.xori 0#1 0#1) d = 0#1 := by decide
  rw [h0, select_zero]

/-- Two small naturals are equal as words exactly when they are equal. -/
theorem cmpi_eq_ofNat (m k : Nat) (hm : m < 2 ^ 32) (hk : k < 2 ^ 32) :
    IntOp.cmpi .eq (BitVec.ofNat 32 m) (BitVec.ofNat 32 k) = if m = k then 1#1 else 0#1 := by
  by_cases h : m = k
  · rw [if_pos h, IntOp.cmpi_eq, h]
  · rw [if_neg h]
    apply eq_zero_of_ne_one
    rw [IntOp.cmpi_eq]
    intro e
    have := congrArg BitVec.toNat e
    rw [BitVec.toNat_ofNat, BitVec.toNat_ofNat, Nat.mod_eq_of_lt hm, Nat.mod_eq_of_lt hk] at this
    exact h this

/-- The equality bit of two small naturals, widened and converted, is the indicator of their equality. -/
theorem onehot_word (m k : Nat) (hm : m < 2 ^ 32) (hk : k < 2 ^ 32) :
    (FloatOps.sitofp .f32 ((IntOp.cmpi .eq (BitVec.ofNat 32 m) (BitVec.ofNat 32 k)).setWidth 32) : Ideal .f32)
      = if m = k then 1 else 0 := by
  rw [cmpi_eq_ofNat m k hm hk]
  by_cases h : m = k
  · rw [if_pos h, if_pos h]
    show (((((1#1 : BitVec 1).setWidth 32).toInt : ℝ)) : EReal) = 1
    rw [show ((1#1 : BitVec 1).setWidth 32).toInt = 1 by decide]
    simp
  · rw [if_neg h, if_neg h]
    show (((((0#1 : BitVec 1).setWidth 32).toInt : ℝ)) : EReal) = 0
    rw [show ((0#1 : BitVec 1).setWidth 32).toInt = 0 by decide]
    simp

/-- A sum over eight blocks against the indicator of one block is that block's term. -/
theorem onehot_sum (q : Nat) (hq : q < 8) (g : Fin 8 → EReal) :
    ∑ k : Fin 8, (FloatOps.sitofp .f32 ((IntOp.cmpi .eq (BitVec.ofNat 32 q) (BitVec.ofNat 32 k.val)).setWidth 32) : Ideal .f32) * g k
      = g ⟨q, hq⟩ := by
  rw [Finset.sum_eq_single (⟨q, hq⟩ : Fin 8)]
  · rw [onehot_word q q (by omega) (by omega), if_pos rfl, one_mul]
  · intro k _ hk
    rw [onehot_word q k.val (by omega) (by omega), if_neg (fun e => hk (Fin.ext e.symm)), zero_mul]
  · intro h; exact absurd (Finset.mem_univ _) h

/-- A sum over 128 lanes masked to one lane is that lane's term. -/
theorem masked_sum (m : Nat) (hm : m < 128) (f : Fin 128 → EReal) (z : EReal) (hz : z = 0) :
    ∑ l : Fin 128, Scalar.select (IntOp.cmpi .eq (BitVec.ofNat 32 m) (BitVec.ofNat 32 l.val)) (f l) z = f ⟨m, hm⟩ := by
  subst hz
  rw [Finset.sum_eq_single (⟨m, hm⟩ : Fin 128)]
  · rw [cmpi_eq_ofNat m m (by omega) (by omega), if_pos rfl, select_one]
  · intro l _ hl
    rw [cmpi_eq_ofNat m l.val (by omega) (by omega), if_neg (fun e => hl (Fin.ext e.symm)), select_zero]
  · intro h; exact absurd (Finset.mem_univ _) h

/-- The product of a [1024, 8] array with an [8, 128] one into the zero accumulator, at row `r` and lane `l`: the
    sum over the eight blocks. -/
theorem matmul_apply8 (oh : FVec Ideal S1024x8 .f32) (v : FVec Ideal S8x128 .f32) (r : Fin 1024) (l : Fin 128) :
    matmul dot_S1024x8_S8x128_S1024x128_1_0_0_1_n_n none oh v (constant S1024x128 .f32 0x00000000#32) (ix2 r l)
      = ∑ k : Fin 8, oh (ix2 r k) * v (ix2 k l) := by
  show FloatOps.matmul dot_S1024x8_S8x128_S1024x128_1_0_0_1_n_n none oh v (constant S1024x128 .f32 0x00000000#32) (ix2 r l) = _
  rw [Ideal.matmul_constant_zero_apply]
  rw [← Equiv.sum_comp (contrEquiv1 dot_S1024x8_S8x128_S1024x128_1_0_0_1_n_n 8 rfl rfl).symm]
  refine Finset.sum_congr rfl fun k _ => ?_
  have hl : dot_S1024x8_S8x128_S1024x128_1_0_0_1_n_n.lhsIdx (ix2 r l)
      ((contrEquiv1 dot_S1024x8_S8x128_S1024x128_1_0_0_1_n_n 8 rfl rfl).symm k) = ix2 r k := by
    funext a
    match a with
    | ⟨0, _⟩ => exact Fin.ext rfl
    | ⟨1, _⟩ => exact Fin.ext (contrEquiv1_symm_val dot_S1024x8_S8x128_S1024x128_1_0_0_1_n_n 8 rfl rfl k)
  have hr : dot_S1024x8_S8x128_S1024x128_1_0_0_1_n_n.rhsIdx (ix2 r l)
      ((contrEquiv1 dot_S1024x8_S8x128_S1024x128_1_0_0_1_n_n 8 rfl rfl).symm k) = ix2 k l := by
    funext a
    match a with
    | ⟨0, _⟩ => exact Fin.ext (contrEquiv1_symm_val dot_S1024x8_S8x128_S1024x128_1_0_0_1_n_n 8 rfl rfl k)
    | ⟨1, _⟩ => exact Fin.ext rfl
  rw [hl, hr]

/-- The scaled result at an index, for any block-number array that reads `r / 128` at row `r`: the stored
    exponential times the reciprocal held at block `r / 128`, lane `r % 128`. -/
theorem pay1_apply (v118 : FVec Ideal S8x128 .f32) (v143 : IVec S1024x8 32) (v172 : Vec Ideal S1024x512 .bf16)
    (h143 : ∀ (r : Fin 1024) (k : Fin 8), v143 (ix2 r k) = BitVec.ofNat 32 (r.val / 128)) (r : Fin 1024) (j : Fin 512) :
    k0_pay1 (F := Ideal) v118 v143 v172 (ix2 r j)
      = (v172 (ix2 r j) : EReal) * v118 (ix2 (⟨r.val / 128, by omega⟩ : Fin 8) (⟨r.val % 128, by omega⟩ : Fin 128)) := by
  unfold k0_pay1
  rw [mulf_apply, shapeCast_self]
  congr 1
  rw [broadcastTo_apply _ _ (ix2 r j) (ix2 r (0 : Fin 1)) (by
    intro a; match a with | ⟨0, _⟩ => rfl | ⟨1, _⟩ => rfl)]
  rw [truncf_apply]
  rw [shapeCast_apply _ _ (ix2 r (0 : Fin 1)) (ix1 r) (by
    rw [Shape.rowMajor_val_two, Shape.rowMajor_val_one]; show r.val = r.val * 1 + 0; omega)]
  refine (Ideal.multiReduction_add_single _ _ reduces_S1024x128_S1024 _ _ _).trans ?_
  show ∑ l : Fin 128, _ = _
  refine (Finset.sum_congr rfl fun l _ => ?_).trans (masked_sum (r.val % 128) (by omega)
    (fun l => v118 (ix2 (⟨r.val / 128, by omega⟩ : Fin 8) l)) (Ideal.ofBits .f32 0x00000000#32) Ideal.ofBits_zero_f32)

  rw [show reduces_S1024x128_S1024.lift (ix1 r) l = ix2 r l from lift_row _ r l, select_apply]
  congr 1
  · simp only [cmpi, select, andi, xori, addi, remsi, broadcast]
    have hi0 : iota .tc S1024x128 32 [0] iota_S1024x128_d0_w32 (ix2 r l) = BitVec.ofNat 32 r.val :=
      iota_single_apply _ _ _ _ _ _
    have hi1 : iota .tc S1024x128 32 [1] iota_S1024x128_d1_w32 (ix2 r l) = BitVec.ofNat 32 l.val :=
      iota_single_apply _ _ _ _ _ _
    have h128 : Scalar.select (Scalar.cmpi .eq 128#32 0#32) 1#32 128#32 = 128#32 := by decide
    rw [hi0, hi1, h128]
    congr 1
    exact floormod128 r.val r.isLt _ ((broadcastTo_apply _ _ (ix2 r l) (ix2 r l) (by
      intro a; match a with | ⟨0, _⟩ => rfl | ⟨1, _⟩ => rfl)).trans (show Scalar.cmpi .slt 128#32 0#32 = 0#1 by decide))
  · rw [matmul_apply8]
    refine (Finset.sum_congr rfl fun k _ => ?_).trans
      (onehot_sum (r.val / 128) (by omega) (fun k => v118 (ix2 k l)))
    congr 1
    show FloatOps.sitofp .f32 ((IntOp.cmpi .eq (v143 (ix2 r k))
      (iota .tc S1024x8 32 [1] iota_S1024x8_d1_w32 (ix2 r k))).setWidth 32) = _
    rw [h143, iota_single_apply]

end KernelSide

open KernelSide in
theorem outVal_apply (xs : Dev nD → Vec Ideal S1024x512 .f32) (c : Dev nD) (r : Fin 1024) (j : Fin 512) :
    outVal (F := Ideal) xs c (ix2 r j)
      = Ideal.exp (xs c (ix2 r j))
        * Ideal.div 1 (rowSum (xs c) r + rowSum (xs (src c 1)) r + rowSum (xs (src c 2)) r + rowSum (xs (src c 3)) r) := by
  have hr : (⟨128 * (r.val / 128) + r.val % 128, by omega⟩ : Fin 1024) = r := Fin.ext (Nat.div_add_mod r.val 128)
  unfold outVal
  rw [pay1_apply _ _ _ pay5_apply r j, pay2_apply, pay4_apply]
  simp only [partial_]
  rw [pay3_apply, pay3_apply, pay3_apply, pay3_apply]
  simp only [hr]

end Cert.SoftmaxValue

end
-- ==== Proof.Value.RefImports.lean ====
/-
  The reference's run and its read-at-an-index lemmas, brought in for the value modules.
-/
import proofs.«901059_g7700000000001060_dist_softmax_colshard_i_m1024_n512_v7x_i4_bf16_1_alg».proof.Proof.Gen.ReferenceIdeal.Run
import proofs.«901059_g7700000000001060_dist_softmax_colshard_i_m1024_n512_v7x_i4_bf16_1_alg».proof.Proof.Gen.ReferenceIdeal.Read
-- ==== Proof.Value.RefSide.lean ====
/-
  The reference's result read at an index, for finite inputs: subtracting the row's maximum before the
  exponential cancels between numerator and denominator.
-/
import proofs.«901059_g7700000000001060_dist_softmax_colshard_i_m1024_n512_v7x_i4_bf16_1_alg».proof.Proof.Value.RefImports
import proofs.«901059_g7700000000001060_dist_softmax_colshard_i_m1024_n512_v7x_i4_bf16_1_alg».proof.Proof.Value.Spec
import Idealize.ShloMosaic.PureOps.Ideal.Laws

noncomputable section

namespace Cert.SoftmaxValue

open Idealize.ShloMosaic Idealize.ShloMosaic.ValueIdx Cert.ReferenceIdeal Cert.ReferenceIdeal.Gen

namespace RefSide

/-! ## Extended-real bookkeeping -/

/-- The coercion of a finite sum of reals is the sum of the coercions. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, starting from −∞, of finitely many reals over a nonempty index set is one of them, hence real. -/
theorem fold_max_real {ι : Type} [Fintype ι] [Nonempty ι] (g : ι → EReal) (hg : ∀ k, ∃ t : ℝ, g k = (t : EReal)) :
    ∃ m : ℝ, (Finset.univ : Finset ι).fold max ⊥ g = (m : EReal) := by
  obtain ⟨k, _, hk⟩ := Finset.exists_mem_eq_sup Finset.univ Finset.univ_nonempty g
  obtain ⟨t, ht⟩ := hg k
  exact ⟨t, by rw [← ht, ← hk]; rfl⟩

/-! ## The indices the stages read at -/

theorem idx_v1_v2 (r : Fin 1024) (k : Fin 2048) : Read.idx_main_v1 (Read.idx_main_v2 (ix2 r k)) = ix1 r :=
  funext fun a => Fin.ext (by match a with | ⟨0, _⟩ => rfl)

theorem idx_v6_v7 (r : Fin 1024) (k : Fin 2048) : Read.idx_main_v6 (Read.idx_main_v7 (ix2 r k)) = ix1 r :=
  funext fun a => Fin.ext (by match a with | ⟨0, _⟩ => rfl)

theorem idx_v5 (r : Fin 1024) (k : Fin 2048) : Read.idx_main_v5 (ix1 r) k = ix2 r k :=
  funext fun a => Fin.ext (by match a with | ⟨0, _⟩ => rfl | ⟨1, _⟩ => rfl)

/-! ## The row maximum is real -/

theorem rowMax_real (X : (⟨S1024x2048, .f32⟩ : BufTy).Contents (Elt Ideal)) (hfin : ∀ i, ∃ t : ℝ, X i = (t : EReal))
    (j : S1024.Idx) : ∃ m : ℝ, Read.val_main_v0 (F := Ideal) X j = (m : EReal) := by
  have h := Host.reduce_eq_fold_single (FloatOps.maximumf (F := Ideal) (φ := .f32)) X (Read.val_main_cst (F := Ideal))
    reducesTo_S1024x2048_S1024_d1 (by decide) h_S_ j
  have hb : Read.val_main_cst (F := Ideal) (Shape.Idx.first h_S_) = ⊥ := by
    rw [Read.val_main_cst_apply]; simp [Ideal.ofBits, Ideal.ieee]
  rw [hb] at h
  haveI : Nonempty (Fin (S1024x2048.size 1)) := ⟨⟨0, by decide⟩⟩
  obtain ⟨m, hm⟩ := fold_max_real (X ∘ Shape.Reduces.lift (by decide : S1024x2048.Reduces [1] S1024) j) (fun k => hfin _)
  exact ⟨m, h.trans hm⟩

end RefSide

open RefSide in
theorem ref_apply (X : (⟨S1024x2048, .f32⟩ : BufTy).Contents (Elt Ideal)) (hfin : ∀ i, ∃ t : ℝ, X i = (t : EReal))
    (r : Fin 1024) (J : Fin 2048) :
    Cert.ReferenceIdeal.Read.val_main_v9 (F := Ideal) X (ix2 r J) = Ideal.exp (X (ix2 r J)) * Ideal.div 1 (rowSum X r) := by
  obtain ⟨m, hm⟩ := rowMax_real X hfin (ix1 r)
  choose t ht using hfin
  -- the exponential stage along row r: exp (x − m), a real number
  have h4 : ∀ k : Fin 2048, Read.val_main_v4 (F := Ideal) X (ix2 r k) = ((Real.exp (t (ix2 r k) - m) : ℝ) : EReal) := by
    intro k
    rw [Read.val_main_v4_apply, Read.val_main_v3_apply, Read.val_main_v2_apply, Read.val_main_v1_apply, idx_v1_v2, hm, ht]
    simp only [Ideal.hostUnary_exp_def, Ideal.subf_def]
    rw [← EReal.coe_sub, Ideal.exp_coe]
  have h0 : Read.val_main_cst_0 (F := Ideal) (Shape.Idx.first h_S_) = 0 := by
    rw [Read.val_main_cst_0_apply]; simp [Ideal.ofBits, Ideal.ieee]
  -- the sum stage at row r
  have h5 : Read.val_main_v5 (F := Ideal) X (ix1 r) = ((∑ k : Fin 2048, Real.exp (t (ix2 r k) - m) : ℝ) : EReal) := by
    rw [Read.val_main_v5_apply, h0, zero_add, coe_finsum]
    exact Finset.sum_congr rfl fun k _ => by rw [idx_v5, h4]
  have hpos1 : 0 < ∑ k : Fin 2048, Real.exp (t (ix2 r k) - m) :=
    Finset.sum_pos (fun k _ => Real.exp_pos _) Finset.univ_nonempty
  have hpos2 : 0 < ∑ k : Fin 2048, Real.exp (t (ix2 r k)) :=
    Finset.sum_pos (fun k _ => Real.exp_pos _) Finset.univ_nonempty
  have hrow : rowSum X r = ((∑ k : Fin 2048, Real.exp (t (ix2 r k)) : ℝ) : EReal) := by
    unfold rowSum
    rw [coe_finsum]
    exact Finset.sum_congr rfl fun k _ => by rw [ht, Ideal.exp_coe]
  rw [Read.val_main_v9_apply, Read.val_main_v8_apply, Read.val_main_v7_apply, Read.val_main_v6_apply, idx_v6_v7, h5, h4 J,
    hrow, ht]
  simp only [Ideal.truncf_def, Ideal.hostDivf_def, Ideal.exp_coe]
  rw [Ideal.div_coe hpos1.ne', Ideal.div_coe hpos2.ne', one_mul, ← EReal.coe_mul, ← EReal.coe_mul]
  rw [EReal.coe_eq_coe_iff]
  have hs : ∑ k : Fin 2048, Real.exp (t (ix2 r k) - m) = Real.exp (-m) * ∑ k : Fin 2048, Real.exp (t (ix2 r k)) := by
    rw [Finset.mul_sum]
    exact Finset.sum_congr rfl fun k _ => by rw [sub_eq_add_neg, Real.exp_add, mul_comm]
  rw [hs, sub_eq_add_neg, Real.exp_add]
  have hm0 : Real.exp (-m) ≠ 0 := (Real.exp_pos _).ne'
  field_simp

end Cert.SoftmaxValue

end
-- ==== Proof.Value.Join.lean ====
/-
  Each device's result is its block of the reference's: the whole row's sum of exponentials is the sum of
  the four blocks' row sums, and the four slots of a device hold exactly the four devices' row sums.
-/
import proofs.«901059_g7700000000001060_dist_softmax_colshard_i_m1024_n512_v7x_i4_bf16_1_alg».proof.Proof.Value.KernelSide
import proofs.«901059_g7700000000001060_dist_softmax_colshard_i_m1024_n512_v7x_i4_bf16_1_alg».proof.Proof.Value.RefSide
import proofs.«901059_g7700000000001060_dist_softmax_colshard_i_m1024_n512_v7x_i4_bf16_1_alg».proof.Proof.Gen.Pre_finite_inputs_Kernel
import Idealize.ShloMosaic.Lib.Layout
import Idealize.ShloMosaic.Lib.ReduceAll

noncomputable section

namespace Cert.SoftmaxValue

open Idealize.ShloMosaic Idealize.ShloMosaic.ValueIdx Cert.KernelIdeal.Hand

namespace Join

/-! ## Finiteness of one value -/

/-- An extended real whose absolute value is below +∞ is a real number. -/
theorem real_of_abs_lt_top (y : EReal) (hy : max y (-y) < ⊤) : ∃ t : ℝ, y = (t : EReal) := by
  obtain ⟨h1, h2⟩ := max_lt_iff.1 hy
  have hnt : y ≠ ⊤ := ne_of_lt h1
  have hnb : y ≠ ⊥ := by
    intro hb
    rw [hb] at h2
    exact absurd h2 (by simp)
  exact ⟨y.toReal, (EReal.coe_toReal hnt hnb).symm⟩

/-! ## A column block read at an index -/

/-- Where entry (r, j) of column block c lies in an array of 2048 columns: row r, column 512 c + j. -/
theorem idx_block (h : Layout.Tiles ⟨2, ![1024, 512]⟩ ⟨2, ![1024, 2048]⟩ 1 4) (c : Fin 4) (r : Fin 1024) (j : Fin 512)
    (J : Fin 2048) (hJ : J.val = c.val * 512 + j.val) : h.idx c (ix2 r j) = ix2 r J := by
  funext a
  match a with
  | ⟨0, _⟩ => exact Fin.ext rfl
  | ⟨1, _⟩ => exact Fin.ext hJ.symm

/-- Entry (r, j) of column block c of an array of 2048 columns is the array's entry (r, 512 c + j). -/
theorem block_ix2 {α : Type} (X : (⟨2, ![1024, 2048]⟩ : Shape).Idx → α) (c : Fin 4) (r : Fin 1024) (j : Fin 512)
    (J : Fin 2048) (hJ : J.val = c.val * 512 + j.val) :
    (Layout.block ⟨2, ![1024, 512]⟩ ⟨2, ![1024, 2048]⟩ 1 4 c X) (ix2 r j) = X (ix2 r J) := by
  rw [Layout.block_apply, idx_block _ c r j J hJ]

/-! ## The sum over 2048 columns, block by block -/

/-- A sum over 2048 columns is the sum over the four blocks of the sums over each block's 512 columns:
    column J is column J % 512 of block J / 512. -/
theorem sum_split (f : Fin 2048 → EReal) :
    ∑ J : Fin 2048, f J = ∑ d : Fin 4, ∑ j : Fin 512, f ⟨d.val * 512 + j.val, by omega⟩ := by
  let e : Fin 4 × Fin 512 ≃ Fin 2048 := finProdFinEquiv.trans (finCongr (by norm_num))
  rw [← Fintype.sum_prod_type' (f := fun (d : Fin 4) (j : Fin 512) => f ⟨d.val * 512 + j.val, by omega⟩)]
  refine (Fintype.sum_equiv e _ _ fun p => congrArg f (Fin.ext ?_)).symm
  show p.1.val * 512 + p.2.val = p.2.val + 512 * p.1.val
  omega

/-! ## The four slots of a device -/

/-- A device and the devices one, two and three places before it on the ring of four are the four devices,
    each once: a sum over them, in that order, is the sum over all devices. -/
theorem four_devices (f : Fin 4 → EReal) (c : Fin 4) :
    f c + f (src c 1) + f (src c 2) + f (src c 3) = ∑ d : Fin 4, f d := by
  rw [Fin.sum_univ_four]
  fin_cases c
  · show f 0 + f 3 + f 2 + f 1 = _
    abel
  · show f 1 + f 0 + f 3 + f 2 = _
    abel
  · show f 2 + f 1 + f 0 + f 3 = _
    abel
  · show f 3 + f 2 + f 1 + f 0 = _
    abel

end Join

/-- Under the precondition every entry of a device's block is a real number. -/
theorem finite_of_pre (x : FVec Ideal Cert.Pre_finite_inputs_Kernel.S1024x512 .f32)
    (h : Cert.Pre_finite_inputs_Kernel.fn (F := Ideal) x = (fun _ => 1#1)) : ∀ i, ∃ t : ℝ, x i = (t : EReal) := by
  intro i
  -- the predicate's result has one index, and there it is 1: the conjunction over all entries met only 1s
  haveI : Subsingleton Cert.Pre_finite_inputs_Kernel.S_.Idx := ⟨fun _ _ => funext fun d => d.elim0⟩
  have h0 := congrFun h ValueIdx.ix0
  dsimp only [Cert.Pre_finite_inputs_Kernel.fn] at h0
  have h1 := Host.reduce_andi_all _ _ _ _ _ h0 i
  -- at entry i that says |x i| < the value of the word 0x7F800000, which is +∞
  have htop : Ideal.ofBits .f32 0x7F800000#32 = ⊤ := by simp [Ideal.ofBits, Ideal.ieee]
  have h2 : Ideal.cmp .olt (max (x i) (-(x i))) (Ideal.ofBits .f32 0x7F800000#32) = 1#1 := h1
  rw [htop] at h2
  refine Join.real_of_abs_lt_top (x i) ?_
  by_contra hn
  simp [Ideal.cmp, hn] at h2

theorem out_eq_ref_block (xs : Dev Cert.KernelIdeal.nD → Vec Ideal Cert.KernelIdeal.S1024x512 .f32)
    (X : (⟨Cert.ReferenceIdeal.S1024x2048, .f32⟩ : BufTy).Contents (Elt Ideal))
    (hpre : ∀ c, Cert.Pre_finite_inputs_Kernel.fn (F := Ideal) (xs c) = (fun _ => 1#1))
    (hblk : ∀ c, xs c = Layout.block ⟨2, ![1024, 512]⟩ ⟨2, ![1024, 2048]⟩ 1 4 c X)
    (c : Dev Cert.KernelIdeal.nD) :
    outVal (F := Ideal) xs c
      = Layout.block ⟨2, ![1024, 512]⟩ ⟨2, ![1024, 2048]⟩ 1 4 c (Cert.ReferenceIdeal.Read.val_main_v9 (F := Ideal) X) := by
  -- a block's entry is an entry of the whole array
  have hx : ∀ (d : Fin 4) (r : Fin 1024) (j : Fin 512) (J : Fin 2048), J.val = d.val * 512 + j.val →
      xs d (ix2 r j) = X (ix2 r J) := by
    intro d r j J hJ
    rw [hblk d]
    exact Join.block_ix2 X d r j J hJ
  -- every entry of the whole array lies in some block, so it is a real number
  have hfin : ∀ i, ∃ t : ℝ, X i = (t : EReal) := by
    intro i
    obtain ⟨r, J, rfl⟩ : ∃ (r : Fin 1024) (J : Fin 2048), i = ix2 r J := ⟨i 0, i 1, eq_ix2 i⟩
    have hd : J.val / 512 < 4 := by omega
    have hj : J.val % 512 < 512 := Nat.mod_lt _ (by norm_num)
    obtain ⟨t, ht⟩ := finite_of_pre (xs ⟨J.val / 512, hd⟩) (hpre _) (ix2 r ⟨J.val % 512, hj⟩)
    refine ⟨t, ?_⟩
    rw [← ht]
    exact (hx ⟨J.val / 512, hd⟩ r ⟨J.val % 512, hj⟩ J (by show J.val = J.val / 512 * 512 + J.val % 512; omega)).symm
  -- the row's sum of exponentials is the sum of the four blocks' row sums
  have hsum : ∀ r : Fin 1024, rowSum X r = ∑ d : Fin 4, rowSum (xs d) r := by
    intro r
    unfold rowSum
    rw [Join.sum_split]
    refine Finset.sum_congr rfl fun d _ => Finset.sum_congr rfl fun j _ => ?_
    rw [hx d r j ⟨d.val * 512 + j.val, by omega⟩ rfl]
  funext i
  obtain ⟨r, j, rfl⟩ : ∃ (r : Fin 1024) (j : Fin 512), i = ix2 r j := ⟨i 0, i 1, eq_ix2 i⟩
  have hc : c.val < 4 := c.isLt
  have hJ : c.val * 512 + j.val < 2048 := by omega
  -- both sides are the exponential of the same entry times the reciprocal of the same sum
  rw [outVal_apply, Join.block_ix2 _ c r j ⟨c.val * 512 + j.val, hJ⟩ rfl, ref_apply X hfin,
    Join.four_devices (fun d => rowSum (xs d) r) c, ← hsum r, hx c r j ⟨c.val * 512 + j.val, hJ⟩ rfl]

end Cert.SoftmaxValue

end
-- ==== Proof.lean ====
/-
  A softmax over the rows of an array whose columns are cut in four blocks, one per device: each device
  exponentiates its block, the four devices exchange their row sums, and each scales its block by the reciprocal
  of the total. Proved against the one-device reference, which subtracts the row maximum before exponentiating:
  each device's result is its block of the reference's, and every program runs and leaves its arguments unchanged.
-/
import proofs.«901059_g7700000000001060_dist_softmax_colshard_i_m1024_n512_v7x_i4_bf16_1_alg».proof.Defs
import proofs.«901059_g7700000000001060_dist_softmax_colshard_i_m1024_n512_v7x_i4_bf16_1_alg».proof.Proof.Gen.Kernel
import proofs.«901059_g7700000000001060_dist_softmax_colshard_i_m1024_n512_v7x_i4_bf16_1_alg».proof.Proof.Gen.Kernel.Skeleton
import proofs.«901059_g7700000000001060_dist_softmax_colshard_i_m1024_n512_v7x_i4_bf16_1_alg».proof.Proof.Gen.Kernel.Launch
import proofs.«901059_g7700000000001060_dist_softmax_colshard_i_m1024_n512_v7x_i4_bf16_1_alg».proof.Proof.Gen.Kernel.Points
import proofs.«901059_g7700000000001060_dist_softmax_colshard_i_m1024_n512_v7x_i4_bf16_1_alg».proof.Proof.Gen.Kernel.Frame
import proofs.«901059_g7700000000001060_dist_softmax_colshard_i_m1024_n512_v7x_i4_bf16_1_alg».proof.Proof.Gen.KernelIdeal
import proofs.«901059_g7700000000001060_dist_softmax_colshard_i_m1024_n512_v7x_i4_bf16_1_alg».proof.Proof.Gen.KernelIdeal.Skeleton
import proofs.«901059_g7700000000001060_dist_softmax_colshard_i_m1024_n512_v7x_i4_bf16_1_alg».proof.Proof.Gen.KernelIdeal.Launch
import proofs.«901059_g7700000000001060_dist_softmax_colshard_i_m1024_n512_v7x_i4_bf16_1_alg».proof.Proof.Gen.KernelIdeal.Points
import proofs.«901059_g7700000000001060_dist_softmax_colshard_i_m1024_n512_v7x_i4_bf16_1_alg».proof.Proof.Gen.KernelIdeal.Frame
import proofs.«901059_g7700000000001060_dist_softmax_colshard_i_m1024_n512_v7x_i4_bf16_1_alg».proof.Proof.Gen.ReferenceIdeal
import proofs.«901059_g7700000000001060_dist_softmax_colshard_i_m1024_n512_v7x_i4_bf16_1_alg».proof.Proof.Gen.ReferenceIdeal.Run
import proofs.«901059_g7700000000001060_dist_softmax_colshard_i_m1024_n512_v7x_i4_bf16_1_alg».proof.Proof.Gen.ReferenceIdeal.Read
import proofs.«901059_g7700000000001060_dist_softmax_colshard_i_m1024_n512_v7x_i4_bf16_1_alg».proof.Proof.Gen.Pre_finite_inputs_Kernel
import proofs.«901059_g7700000000001060_dist_softmax_colshard_i_m1024_n512_v7x_i4_bf16_1_alg».proof.Proof.Gen.Pre_finite_inputs_ReferenceIdeal
import proofs.«901059_g7700000000001060_dist_softmax_colshard_i_m1024_n512_v7x_i4_bf16_1_alg».proof.Proof.Kernel.Launch
import proofs.«901059_g7700000000001060_dist_softmax_colshard_i_m1024_n512_v7x_i4_bf16_1_alg».proof.Proof.KernelIdeal.Launch
import proofs.«901059_g7700000000001060_dist_softmax_colshard_i_m1024_n512_v7x_i4_bf16_1_alg».proof.Proof.Value.Join
import Idealize.ShloMosaic.Adequacy
import Idealize.ShloMosaic.Init

noncomputable section

namespace Cert.Proof

open Idealize.ShloMosaic Idealize.SL.Sem

/-- The word-level kernel runs and leaves every device's input block unchanged. -/
theorem frame_Kernel : Cert.frame_Kernel := fun m ρ _ =>
  (θ_run _ _ _).mono (fun _ h c => (h c).2) (Cert.Kernel.Hand.run_main (F := Bits) m ρ)

/-- The kernel over the extended reals runs and leaves every device's input block unchanged. -/
theorem frame_KernelIdeal : Cert.frame_KernelIdeal := fun m ρ _ =>
  (θ_run _ _ _).mono (fun _ h c => (h c).2) (Cert.KernelIdeal.Hand.run_main (F := Ideal) m ρ)

/-- The reference runs and leaves its argument unchanged. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- From blocks of one whole array, each device's result is its block of the reference's result, and both programs
    leave their arguments unchanged. -/
theorem algebraic : Cert.algebraic_KernelIdeal_ReferenceIdeal := by
  intro m ρ m' ρ' hpre hagree
  refine ⟨Cert.ReferenceIdeal.Read.val_main_v9 (F := Ideal)
    (m' (((0 : Dev Cert.ReferenceIdeal.nD).tc : Thread Cert.ReferenceIdeal.nD Cert.ReferenceIdeal.τ).loc Cert.ReferenceIdeal.main_arg0)), ?_, ?_⟩
  · refine (θ_run _ _ _).mono (fun r h c => ⟨?_, (h c).2⟩) (Cert.KernelIdeal.Hand.run_main (F := Ideal) m ρ)
    rw [(h c).1]
    show Cert.KernelIdeal.Hand.outVal (fun d => Cert.KernelIdeal.Hand.xin m ρ d) c = _
    rw [show (fun d => Cert.KernelIdeal.Hand.xin m ρ d)
        = (fun d : Dev Cert.KernelIdeal.nD => m ((d.tc : Thread Cert.KernelIdeal.nD Cert.KernelIdeal.τ).loc Cert.KernelIdeal.main_arg0))
      from funext (Cert.KernelIdeal.Hand.xin_eq m ρ)]
    exact Cert.SoftmaxValue.out_eq_ref_block
      (fun d => m ((d.tc : Thread Cert.KernelIdeal.nD Cert.KernelIdeal.τ).loc Cert.KernelIdeal.main_arg0))
      (m' (((0 : Dev Cert.ReferenceIdeal.nD).tc : Thread Cert.ReferenceIdeal.nD Cert.ReferenceIdeal.τ).loc Cert.ReferenceIdeal.main_arg0))
      hpre hagree c
  · exact (θ_run Cert.ReferenceIdeal.defs _ _).mono
      (fun r h => ⟨((h 0).1).trans (Cert.ReferenceIdeal.Read.val_main_v9_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, frame_ReferenceIdeal, trivial, algebraic⟩

end Cert.Proof

end
